-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x32x32 : Shape := ⟨4, ![64, 128, 32, 32]⟩
abbrev S64x128x1x1 : Shape := ⟨4, ![64, 128, 1, 1]⟩
abbrev S128 : Shape := ⟨1, ![128]⟩
abbrev S_ : Shape := ⟨0, ![]⟩

class Facts : Prop where
  bcast_S_S64x128x32x32 : S_.BroadcastsInDim S64x128x32x32 (![] : Fin 0 → Fin S64x128x32x32.rank)
  reducesTo_S64x128x32x32_S_d0_1_2_3 : S64x128x32x32.ReducesTo [0, 1, 2, 3] S_
  h_S_ : 0 < S_.numel
  bcast_S_S64x128x1x1 : S_.BroadcastsInDim S64x128x1x1 (![] : Fin 0 → Fin S64x128x1x1.rank)
  reducesTo_S64x128x1x1_S_d0_1_2_3 : S64x128x1x1.ReducesTo [0, 1, 2, 3] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S64x128x32x32 .f32) (main_arg1 : FVec F S64x128x1x1 .f32) (main_arg2 : FVec F S64x128x1x1 .f32) (main_arg3 : FVec F S128 .f32) (main_arg4 : FVec F S128 .f32) : IVec S_ 1 :=
  let main_v0 : FVec F S64x128x32x32 .f32 := Host.absf main_arg0
  let main_cst : FVec F S_ .f32 := constant S_ .f32 0x7F800000#32
  let main_v1 : FVec F S64x128x32x32 .f32 := broadcastInDim S64x128x32x32 ![] bcast_S_S64x128x32x32 main_cst
  let main_v2 : IVec S64x128x32x32 1 := cmpf .olt main_v0 main_v1
  let main_c : IVec S_ 1 := constantI S_ 1 1#1
  let main_v3 : IVec S_ 1 := (fun x v => Host.reduce IntOp.andi x v reducesTo_S64x128x32x32_S_d0_1_2_3 h_S_) main_v2 main_c
  let main_v4 : FVec F S64x128x1x1 .f32 := Host.absf main_arg1
  let main_cst_0 : FVec F S_ .f32 := constant S_ .f32 0x7F800000#32
  let main_v5 : FVec F S64x128x1x1 .f32 := broadcastInDim S64x128x1x1 ![] bcast_S_S64x128x1x1 main_cst_0
  let main_v6 : IVec S64x128x1x1 1 := cmpf .olt main_v4 main_v5
  let main_c_1 : IVec S_ 1 := constantI S_ 1 1#1
  let main_v7 : IVec S_ 1 := (fun x v => Host.reduce IntOp.andi x v reducesTo_S64x128x1x1_S_d0_1_2_3 h_S_) main_v6 main_c_1
  let main_v8 : IVec S_ 1 := andi main_v3 main_v7
  let main_v9 : FVec F S64x128x1x1 .f32 := Host.absf main_arg2
  let main_cst_2 : FVec F S_ .f32 := constant S_ .f32 0x7F800000#32
  let main_v10 : FVec F S64x128x1x1 .f32 := broadcastInDim S64x128x1x1 ![] bcast_S_S64x128x1x1 main_cst_2
  let main_v11 : IVec S64x128x1x1 1 := cmpf .olt main_v9 main_v10
  let main_c_3 : IVec S_ 1 := constantI S_ 1 1#1
  let main_v12 : IVec S_ 1 := (fun x v => Host.reduce IntOp.andi x v reducesTo_S64x128x1x1_S_d0_1_2_3 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S64x128x32x32 : Shape := ⟨4, ![64, 128, 32, 32]⟩
abbrev S64x128x1x1 : Shape := ⟨4, ![64, 128, 1, 1]⟩
abbrev S128 : Shape := ⟨1, ![128]⟩
abbrev S64x128x16x2x16x2 : Shape := ⟨6, ![64, 128, 16, 2, 16, 2]⟩
abbrev S_ : Shape := ⟨0, ![]⟩
abbrev S64x128x16x1x16x1 : Shape := ⟨6, ![64, 128, 16, 1, 16, 1]⟩
abbrev S64x128x16x16 : Shape := ⟨4, ![64, 128, 16, 16]⟩
abbrev S64x128x256 : Shape := ⟨3, ![64, 128, 256]⟩
abbrev S64x128 : Shape := ⟨2, ![64, 128]⟩
abbrev S128x1 : Shape := ⟨2, ![128, 1]⟩
abbrev S8x128x2 : Shape := ⟨3, ![8, 128, 2]⟩
abbrev S8x128x256 : Shape := ⟨3, ![8, 128, 256]⟩
abbrev S1x128x2 : Shape := ⟨3, ![1, 128, 2]⟩
abbrev S64x1 : Shape := ⟨2, ![64, 1]⟩
abbrev S1x128x256 : Shape := ⟨3, ![1, 128, 256]⟩
abbrev S128x256 : Shape := ⟨2, ![128, 256]⟩
abbrev S64x256 : Shape := ⟨2, ![64, 256]⟩
abbrev S64 : Shape := ⟨1, ![64]⟩
abbrev S1x64x1 : Shape := ⟨3, ![1, 64, 1]⟩
abbrev S128x2 : Shape := ⟨2, ![128, 2]⟩
abbrev S1x64x256 : Shape := ⟨3, ![1, 64, 256]⟩

abbrev nBuf : Space → Nat
  | .hbm => 27
  | .vmem => 19
  | .smem => 0
  | _ => 0

abbrev bufTy : (tb : Table) → Fin (tcTables nBuf tb) → BufTy
  | .hbm, ⟨0, _⟩ => ⟨S64x128x32x32, .f32⟩
  | .hbm, ⟨1, _⟩ => ⟨S64x128x1x1, .f32⟩
  | .hbm, ⟨2, _⟩ => ⟨S64x128x1x1, .f32⟩
  | .hbm, ⟨3, _⟩ => ⟨S128, .f32⟩
  | .hbm, ⟨4, _⟩ => ⟨S128, .f32⟩
  | .hbm, ⟨5, _⟩ => ⟨S64x128x16x2x16x2, .f32⟩
  | .hbm, ⟨6, _⟩ => ⟨S_, .f32⟩
  | .hbm, ⟨7, _⟩ => ⟨S64x128x16x2x16x2, .f32⟩
  | .hbm, ⟨8, _⟩ => ⟨S64x128x16x2x16x2, .i1⟩
  | .hbm, ⟨9, _⟩ => ⟨S_, .f32⟩
  | .hbm, ⟨10, _⟩ => ⟨S64x128x16x2x16x2, .f32⟩
  | .hbm, ⟨11, _⟩ => ⟨S64x128x16x2x16x2, .f32⟩
  | .hbm, ⟨12, _⟩ => ⟨S64x128x16x2x16x2, .f32⟩
  | .hbm, ⟨13, _⟩ => ⟨S64x128x16x2x16x2, .bf16⟩
  | .hbm, ⟨14, _⟩ => ⟨S64x128x16x1x16x1, .bf16⟩
  | .hbm, ⟨15, _⟩ => ⟨S64x128x16x16, .bf16⟩
  | .hbm, ⟨16, _⟩ => ⟨S64x128x256, .bf16⟩
  | .hbm, ⟨17, _⟩ => ⟨S64x128x16x1x16x1, .bf16⟩
  | .hbm, ⟨18, _⟩ => ⟨S64x128x16x16, .bf16⟩
  | .hbm, ⟨19, _⟩ => ⟨S64x128x256, .bf16⟩
  | .hbm, ⟨20, _⟩ => ⟨S64x128, .f32⟩
  | .hbm, ⟨21, _⟩ => ⟨S64x128, .f32⟩
  | .hbm, ⟨22, _⟩ => ⟨S128x1, .f32⟩
  | .hbm, ⟨23, _⟩ => ⟨S128x1, .f32⟩
  | .hbm, ⟨24, _⟩ => ⟨S8x128x2, .f32⟩
  | .hbm, ⟨25, _⟩ => ⟨S64x128x256, .f32⟩
  | .hbm, ⟨26, _⟩ => ⟨S64x128x16x16, .f32⟩
  | .local _ .vmem, ⟨0, _⟩ => ⟨S8x128x256, .bf16⟩
  | .local _ .vmem, ⟨1, _⟩ => ⟨S8x128x256, .bf16⟩
  | .local _ .vmem, ⟨2, _⟩ => ⟨S8x128x256, .bf16⟩
  | .local _ .vmem, ⟨3, _⟩ => ⟨S8x128x256, .bf16⟩
  | .local _ .vmem, ⟨4, _⟩ => ⟨S64x128, .f32⟩
  | .local _ .vmem, ⟨5, _⟩ => ⟨S64x128, .f32⟩
  | .local _ .vmem, ⟨6, _⟩ => ⟨S1x128x2, .f32⟩
  | .local _ .vmem, ⟨7, _⟩ => ⟨S1x128x2, .f32⟩
  | .local _ .vmem, ⟨8, _⟩ => ⟨S8x128x256, .bf16⟩
  | .local _ .vmem, ⟨9, _⟩ => ⟨S8x128x256, .bf16⟩
  | .local _ .vmem, ⟨10, _⟩ => ⟨S8x128x256, .bf16⟩
  | .local _ .vmem, ⟨11, _⟩ => ⟨S8x128x256, .bf16⟩
  | .local _ .vmem, ⟨12, _⟩ => ⟨S64x128, .f32⟩
  | .local _ .vmem, ⟨13, _⟩ => ⟨S64x128, .f32⟩
  | .local _ .vmem, ⟨14, _⟩ => ⟨S8x128x2, .f32⟩
  | .local _ .vmem, ⟨15, _⟩ => ⟨S128x1, .f32⟩
  | .local _ .vmem, ⟨16, _⟩ => ⟨S128x1, .f32⟩
  | .local _ .vmem, ⟨17, _⟩ => ⟨S8x128x256, .f32⟩
  | .local _ .vmem, ⟨18, _⟩ => ⟨S8x128x256, .f32⟩
  | _, _ => ⟨S64x128x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_call0_cst_0 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_call0_v17 : Ref sig .tc := ⟨.hbm, 24, rfl⟩
abbrev main_call0_v18 : Ref sig .tc := ⟨.hbm, 25, rfl⟩
abbrev main_v0 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x128x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8x128x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x128x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x128x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S8x128x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  shapeCasts_S64x128x32x32_S64x128x16x2x16x2 : S64x128x32x32.ShapeCasts S64x128x16x2x16x2
  bcast_S_S64x128x16x2x16x2 : S_.BroadcastsInDim S64x128x16x2x16x2 (![] : Fin 0 → Fin S64x128x16x2x16x2.rank)
  bitsLt_bf16_f32 : FTy.bits .bf16 < FTy.bits .f32
  slices_S64x128x16x2x16x2_S64x128x16x1x16x1_0_0_0_0_0_0 : S64x128x16x2x16x2.Slices ![0, 0, 0, 0, 0, 0] S64x128x16x1x16x1
  shapeCasts_S64x128x16x1x16x1_S64x128x16x16 : S64x128x16x1x16x1.ShapeCasts S64x128x16x16
  shapeCasts_S64x128x16x16_S64x128x256 : S64x128x16x16.ShapeCasts S64x128x256
  slices_S64x128x16x2x16x2_S64x128x16x1x16x1_0_0_0_1_0_1 : S64x128x16x2x16x2.Slices ![0, 0, 0, 1, 0, 1] S64x128x16x1x16x1
  shapeCasts_S64x128x1x1_S64x128 : S64x128x1x1.ShapeCasts S64x128
  shapeCasts_S128_S128x1 : S128.ShapeCasts S128x1
  shapeCasts_S64x128x256_S64x128x16x16 : S64x128x256.ShapeCasts S64x128x16x16
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S8x128x256_S1x128x256_0_0_0 : ∀ a, (![0, 0, 0] : Fin 3 → Nat) a + S1x128x256.size a ≤ S8x128x256.size a
  h_S1x128x256 : 0 < S1x128x256.numel
  shapeCasts_S1x128x256_S128x256 : S1x128x256.ShapeCasts S128x256
  reduces_S64x256_S64 : S64x256.Reduces [1] S64
  shapeCasts_S64_S64x1 : S64.ShapeCasts S64x1
  inb_S8x128x256_S1x128x256_1_0_0 : ∀ a, (![1, 0, 0] : Fin 3 → Nat) a + S1x128x256.size a ≤ S8x128x256.size a
  inb_S8x128x256_S1x128x256_2_0_0 : ∀ a, (![2, 0, 0] : Fin 3 → Nat) a + S1x128x256.size a ≤ S8x128x256.size a
  inb_S8x128x256_S1x128x256_3_0_0 : ∀ a, (![3, 0, 0] : Fin 3 → Nat) a + S1x128x256.size a ≤ S8x128x256.size a
  inb_S8x128x256_S1x128x256_4_0_0 : ∀ a, (![4, 0, 0] : Fin 3 → Nat) a + S1x128x256.size a ≤ S8x128x256.size a
  inb_S8x128x256_S1x128x256_5_0_0 : ∀ a, (![5, 0, 0] : Fin 3 → Nat) a + S1x128x256.size a ≤ S8x128x256.size a
  inb_S8x128x256_S1x128x256_6_0_0 : ∀ a, (![6, 0, 0] : Fin 3 → Nat) a + S1x128x256.size a ≤ S8x128x256.size a
  inb_S8x128x256_S1x128x256_7_0_0 : ∀ a, (![7, 0, 0] : Fin 3 → Nat) a + S1x128x256.size a ≤ S8x128x256.size a
  inb_S1x128x2_S1x64x1_0_0_0 : ∀ a, (![0, 0, 0] : Fin 3 → Nat) a + S1x64x1.size a ≤ S1x128x2.size a
  h_S1x64x1 : 0 < S1x64x1.numel
  shapeCasts_S1x64x1_S64x1 : S1x64x1.ShapeCasts S64x1
  shapeCasts_S64x1_S1x64x1 : S64x1.ShapeCasts S1x64x1
  inb_S1x128x2_S1x64x1_0_64_0 : ∀ a, (![0, 64, 0] : Fin 3 → Nat) a + S1x64x1.size a ≤ S1x128x2.size a
  inb_S1x128x2_S1x64x1_0_0_1 : ∀ a, (![0, 0, 1] : Fin 3 → Nat) a + S1x64x1.size a ≤ S1x128x2.size a
  inb_S1x128x2_S1x64x1_0_64_1 : ∀ a, (![0, 64, 1] : Fin 3 → Nat) a + S1x64x1.size a ≤ S1x128x2.size a
  inb_S8x128x2_S8x128x2_0_0_0 : ∀ a, (![0, 0, 0] : Fin 3 → Nat) a + S8x128x2.size a ≤ S8x128x2.size a
  h_S8x128x2 : 0 < S8x128x2.numel
  shapeCasts_S8x128x2_S8x128x2 : S8x128x2.ShapeCasts S8x128x2
  reduces_S8x128x2_S128x2 : S8x128x2.Reduces [0] S128x2
  slices_S128x2_o0_0_S128x1 : S128x2.Slices ![0, 0] S128x1
  slices_S128x2_o0_1_S128x1 : S128x2.Slices ![0, 1] S128x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  slices_S128x1_o0_0_S64x1 : S128x1.Slices ![0, 0] S64x1
  slices_S128x1_o64_0_S64x1 : S128x1.Slices ![64, 0] S64x1
  broadcasts_S64x1_S64x256 : S64x1.Broadcasts S64x256
  inb_S8x128x256_S1x64x256_0_0_0 : ∀ a, (![0, 0, 0] : Fin 3 → Nat) a + S1x64x256.size a ≤ S8x128x256.size a
  h_S1x64x256 : 0 < S1x64x256.numel
  shapeCasts_S1x64x256_S64x256 : S1x64x256.ShapeCasts S64x256
  shapeCasts_S64x256_S1x64x256 : S64x256.ShapeCasts S1x64x256
  inb_S8x128x256_S1x64x256_0_64_0 : ∀ a, (![0, 64, 0] : Fin 3 → Nat) a + S1x64x256.size a ≤ S8x128x256.size a
  inb_S8x128x256_S1x64x256_1_0_0 : ∀ a, (![1, 0, 0] : Fin 3 → Nat) a + S1x64x256.size a ≤ S8x128x256.size a
  inb_S8x128x256_S1x64x256_1_64_0 : ∀ a, (![1, 64, 0] : Fin 3 → Nat) a + S1x64x256.size a ≤ S8x128x256.size a
  inb_S8x128x256_S1x64x256_2_0_0 : ∀ a, (![2, 0, 0] : Fin 3 → Nat) a + S1x64x256.size a ≤ S8x128x256.size a
  inb_S8x128x256_S1x64x256_2_64_0 : ∀ a, (![2, 64, 0] : Fin 3 → Nat) a + S1x64x256.size a ≤ S8x128x256.size a
  inb_S8x128x256_S1x64x256_3_0_0 : ∀ a, (![3, 0, 0] : Fin 3 → Nat) a + S1x64x256.size a ≤ S8x128x256.size a
  inb_S8x128x256_S1x64x256_3_64_0 : ∀ a, (![3, 64, 0] : Fin 3 → Nat) a + S1x64x256.size a ≤ S8x128x256.size a
  inb_S8x128x256_S1x64x256_4_0_0 : ∀ a, (![4, 0, 0] : Fin 3 → Nat) a + S1x64x256.size a ≤ S8x128x256.size a
  inb_S8x128x256_S1x64x256_4_64_0 : ∀ a, (![4, 64, 0] : Fin 3 → Nat) a + S1x64x256.size a ≤ S8x128x256.size a
  inb_S8x128x256_S1x64x256_5_0_0 : ∀ a, (![5, 0, 0] : Fin 3 → Nat) a + S1x64x256.size a ≤ S8x128x256.size a
  inb_S8x128x256_S1x64x256_5_64_0 : ∀ a, (![5, 64, 0] : Fin 3 → Nat) a + S1x64x256.size a ≤ S8x128x256.size a
  inb_S8x128x256_S1x64x256_6_0_0 : ∀ a, (![6, 0, 0] : Fin 3 → Nat) a + S1x64x256.size a ≤ S8x128x256.size a
  inb_S8x128x256_S1x64x256_6_64_0 : ∀ a, (![6, 64, 0] : Fin 3 → Nat) a + S1x64x256.size a ≤ S8x128x256.size a
  inb_S8x128x256_S1x64x256_7_0_0 : ∀ a, (![7, 0, 0] : Fin 3 → Nat) a + S1x64x256.size a ≤ S8x128x256.size a
  inb_S8x128x256_S1x64x256_7_64_0 : ∀ a, (![7, 64, 0] : Fin 3 → Nat) a + S1x64x256.size a ≤ S8x128x256.size a
  dot_S64x128_S128x256_S64x256_1_0_0_1_n_n_wf : DotDims.WF S64x128 S128x256 S64x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x256.size a ≤ S64x128x256.size a
  hwx0_0 : ∀ i : grid0.Coords, EltTy.bits .bf16 = 32 ∨ (Rect.block (s := S64x128x256) S8x128x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x256.size a ≤ S64x128x256.size a
  hwx0_1 : ∀ i : grid0.Coords, EltTy.bits .bf16 = 32 ∨ (Rect.block (s := S64x128x256) S8x128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x2.size a ≤ S8x128x2.size a
  hwx0_4 : ∀ i : grid0.Coords, EltTy.bits .f32 = 32 ∨ (Rect.block (s := S8x128x2) S1x128x2.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x128x256.size a ≤ S64x128x256.size a
  hwx1_0 : ∀ i : grid1.Coords, EltTy.bits .bf16 = 32 ∨ (Rect.block (s := S64x128x256) S8x128x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x128x256.size a ≤ S64x128x256.size a
  hwx1_1 : ∀ i : grid1.Coords, EltTy.bits .bf16 = 32 ∨ (Rect.block (s := S64x128x256) S8x128x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x128x2.size a ≤ S8x128x2.size a
  hwx1_4 : ∀ i : grid1.Coords, EltTy.bits .f32 = 32 ∨ (Rect.block (s := S8x128x2) S8x128x2.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x1.size a ≤ S128x1.size a
  hwx1_5 : ∀ i : grid1.Coords, EltTy.bits .f32 = 32 ∨ (Rect.block (s := S128x1) S128x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x1.size a ≤ S128x1.size a
  hwx1_6 : ∀ i : grid1.Coords, EltTy.bits .f32 = 32 ∨ (Rect.block (s := S128x1) S128x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8x128x256.size a ≤ S64x128x256.size a
  hwx1_7 : ∀ i : grid1.Coords, EltTy.bits .f32 = 32 ∨ (Rect.block (s := S64x128x256) S8x128x256.size (cc1_transform_7 i) (hinb1_7 i)).WholeWords (EltTy.packing .f32)

variable [Facts₀]

def dot_S64x128_S128x256_S64x256_1_0_0_1_n_n : DotDims S64x128 S128x256 S64x256 where
  lhsContracting := [1]
  rhsContracting := [0]
  lhsNonContracting := [0]
  rhsNonContracting := [1]
  lhsBatch := []
  rhsBatch := []
  wf := dot_S64x128_S128x256_S64x256_1_0_0_1_n_n_wf

abbrev win0_0 : Pipeline.Window sig grid0 :=
  Pipeline.Window.ofSpec (Memref.whole main_call0_v9) S8x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v12) S8x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v13) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v14) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v17) S1x128x2.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_call0_v9) S8x128x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v12) S8x128x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v13) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v14) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v17) S8x128x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v15) S128x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v16) S128x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_call0_v18) S8x128x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S64x128x32x32 : Shape := ⟨4, ![64, 128, 32, 32]⟩
abbrev S64x128x1x1 : Shape := ⟨4, ![64, 128, 1, 1]⟩
abbrev S128 : Shape := ⟨1, ![128]⟩
abbrev S64x128x16x2x16x2 : Shape := ⟨6, ![64, 128, 16, 2, 16, 2]⟩
abbrev S64x128x16x1x16x1 : Shape := ⟨6, ![64, 128, 16, 1, 16, 1]⟩
abbrev S64x128x16x16 : Shape := ⟨4, ![64, 128, 16, 16]⟩
abbrev S64x256x16x16 : Shape := ⟨4, ![64, 256, 16, 16]⟩
abbrev S64x256x256 : Shape := ⟨3, ![64, 256, 256]⟩
abbrev S_ : Shape := ⟨0, ![]⟩
abbrev S64x128 : Shape := ⟨2, ![64, 128]⟩
abbrev S128x256 : Shape := ⟨2, ![128, 256]⟩
abbrev S1 : Shape := ⟨1, ![1]⟩
abbrev S2 : Shape := ⟨1, ![2]⟩
abbrev S32x128x2 : Shape := ⟨3, ![32, 128, 2]⟩
abbrev S32x128x1 : Shape := ⟨3, ![32, 128, 1]⟩
abbrev S32x128 : Shape := ⟨2, ![32, 128]⟩
abbrev S128x1 : Shape := ⟨2, ![128, 1]⟩
abbrev S64x128x256 : Shape := ⟨3, ![64, 128, 256]⟩
abbrev S2x256x256 : Shape := ⟨3, ![2, 256, 256]⟩
abbrev S1x128x2 : Shape := ⟨3, ![1, 128, 2]⟩
abbrev S1x256x256 : Shape := ⟨3, ![1, 256, 256]⟩
abbrev S256x256 : Shape := ⟨2, ![256, 256]⟩
abbrev S1x128x1 : Shape := ⟨3, ![1, 128, 1]⟩
abbrev S2x128x256 : Shape := ⟨3, ![2, 128, 256]⟩
abbrev S1x128x256 : Shape := ⟨3, ![1, 128, 256]⟩

abbrev nBuf : Space → Nat
  | .hbm => 64
  | .vmem => 11
  | .smem => 0
  | _ => 0

abbrev bufTy : (tb : Table) → Fin (tcTables nBuf tb) → BufTy
  | .hbm, ⟨0, _⟩ => ⟨S64x128x32x32, .f32⟩
  | .hbm, ⟨1, _⟩ => ⟨S64x128x1x1, .f32⟩
  | .hbm, ⟨2, _⟩ => ⟨S64x128x1x1, .f32⟩
  | .hbm, ⟨3, _⟩ => ⟨S128, .f32⟩
  | .hbm, ⟨4, _⟩ => ⟨S128, .f32⟩
  | .hbm, ⟨5, _⟩ => ⟨S64x128x16x2x16x2, .f32⟩
  | .hbm, ⟨6, _⟩ => ⟨S64x128x16x1x16x1, .f32⟩
  | .hbm, ⟨7, _⟩ => ⟨S64x128x16x16, .f32⟩
  | .hbm, ⟨8, _⟩ => ⟨S64x128x16x1x16x1, .f32⟩
  | .hbm, ⟨9, _⟩ => ⟨S64x128x16x16, .f32⟩
  | .hbm, ⟨10, _⟩ => ⟨S64x256x16x16, .f32⟩
  | .hbm, ⟨11, _⟩ => ⟨S64x256x256, .f32⟩
  | .hbm, ⟨12, _⟩ => ⟨S_, .i32⟩
  | .hbm, ⟨13, _⟩ => ⟨S_, .f32⟩
  | .hbm, ⟨14, _⟩ => ⟨S64x256x256, .f32⟩
  | .hbm, ⟨15, _⟩ => ⟨S64x128, .f32⟩
  | .hbm, ⟨16, _⟩ => ⟨S64x128, .f32⟩
  | .hbm, ⟨17, _⟩ => ⟨S_, .f32⟩
  | .hbm, ⟨18, _⟩ => ⟨S128x256, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S128x256, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S128x256, .f32⟩
  | .hbm, ⟨31, _⟩ => ⟨S32x128x2, .f32⟩
  | .hbm, ⟨32, _⟩ => ⟨S32x128x1, .f32⟩
  | .hbm, ⟨33, _⟩ => ⟨S32x128, .f32⟩
  | .hbm, ⟨34, _⟩ => ⟨S_, .f32⟩
  | .hbm, ⟨35, _⟩ => ⟨S128, .f32⟩
  | .hbm, ⟨36, _⟩ => ⟨S32x128x1, .f32⟩
  | .hbm, ⟨37, _⟩ => ⟨S32x128, .f32⟩
  | .hbm, ⟨38, _⟩ => ⟨S_, .f32⟩
  | .hbm, ⟨39, _⟩ => ⟨S128, .f32⟩
  | .hbm, ⟨40, _⟩ => ⟨S_, .f32⟩
  | .hbm, ⟨41, _⟩ => ⟨S128, .f32⟩
  | .hbm, ⟨42, _⟩ => ⟨S128, .f32⟩
  | .hbm, ⟨43, _⟩ => ⟨S_, .f32⟩
  | .hbm, ⟨44, _⟩ => ⟨S128, .f32⟩
  | .hbm, ⟨45, _⟩ => ⟨S128, .f32⟩
  | .hbm, ⟨46, _⟩ => ⟨S128, .f32⟩
  | .hbm, ⟨47, _⟩ => ⟨S128, .f32⟩
  | .hbm, ⟨48, _⟩ => ⟨S_, .f32⟩
  | .hbm, ⟨49, _⟩ => ⟨S128, .f32⟩
  | .hbm, ⟨50, _⟩ => ⟨S128, .f32⟩
  | .hbm, ⟨51, _⟩ => ⟨S_, .f32⟩
  | .hbm, ⟨52, _⟩ => ⟨S128, .f32⟩
  | .hbm, ⟨53, _⟩ => ⟨S128, .f32⟩
  | .hbm, ⟨54, _⟩ => ⟨S128, .f32⟩
  | .hbm, ⟨55, _⟩ => ⟨S128, .f32⟩
  | .hbm, ⟨56, _⟩ => ⟨S128, .f32⟩
  | .hbm, ⟨57, _⟩ => ⟨S128, .f32⟩
  | .hbm, ⟨58, _⟩ => ⟨S128x1, .f32⟩
  | .hbm, ⟨59, _⟩ => ⟨S128x1, .f32⟩
  | .hbm, ⟨60, _⟩ => ⟨S128x256, .f32⟩
  | .hbm, ⟨61, _⟩ => ⟨S128x256, .f32⟩
  | .hbm, ⟨62, _⟩ => ⟨S64x128x256, .f32⟩
  | .hbm, ⟨63, _⟩ => ⟨S64x128x16x16, .f32⟩
  | .local _ .vmem, ⟨0, _⟩ => ⟨S2x256x256, .f32⟩
  | .local _ .vmem, ⟨1, _⟩ => ⟨S2x256x256, .f32⟩
  | .local _ .vmem, ⟨2, _⟩ => ⟨S128x256, .f32⟩
  | .local _ .vmem, ⟨3, _⟩ => ⟨S1x128x2, .f32⟩
  | .local _ .vmem, ⟨4, _⟩ => ⟨S1x128x2, .f32⟩
  | .local _ .vmem, ⟨5, _⟩ => ⟨S2x256x256, .f32⟩
  | .local _ .vmem, ⟨6, _⟩ => ⟨S2x256x256, .f32⟩
  | .local _ .vmem, ⟨7, _⟩ => ⟨S128x256, .f32⟩
  | .local _ .vmem, ⟨8, _⟩ => ⟨S128x1, .f32⟩
  | .local _ .vmem, ⟨9, _⟩ => ⟨S2x128x256, .f32⟩
  | .local _ .vmem, ⟨10, _⟩ => ⟨S2x128x256, .f32⟩
  | _, _ => ⟨S64x128x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_c : Ref sig .tc := ⟨.hbm, 12, rfl⟩
abbrev main_call0_call0_v0 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_cst : Ref sig .tc := ⟨.hbm, 17, rfl⟩
abbrev main_call0_v10 : Ref sig .tc := ⟨.hbm, 18, rfl⟩
abbrev main_call0_c_0 : Ref sig .tc := ⟨.hbm, 19, rfl⟩
abbrev main_call0_v11 : Ref sig .tc := ⟨.hbm, 20, rfl⟩
abbrev main_call0_c_1 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_c_2 : Ref sig .tc := ⟨.hbm, 25, rfl⟩
abbrev main_call0_v15 : Ref sig .tc := ⟨.hbm, 26, rfl⟩
abbrev main_call0_c_3 : Ref sig .tc := ⟨.hbm, 27, rfl⟩
abbrev main_call0_v16 : Ref sig .tc := ⟨.hbm, 28, rfl⟩
abbrev main_call0_v17 : Ref sig .tc := ⟨.hbm, 29, rfl⟩
abbrev main_call0_v18 : Ref sig .tc := ⟨.hbm, 30, rfl⟩
abbrev main_call0_v19 : Ref sig .tc := ⟨.hbm, 31, rfl⟩
abbrev main_call0_v20 : Ref sig .tc := ⟨.hbm, 32, rfl⟩
abbrev main_call0_v21 : Ref sig .tc := ⟨.hbm, 33, rfl⟩
abbrev main_call0_cst_4 : Ref sig .tc := ⟨.hbm, 34, rfl⟩
abbrev main_call0_v22 : Ref sig .tc := ⟨.hbm, 35, rfl⟩
abbrev main_call0_v23 : Ref sig .tc := ⟨.hbm, 36, rfl⟩
abbrev main_call0_v24 : Ref sig .tc := ⟨.hbm, 37, rfl⟩
abbrev main_call0_cst_5 : Ref sig .tc := ⟨.hbm, 38, rfl⟩
abbrev main_call0_v25 : Ref sig .tc := ⟨.hbm, 39, rfl⟩
abbrev main_call0_cst_6 : Ref sig .tc := ⟨.hbm, 40, rfl⟩
abbrev main_call0_v26 : Ref sig .tc := ⟨.hbm, 41, rfl⟩
abbrev main_call0_v27 : Ref sig .tc := ⟨.hbm, 42, rfl⟩
abbrev main_call0_cst_7 : Ref sig .tc := ⟨.hbm, 43, rfl⟩
abbrev main_call0_v28 : Ref sig .tc := ⟨.hbm, 44, rfl⟩
abbrev main_call0_v29 : Ref sig .tc := ⟨.hbm, 45, rfl⟩
abbrev main_call0_v30 : Ref sig .tc := ⟨.hbm, 46, rfl⟩
abbrev main_call0_v31 : Ref sig .tc := ⟨.hbm, 47, rfl⟩
abbrev main_call0_cst_8 : Ref sig .tc := ⟨.hbm, 48, rfl⟩
abbrev main_call0_v32 : Ref sig .tc := ⟨.hbm, 49, rfl⟩
abbrev main_call0_v33 : Ref sig .tc := ⟨.hbm, 50, rfl⟩
abbrev main_call0_cst_9 : Ref sig .tc := ⟨.hbm, 51, rfl⟩
abbrev main_call0_v34 : Ref sig .tc := ⟨.hbm, 52, rfl⟩
abbrev main_call0_v35 : Ref sig .tc := ⟨.hbm, 53, rfl⟩
abbrev main_call0_v36 : Ref sig .tc := ⟨.hbm, 54, rfl⟩
abbrev main_call0_v37 : Ref sig .tc := ⟨.hbm, 55, rfl⟩
abbrev main_call0_v38 : Ref sig .tc := ⟨.hbm, 56, rfl⟩
abbrev main_call0_v39 : Ref sig .tc := ⟨.hbm, 57, rfl⟩
abbrev main_call0_v40 : Ref sig .tc := ⟨.hbm, 58, rfl⟩
abbrev main_call0_v41 : Ref sig .tc := ⟨.hbm, 59, rfl⟩
abbrev main_call0_v42 : Ref sig .tc := ⟨.hbm, 60, rfl⟩
abbrev main_call0_v43 : Ref sig .tc := ⟨.hbm, 61, rfl⟩
abbrev main_call0_v44 : Ref sig .tc := ⟨.hbm, 62, rfl⟩
abbrev main_v0 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S2x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![32, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S2x256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S128x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2x128x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S64x128x32x32_S64x128x16x2x16x2 : S64x128x32x32.ShapeCasts S64x128x16x2x16x2
  slices_S64x128x16x2x16x2_S64x128x16x1x16x1_0_0_0_0_0_0 : S64x128x16x2x16x2.Slices ![0, 0, 0, 0, 0, 0] S64x128x16x1x16x1
  shapeCasts_S64x128x16x1x16x1_S64x128x16x16 : S64x128x16x1x16x1.ShapeCasts S64x128x16x16
  slices_S64x128x16x2x16x2_S64x128x16x1x16x1_0_0_0_1_0_1 : S64x128x16x2x16x2.Slices ![0, 0, 0, 1, 0, 1] S64x128x16x1x16x1
  concatenates_S64x128x16x16_S64x128x16x16_S64x256x16x16_d1 : Shape.Concatenates [S64x128x16x16, S64x128x16x16] S64x256x16x16 1
  shapeCasts_S64x256x16x16_S64x256x256 : S64x256x16x16.ShapeCasts S64x256x256
  pads_S64x256x256_S64x256x256_000_000_000 : S64x256x256.Pads (![0, 0, 0] : Fin 3 → Nat) ![0, 0, 0] ![0, 0, 0] S64x256x256
  h_S_ : 0 < S_.numel
  shapeCasts_S64x128x1x1_S64x128 : S64x128x1x1.ShapeCasts S64x128
  bcast_S_S128x256 : S_.BroadcastsInDim S128x256 (![] : Fin 0 → Fin S128x256.rank)
  bcast_S_S1 : S_.BroadcastsInDim S1 (![] : Fin 0 → Fin S1.rank)
  concatenates_S1_S1_S2_d0 : Shape.Concatenates [S1, S1] S2 0
  slices_S32x128x2_S32x128x1_0_0_0 : S32x128x2.Slices ![0, 0, 0] S32x128x1
  shapeCasts_S32x128x1_S32x128 : S32x128x1.ShapeCasts S32x128
  reducesTo_S32x128_S128_d0 : S32x128.ReducesTo [0] S128
  slices_S32x128x2_S32x128x1_0_0_1 : S32x128x2.Slices ![0, 0, 1] S32x128x1
  bcast_S_S128 : S_.BroadcastsInDim S128 (![] : Fin 0 → Fin S128.rank)
  shapeCasts_S128_S128x1 : S128.ShapeCasts S128x1
  bcast_S128_S128x1_0 : S128.BroadcastsInDim S128x1 (![0] : Fin 1 → Fin S128x1.rank)
  bcast_S128x1_S128x256_0_1 : S128x1.BroadcastsInDim S128x256 (![0, 1] : Fin 2 → Fin S128x256.rank)
  shapeCasts_S64x128x256_S64x128x16x16 : S64x128x256.ShapeCasts S64x128x16x16
  inb_S2x256x256_S2x256x256_0_0_0 : ∀ a, (![0, 0, 0] : Fin 3 → Nat) a + S2x256x256.size a ≤ S2x256x256.size a
  h_S2x256x256 : 0 < S2x256x256.numel
  shapeCasts_S2x256x256_S2x256x256 : S2x256x256.ShapeCasts S2x256x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  slices_S2x256x256_o0_0_0_S1x256x256 : S2x256x256.Slices ![0, 0, 0] S1x256x256
  shapeCasts_S1x256x256_S256x256 : S1x256x256.ShapeCasts S256x256
  reduces_S128x256_S128 : S128x256.Reduces [1] S128
  slices_S2x256x256_o1_0_0_S1x256x256 : S2x256x256.Slices ![1, 0, 0] S1x256x256
  inb_S1x128x2_S1x128x1_0_0_0 : ∀ a, (![0, 0, 0] : Fin 3 → Nat) a + S1x128x1.size a ≤ S1x128x2.size a
  h_S1x128x1 : 0 < S1x128x1.numel
  shapeCasts_S1x128x1_S128x1 : S1x128x1.ShapeCasts S128x1
  shapeCasts_S128x1_S1x128x1 : S128x1.ShapeCasts S1x128x1
  inb_S1x128x2_S1x128x1_0_0_1 : ∀ a, (![0, 0, 1] : Fin 3 → Nat) a + S1x128x1.size a ≤ S1x128x2.size a
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x256 : S128x1.Broadcasts S128x256
  inb_S2x128x256_S1x128x256_0_0_0 : ∀ a, (![0, 0, 0] : Fin 3 → Nat) a + S1x128x256.size a ≤ S2x128x256.size a
  h_S1x128x256 : 0 < S1x128x256.numel
  shapeCasts_S1x128x256_S128x256 : S1x128x256.ShapeCasts S128x256
  shapeCasts_S128x256_S1x128x256 : S128x256.ShapeCasts S1x128x256
  inb_S2x128x256_S1x128x256_1_0_0 : ∀ a, (![1, 0, 0] : Fin 3 → Nat) a + S1x128x256.size a ≤ S2x128x256.size a
  scatter_S128x256_S2_S64x128_01_n_01_0_wf : ScatterDims.WF S128x256 S2 S64x128 [0, 1] [] [0, 1] 0
  dot_S128x256_S256x256_S128x256_1_0_0_1_n_n_wf : DotDims.WF S128x256 S256x256 S128x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x256.size a ≤ S64x256x256.size a
  hwx0_0 : ∀ i : grid0.Coords, EltTy.bits .f32 = 32 ∨ (Rect.block (s := S64x256x256) S2x256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x2.size a ≤ S32x128x2.size a
  hwx0_2 : ∀ i : grid0.Coords, EltTy.bits .f32 = 32 ∨ (Rect.block (s := S32x128x2) S1x128x2.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x256x256.size a ≤ S64x256x256.size a
  hwx1_0 : ∀ i : grid1.Coords, EltTy.bits .f32 = 32 ∨ (Rect.block (s := S64x256x256) S2x256x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S128x1.size a
  hwx1_2 : ∀ i : grid1.Coords, EltTy.bits .f32 = 32 ∨ (Rect.block (s := S128x1) S128x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2x128x256.size a ≤ S64x128x256.size a
  hwx1_3 : ∀ i : grid1.Coords, EltTy.bits .f32 = 32 ∨ (Rect.block (s := S64x128x256) S2x128x256.size (cc1_transform_3 i) (hinb1_3 i)).WholeWords (EltTy.packing .f32)

variable [Facts₀]

def scatter_S128x256_S2_S64x128_01_n_01_0 : ScatterDims S128x256 S2 S64x128 where
  updateWindowDims := [0, 1]
  insertedWindowDims := []
  scatterDimsToOperandDims := [0, 1]
  indexVectorDim := 0
  wf := scatter_S128x256_S2_S64x128_01_n_01_0_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf

abbrev win0_0 : Pipeline.Window sig grid0 :=
  Pipeline.Window.ofSpec (Memref.whole main_call0_v7) S2x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v18) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v19) S1x128x2.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v7) S2x256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v43) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v40) S128x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v44) S2x128x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== Proof.Spec.lean ====
/-
  The mathematics of the two programs, stated once over plain coordinate functions into the extended reals
  (no program is imported here).  A 1x1 convolution of stride 2 applied twice (pixel offsets (0,0) and (1,1)) to
  the LeakyReLU of the input, the two results stacked on the channel axis, then training-mode batch
  normalisation over (batch, pixel) per channel:

      y[n,ch,s]   = Σ_k w[ch,k] · act(x[n,k,pixel s])
      S_j[ch]     = Σ_n Σ_s y[n,ch,s]^(j+1)            (j = 0, 1)
      mean        = S_0 / 16384,   var = max(S_1/16384 − mean², 0)
      scale       = γ · rsqrt(var + ε),   bias = β − mean · scale
      out[n,ch,s] = y[n,ch,s] · scale[ch] + bias[ch].

  One program computes y by two 64×128 products and sums 8 images per grid point; the other by one 128×256
  block-diagonal product over the concatenated inputs, sums 2 images per grid point, and folds the scale into
  the weight before the second product.  Each stage below is the function of the arrays its region or host
  stretch finds; the last section joins the two.
-/
import Idealize.ShloMosaic.PureOps.Ideal
import Idealize.ShloMosaic.Lib.ValueIdx

noncomputable section

open scoped BigOperators

namespace Cert.Spec

open Idealize.ShloMosaic

/-- A rank-2, rank-3, rank-4 array as a function of its coordinates. -/
abbrev T1 (a : Nat) := Fin a → EReal
abbrev T2 (a b : Nat) := Fin a → Fin b → EReal
abbrev T3 (a b c : Nat) := Fin a → Fin b → Fin c → EReal
abbrev T4 (a b c d : Nat) := Fin a → Fin b → Fin c → Fin d → EReal

/-- An array over a literal shape read by coordinates. -/
abbrev a1 {a : Nat} (x : (⟨1, ![a]⟩ : Shape).Idx → EReal) : T1 a := fun i => x (ValueIdx.ix1 i)
abbrev a2 {a b : Nat} (x : (⟨2, ![a, b]⟩ : Shape).Idx → EReal) : T2 a b := fun i j => x (ValueIdx.ix2 i j)
abbrev a3 {a b c : Nat} (x : (⟨3, ![a, b, c]⟩ : Shape).Idx → EReal) : T3 a b c := fun i j k => x (ValueIdx.ix3 i j k)
abbrev a4 {a b c d : Nat} (x : (⟨4, ![a, b, c, d]⟩ : Shape).Idx → EReal) : T4 a b c d := fun i j k l => x (ValueIdx.ix4 i j k l)
/-- A column [a, 1] read as a vector, and a weight [a, b, 1, 1] read as a matrix. -/
abbrev col {a : Nat} (x : (⟨2, ![a, 1]⟩ : Shape).Idx → EReal) : T1 a := fun i => x (ValueIdx.ix2 i (0 : Fin 1))
abbrev mat11 {a b : Nat} (x : (⟨4, ![a, b, 1, 1]⟩ : Shape).Idx → EReal) : T2 a b := fun i j => x (ValueIdx.ix4 i j (0 : Fin 1) (0 : Fin 1))

/-- Pixel (h, w) of a 16×16 image is position 16·h + w of its flattening. -/
def pix (h w : Fin 16) : Fin 256 := ⟨16 * h.val + w.val, by omega⟩

/-- The slope word of the LeakyReLU (the f32 nearest 0.01), the reciprocal count 2⁻¹⁴, the count 16384, and ε. -/
abbrev slope : EReal := Ideal.ofBits .f32 0x3C23D70A#32
abbrev invCnt : EReal := Ideal.ofBits .f32 0x38800000#32
abbrev cnt : EReal := Ideal.ofBits .f32 0x46800000#32
abbrev eps : EReal := Ideal.ofBits .f32 0x3727C5AC#32

/-- LeakyReLU: x where 0 ≤ x, slope · x elsewhere. -/
def act (x : EReal) : EReal := Scalar.select (Ideal.cmp .oge x 0) x (slope * x)

/-- Pixel s of the 16×16 output reads input pixel (2·(s/16) + o, 2·(s%16) + o), o the offset (0 or 1). -/
def pick (X : T4 64 128 32 32) (o : Fin 2) (n : Fin 64) (k : Fin 128) (s : Fin 256) : EReal :=
  X n k ⟨2 * (s.val / 16) + o.val, by omega⟩ ⟨2 * (s.val % 16) + o.val, by omega⟩

/-! ## The first program's stages -/

/-- One product: y[n,c,s] = Σ_k w[c,k] · x[n,k,s]. -/
def conv {C K : Nat} (w : T2 C K) (x : T3 64 K 256) (n : Fin 64) (c : Fin C) (s : Fin 256) : EReal :=
  ∑ k : Fin K, w c k * x n k s

/-- The two products side by side on the channel axis: channels 0–63 from (w1, x1), 64–127 from (w2, x2). -/
def conv2 (w1 w2 : T2 64 128) (x1 x2 : T3 64 128 256) (n : Fin 64) (ch : Fin 128) (s : Fin 256) : EReal :=
  if h : ch.val < 64 then conv w1 x1 n ⟨ch.val, h⟩ s else conv w2 x2 n ⟨ch.val - 64, by omega⟩ s

/-- Partial sums of grid point g (images 8g … 8g+7): column 0 the sum of y, column 1 of y². -/
def kstats (w1 w2 : T2 64 128) (x1 x2 : T3 64 128 256) (g : Fin 8) (ch : Fin 128) (j : Fin 2) : EReal :=
  if j.val = 0 then ∑ i : Fin 8, ∑ s : Fin 256, conv2 w1 w2 x1 x2 ⟨8 * g.val + i.val, by omega⟩ ch s
  else ∑ i : Fin 8, ∑ s : Fin 256, conv2 w1 w2 x1 x2 ⟨8 * g.val + i.val, by omega⟩ ch s * conv2 w1 w2 x1 x2 ⟨8 * g.val + i.val, by omega⟩ ch s

/-- The partial sums added over the grid. -/
def tot {G : Nat} (st : T3 G 128 2) (ch : Fin 128) (j : Fin 2) : EReal := ∑ g : Fin G, st g ch j

def kmean (st : T3 8 128 2) (ch : Fin 128) : EReal := tot st ch 0 * invCnt
def kvar (st : T3 8 128 2) (ch : Fin 128) : EReal := max (tot st ch 1 * invCnt - kmean st ch * kmean st ch) 0
def scaleOf (gm : T1 128) (var : T1 128) (ch : Fin 128) : EReal := gm ch * Ideal.rsqrt (var ch + eps)
def biasOf (bt : T1 128) (mean scale : T1 128) (ch : Fin 128) : EReal := bt ch - mean ch * scale ch

/-- The second region's result from the arrays it finds. -/
def kout (w1 w2 : T2 64 128) (x1 x2 : T3 64 128 256) (st : T3 8 128 2) (gm bt : T1 128) (n : Fin 64) (ch : Fin 128) (s : Fin 256) : EReal :=
  conv2 w1 w2 x1 x2 n ch s * scaleOf gm (kvar st) ch + biasOf bt (kmean st) (scaleOf gm (kvar st)) ch

/-! ## The second program's stages -/

/-- The concatenated input: channels 0–127 the pixels at offset 0, channels 128–255 at offset 1 (not yet activated). -/
def xcat (X : T4 64 128 32 32) (n : Fin 64) (k : Fin 256) (s : Fin 256) : EReal :=
  if h : k.val < 128 then pick X 0 n ⟨k.val, h⟩ s else pick X 1 n ⟨k.val - 128, by omega⟩ s

/-- The block-diagonal weight: w1 in rows 0–63 × columns 0–127, w2 in rows 64–127 × columns 128–255, zero elsewhere. -/
def wbd (w1 w2 : T2 64 128) (ch : Fin 128) (k : Fin 256) : EReal :=
  if h : ch.val < 64 then (if hk : k.val < 128 then w1 ⟨ch.val, h⟩ ⟨k.val, hk⟩ else 0)
  else (if hk : k.val < 128 then 0 else w2 ⟨ch.val - 64, by omega⟩ ⟨k.val - 128, by omega⟩)

/-- The fused product, the activation applied inside: y[n,ch,s] = Σ_k w[ch,k] · act(x[n,k,s]). -/
def rconv (w : T2 128 256) (xc : T3 64 256 256) (n : Fin 64) (ch : Fin 128) (s : Fin 256) : EReal :=
  ∑ k : Fin 256, w ch k * act (xc n k s)

/-- Partial sums of grid point g (images 2g, 2g+1). -/
def rstats (w : T2 128 256) (xc : T3 64 256 256) (g : Fin 32) (ch : Fin 128) (j : Fin 2) : EReal :=
  if j.val = 0 then ∑ i : Fin 2, ∑ s : Fin 256, rconv w xc ⟨2 * g.val + i.val, by omega⟩ ch s
  else ∑ i : Fin 2, ∑ s : Fin 256, rconv w xc ⟨2 * g.val + i.val, by omega⟩ ch s * rconv w xc ⟨2 * g.val + i.val, by omega⟩ ch s

def rmean (st : T3 32 128 2) (ch : Fin 128) : EReal := Ideal.div (tot st ch 0) cnt
def rvar (st : T3 32 128 2) (ch : Fin 128) : EReal := max (Ideal.div (tot st ch 1) cnt - rmean st ch * rmean st ch) 0

/-- The weight with the scale folded in, and the second region's result from the arrays it finds. -/
def wscaled (w : T2 128 256) (scale : T1 128) (ch : Fin 128) (k : Fin 256) : EReal := w ch k * scale ch
def rout (ws : T2 128 256) (xc : T3 64 256 256) (bcol : T1 128) (n : Fin 64) (ch : Fin 128) (s : Fin 256) : EReal :=
  rconv ws xc n ch s + bcol ch

/-! ## Each program's result as one function of the five inputs -/

def kfinal (X : T4 64 128 32 32) (w1 w2 : T2 64 128) (gm bt : T1 128) (n : Fin 64) (ch : Fin 128) (s : Fin 256) : EReal :=
  kout w1 w2 (fun n k s => act (pick X 0 n k s)) (fun n k s => act (pick X 1 n k s))
    (kstats w1 w2 (fun n k s => act (pick X 0 n k s)) (fun n k s => act (pick X 1 n k s))) gm bt n ch s

def rfinal (X : T4 64 128 32 32) (w1 w2 : T2 64 128) (gm bt : T1 128) (n : Fin 64) (ch : Fin 128) (s : Fin 256) : EReal :=
  rout (wscaled (wbd w1 w2) (scaleOf gm (rvar (rstats (wbd w1 w2) (xcat X)))))
    (xcat X)
    (biasOf bt (rmean (rstats (wbd w1 w2) (xcat X))) (scaleOf gm (rvar (rstats (wbd w1 w2) (xcat X))))) n ch s

end Cert.Spec

end
-- ==== Proof.KStats.lean ====
import proofs.«175401_g2000004280588758_pallasbulk_1102_2_alg».proof.Proof.Gen.KernelIdeal.Frame
import proofs.«175401_g2000004280588758_pallasbulk_1102_2_alg».proof.Proof.Spec
import Idealize.ShloMosaic.Lib.Pipeline.Value
import Idealize.ShloMosaic.Lib.ValueIdx
import Idealize.ShloMosaic.PureOps.Ideal.Laws

noncomputable section

open scoped BigOperators

open Idealize.ShloMosaic Idealize.ShloMosaic.TcCoe Idealize.SL.Sem
open Idealize.ShloMosaic.Pipeline (Dat)
open Idealize.ShloMosaic.ValueIdx
open Cert.Spec (a1 a2 a3 a4 col)

/-! What the first region (the partial sums) leaves in its result array, from the arrays it finds. -/
namespace Cert.KernelIdeal.Val
open Cert.KernelIdeal Cert.KernelIdeal.Gen

/-! ## The body's operations read at an index -/

/-- A [1,128,256] image read as a [128,256] matrix. -/
private theorem cast_img (v : S1x128x256.Idx → EReal) (h : S1x128x256.ShapeCasts S128x256) (k : Fin 128) (s : Fin 256) :
    shapeCast S128x256 v h (ix2 k s) = v (ix3 (0 : Fin 1) k s) :=
  shapeCast_apply v h (ix2 k s) (ix3 (0 : Fin 1) k s) (by
    rw [Shape.rowMajor_val_three, Shape.rowMajor_val_two]
    show (0 * 128 + k.val) * 256 + s.val = k.val * 256 + s.val
    omega)

/-- A [64] vector read as a [64,1] column. -/
private theorem cast_col (v : S64.Idx → EReal) (h : S64.ShapeCasts S64x1) (c : Fin 64) :
    shapeCast S64x1 v h (ix2 c (0 : Fin 1)) = v (ix1 c) :=
  shapeCast_apply v h (ix2 c (0 : Fin 1)) (ix1 c) (by
    rw [Shape.rowMajor_val_one, Shape.rowMajor_val_two]
    show c.val = c.val * 1 + 0
    omega)

/-- A [64,1] column read as a [1,64,1] block. -/
private theorem cast_blk (v : S64x1.Idx → EReal) (h : S64x1.ShapeCasts S1x64x1) (c : Fin 64) :
    shapeCast S1x64x1 v h (ix3 (0 : Fin 1) c (0 : Fin 1)) = v (ix2 c (0 : Fin 1)) :=
  shapeCast_apply v h (ix3 (0 : Fin 1) c (0 : Fin 1)) (ix2 c (0 : Fin 1)) (by
    rw [Shape.rowMajor_val_three, Shape.rowMajor_val_two]
    show c.val * 1 + 0 = (0 * 64 + c.val) * 1 + 0
    omega)

/-- The product into a zero accumulator at (c, s): the sum over the contracted coordinate. -/
private theorem mm_apply (w : FVec Ideal S64x128 .f32) (x : FVec Ideal S128x256 .f32) (c : Fin 64) (s : Fin 256) :
    matmul dot_S64x128_S128x256_S64x256_1_0_0_1_n_n none w x (constant (F := Ideal) S64x256 .f32 0x00000000#32) (ix2 c s)
      = ∑ k : Fin 128, w (ix2 c k) * x (ix2 k s) := by
  show FloatOps.matmul _ none w x _ (ix2 c s) = _
  rw [Ideal.matmul_constant_zero_apply,
    ← Equiv.sum_comp (contrEquiv1 dot_S64x128_S128x256_S64x256_1_0_0_1_n_n 128 rfl rfl).symm]
  refine Finset.sum_congr rfl fun k _ => ?_
  have c2 := contrEquiv1_symm_val dot_S64x128_S128x256_S64x256_1_0_0_1_n_n 128 rfl rfl k
  have l2 : dot_S64x128_S128x256_S64x256_1_0_0_1_n_n.lhsIdx (ix2 c s) ((contrEquiv1 _ 128 rfl rfl).symm k) = ix2 c k := by
    funext ax; apply Fin.ext
    match ax with
    | ⟨0, _⟩ => simp [DotDims.lhsIdx, dot_S64x128_S128x256_S64x256_1_0_0_1_n_n]; rfl
    | ⟨1, _⟩ => simp [DotDims.lhsIdx, dot_S64x128_S128x256_S64x256_1_0_0_1_n_n]; exact c2
  have r2 : dot_S64x128_S128x256_S64x256_1_0_0_1_n_n.rhsIdx (ix2 c s) ((contrEquiv1 _ 128 rfl rfl).symm k) = ix2 k s := by
    funext ax; apply Fin.ext
    match ax with
    | ⟨0, _⟩ => simp [DotDims.rhsIdx, dot_S64x128_S128x256_S64x256_1_0_0_1_n_n]; exact c2
    | ⟨1, _⟩ => simp [DotDims.rhsIdx, dot_S64x128_S128x256_S64x256_1_0_0_1_n_n]; rfl
  rw [l2, r2]

/-- One image's product at (c, s): y[c,s] = Σ_k w[c,k] · v[0,k,s]. -/
private def ymat (w : S64x128.Idx → EReal) (v : S1x128x256.Idx → EReal) (c : Fin 64) (s : Fin 256) : EReal :=
  ∑ k : Fin 128, w (ix2 c k) * v (ix3 (0 : Fin 1) k s)

/-- The product of the weight with one widened image, read at (c, s). -/
private theorem mm_img (w : FVec Ideal S64x128 .f32) (v : Vec Ideal S1x128x256 .bf16) (h : S1x128x256.ShapeCasts S128x256)
    (hb : FTy.bits .bf16 < FTy.bits .f32) (c : Fin 64) (s : Fin 256) :
    matmul dot_S64x128_S128x256_S64x256_1_0_0_1_n_n none w (extf .f32 (shapeCast S128x256 v h) hb)
      (constant (F := Ideal) S64x256 .f32 0x00000000#32) (ix2 c s) = ymat w v c s := by
  refine (mm_apply w _ c s).trans ?_
  refine Finset.sum_congr rfl fun k _ => ?_
  rw [extf_apply, cast_img]

/-- The lane sum kept as a column, at row c. -/
private theorem rowsum_apply (y : FVec Ideal S64x256 .f32) (h : S64x256.Reduces [1] S64) (hc : S64.ShapeCasts S64x1) (c : Fin 64) :
    shapeCast S64x1 (multiReduction (F := Ideal) .add [1] S64 y 0x00000000#32 h (.inl rfl) rfl) hc (ix2 c (0 : Fin 1))
      = ∑ s : Fin 256, y (ix2 c s) := by
  refine (cast_col _ hc c).trans ?_
  refine (Ideal.multiReduction_add_single y 0x00000000#32 h (.inl rfl) rfl (ix1 c)).trans ?_
  show ∑ s : Fin 256, y (h.lift (ix1 c) s) = _
  refine Finset.sum_congr rfl fun s _ => congrArg y ?_
  funext a; apply Fin.ext
  match a with
  | ⟨0, _⟩ => rfl
  | ⟨1, _⟩ => rfl

/-- The lane sum before it is made a column. -/
private theorem lanesum_apply (y : FVec Ideal S64x256 .f32) (h : S64x256.Reduces [1] S64) (c : Fin 64) :
    multiReduction (F := Ideal) .add [1] S64 y 0x00000000#32 h (.inl rfl) rfl (ix1 c) = ∑ s : Fin 256, y (ix2 c s) := by
  refine (Ideal.multiReduction_add_single y 0x00000000#32 h (.inl rfl) rfl (ix1 c)).trans ?_
  show ∑ s : Fin 256, y (h.lift (ix1 c) s) = _
  refine Finset.sum_congr rfl fun s _ => congrArg y ?_
  funext a; apply Fin.ext
  match a with
  | ⟨0, _⟩ => rfl
  | ⟨1, _⟩ => rfl

/-- The row sums of one image's product and of its square. -/
private abbrev rs (w : S64x128.Idx → EReal) (v : S1x128x256.Idx → EReal) (c : Fin 64) : EReal := ∑ s : Fin 256, ymat w v c s
private abbrev qs (w : S64x128.Idx → EReal) (v : S1x128x256.Idx → EReal) (c : Fin 64) : EReal := ∑ s : Fin 256, ymat w v c s * ymat w v c s

/-- A running column plus the lane sum of a matrix, at row c. -/
private theorem acc_rs (a : FVec Ideal S64x1 .f32) (y : FVec Ideal S64x256 .f32) (h : S64x256.Reduces [1] S64) (hc : S64.ShapeCasts S64x1) (c : Fin 64)
    (A : EReal) (f : Fin 256 → EReal) (ha : a (ix2 c (0 : Fin 1)) = A) (hy : ∀ s, y (ix2 c s) = f s) :
    addf a (shapeCast S64x1 (multiReduction (F := Ideal) .add [1] S64 y 0x00000000#32 h (.inl rfl) rfl) hc) (ix2 c (0 : Fin 1))
      = A + ∑ s : Fin 256, f s := by
  refine (addf_apply _ _ _).trans ?_
  rw [ha, rowsum_apply]
  exact congrArg (A + ·) (Finset.sum_congr rfl fun s _ => hy s)

/-- A running column plus the lane sum of a matrix's square, at row c. -/
private theorem acc_qs (a : FVec Ideal S64x1 .f32) (y : FVec Ideal S64x256 .f32) (h : S64x256.Reduces [1] S64) (hc : S64.ShapeCasts S64x1) (c : Fin 64)
    (A : EReal) (f : Fin 256 → EReal) (ha : a (ix2 c (0 : Fin 1)) = A) (hy : ∀ s, y (ix2 c s) = f s) :
    addf a (shapeCast S64x1 (multiReduction (F := Ideal) .add [1] S64 (mulf y y) 0x00000000#32 h (.inl rfl) rfl) hc) (ix2 c (0 : Fin 1))
      = A + ∑ s : Fin 256, f s * f s := by
  refine (addf_apply _ _ _).trans ?_
  rw [ha, rowsum_apply]
  exact congrArg (A + ·) (Finset.sum_congr rfl fun s _ => by rw [mulf_apply, hy s])

/-- The zero column the sums start from. -/
private theorem zero_col (c : Fin 64) : broadcast (α := Ideal .f32) S64x1 (Scalar.ofBits .f32 0x00000000#32) (ix2 c (0 : Fin 1)) = 0 :=
  Ideal.ofBits_zero_f32

private theorem pay4_eq (v0 : Vec Ideal S64x128 .f32) : k0_pay4 (F := Ideal) v0 = v0 := shapeCast_self _ _
private theorem pay5_eq (v2 : Vec Ideal S64x128 .f32) : k0_pay5 (F := Ideal) v2 = v2 := shapeCast_self _ _

/-! Each product payload at (c, s). -/
private theorem pay6_apply (w : Vec Ideal S64x128 .f32) (v : Vec Ideal S1x128x256 .bf16) (c : Fin 64) (s : Fin 256) : k0_pay6 (F := Ideal) w v (ix2 c s) = ymat w v c s := by
  unfold k0_pay6
  refine (mm_img (k0_pay4 w) v _ _ c s).trans ?_
  rw [pay4_eq]
private theorem pay7_apply (w : Vec Ideal S64x128 .f32) (v : Vec Ideal S1x128x256 .bf16) (c : Fin 64) (s : Fin 256) : k0_pay7 (F := Ideal) w v (ix2 c s) = ymat w v c s := by
  unfold k0_pay7
  refine (mm_img (k0_pay5 w) v _ _ c s).trans ?_
  rw [pay5_eq]
private theorem pay12_apply (w : Vec Ideal S64x128 .f32) (v : Vec Ideal S1x128x256 .bf16) (c : Fin 64) (s : Fin 256) : k0_pay12 (F := Ideal) w v (ix2 c s) = ymat w v c s := by
  unfold k0_pay12
  refine (mm_img (k0_pay4 w) v _ _ c s).trans ?_
  rw [pay4_eq]
private theorem pay13_apply (w : FVec Ideal S64x128 .f32) (v : Vec Ideal S1x128x256 .bf16) (c : Fin 64) (s : Fin 256) : k0_pay13 (F := Ideal) w v (ix2 c s) = ymat w v c s :=
  mm_img w v _ _ c s
private theorem pay14_apply (w : FVec Ideal S64x128 .f32) (v : Vec Ideal S1x128x256 .bf16) (c : Fin 64) (s : Fin 256) : k0_pay14 (F := Ideal) w v (ix2 c s) = ymat w v c s :=
  mm_img w v _ _ c s
private theorem pay15_apply (w : FVec Ideal S64x128 .f32) (v : Vec Ideal S1x128x256 .bf16) (c : Fin 64) (s : Fin 256) : k0_pay15 (F := Ideal) w v (ix2 c s) = ymat w v c s :=
  mm_img w v _ _ c s
private theorem pay20_apply (w : FVec Ideal S64x128 .f32) (v : Vec Ideal S1x128x256 .bf16) (c : Fin 64) (s : Fin 256) : k0_pay20 (F := Ideal) w v (ix2 c s) = ymat w v c s :=
  mm_img w v _ _ c s
private theorem pay21_apply (w : FVec Ideal S64x128 .f32) (v : Vec Ideal S1x128x256 .bf16) (c : Fin 64) (s : Fin 256) : k0_pay21 (F := Ideal) w v (ix2 c s) = ymat w v c s :=
  mm_img w v _ _ c s
private theorem pay24_apply (w : FVec Ideal S64x128 .f32) (v : Vec Ideal S1x128x256 .bf16) (c : Fin 64) (s : Fin 256) : k0_pay24 (F := Ideal) w v (ix2 c s) = ymat w v c s :=
  mm_img w v _ _ c s
private theorem pay25_apply (w : FVec Ideal S64x128 .f32) (v : Vec Ideal S1x128x256 .bf16) (c : Fin 64) (s : Fin 256) : k0_pay25 (F := Ideal) w v (ix2 c s) = ymat w v c s :=
  mm_img w v _ _ c s
private theorem pay29_apply (w : FVec Ideal S64x128 .f32) (v : Vec Ideal S1x128x256 .bf16) (c : Fin 64) (s : Fin 256) : k0_pay29 (F := Ideal) w v (ix2 c s) = ymat w v c s :=
  mm_img w v _ _ c s
private theorem pay30_apply (w : FVec Ideal S64x128 .f32) (v : Vec Ideal S1x128x256 .bf16) (c : Fin 64) (s : Fin 256) : k0_pay30 (F := Ideal) w v (ix2 c s) = ymat w v c s :=
  mm_img w v _ _ c s
private theorem pay35_apply (w : FVec Ideal S64x128 .f32) (v : Vec Ideal S1x128x256 .bf16) (c : Fin 64) (s : Fin 256) : k0_pay35 (F := Ideal) w v (ix2 c s) = ymat w v c s :=
  mm_img w v _ _ c s
private theorem pay36_apply (w : FVec Ideal S64x128 .f32) (v : Vec Ideal S1x128x256 .bf16) (c : Fin 64) (s : Fin 256) : k0_pay36 (F := Ideal) w v (ix2 c s) = ymat w v c s :=
  mm_img w v _ _ c s
private theorem pay38_apply (w : FVec Ideal S64x128 .f32) (v : Vec Ideal S1x128x256 .bf16) (c : Fin 64) (s : Fin 256) : k0_pay38 (F := Ideal) w v (ix2 c s) = ymat w v c s :=
  mm_img w v _ _ c s
private theorem pay39_apply (w : FVec Ideal S64x128 .f32) (v : Vec Ideal S1x128x256 .bf16) (c : Fin 64) (s : Fin 256) : k0_pay39 (F := Ideal) w v (ix2 c s) = ymat w v c s :=
  mm_img w v _ _ c s

/-! Each running-sum payload at row c. -/
private theorem pay8_apply (w : Vec Ideal S64x128 .f32) (v : Vec Ideal S1x128x256 .bf16) (c : Fin 64) : k0_pay8 (F := Ideal) w v (ix2 c (0 : Fin 1)) = 0 + rs w v c := by
  unfold k0_pay8
  exact acc_rs _ _ _ _ c _ _ (zero_col c) (fun s => pay6_apply w v c s)
private theorem pay9_apply (w : Vec Ideal S64x128 .f32) (v : Vec Ideal S1x128x256 .bf16) (c : Fin 64) : k0_pay9 (F := Ideal) w v (ix2 c (0 : Fin 1)) = 0 + qs w v c := by
  unfold k0_pay9
  exact acc_qs _ _ _ _ c _ _ (zero_col c) (fun s => pay6_apply w v c s)
private theorem pay10_apply (w : Vec Ideal S64x128 .f32) (v : Vec Ideal S1x128x256 .bf16) (c : Fin 64) : k0_pay10 (F := Ideal) w v (ix2 c (0 : Fin 1)) = 0 + rs w v c := by
  unfold k0_pay10
  exact acc_rs _ _ _ _ c _ _ (zero_col c) (fun s => pay7_apply w v c s)
private theorem pay11_apply (w : Vec Ideal S64x128 .f32) (v : Vec Ideal S1x128x256 .bf16) (c : Fin 64) : k0_pay11 (F := Ideal) w v (ix2 c (0 : Fin 1)) = 0 + qs w v c := by
  unfold k0_pay11
  exact acc_qs _ _ _ _ c _ _ (zero_col c) (fun s => pay7_apply w v c s)
private theorem pay16_apply (w : FVec Ideal S64x128 .f32) (a : FVec Ideal S64x1 .f32) (y : FVec Ideal S64x256 .f32) (v : Vec Ideal S1x128x256 .bf16) (c : Fin 64) :
    k0_pay16 (F := Ideal) w a y v (ix2 c (0 : Fin 1)) = (a (ix2 c (0 : Fin 1)) + ∑ s : Fin 256, y (ix2 c s)) + rs w v c := by
  unfold k0_pay16
  exact acc_rs _ _ _ _ c _ _ (acc_rs _ _ _ _ c _ _ rfl (fun s => rfl)) (fun s => pay14_apply w v c s)
private theorem pay17_apply (w : FVec Ideal S64x128 .f32) (a : FVec Ideal S64x1 .f32) (y : FVec Ideal S64x256 .f32) (v : Vec Ideal S1x128x256 .bf16) (c : Fin 64) :
    k0_pay17 (F := Ideal) w a y v (ix2 c (0 : Fin 1)) = (a (ix2 c (0 : Fin 1)) + ∑ s : Fin 256, y (ix2 c s) * y (ix2 c s)) + qs w v c := by
  unfold k0_pay17
  exact acc_qs _ _ _ _ c _ _ (acc_qs _ _ _ _ c _ _ rfl (fun s => rfl)) (fun s => pay14_apply w v c s)
private theorem pay18_apply (w : FVec Ideal S64x128 .f32) (a : FVec Ideal S64x1 .f32) (v v' : Vec Ideal S1x128x256 .bf16) (c : Fin 64) :
    k0_pay18 (F := Ideal) w a v v' (ix2 c (0 : Fin 1)) = (a (ix2 c (0 : Fin 1)) + rs w v c) + rs w v' c := by
  unfold k0_pay18
  exact acc_rs _ _ _ _ c _ _ (acc_rs _ _ _ _ c _ _ rfl (fun s => pay13_apply w v c s)) (fun s => pay15_apply w v' c s)
private theorem pay19_apply (w : FVec Ideal S64x128 .f32) (a : FVec Ideal S64x1 .f32) (v v' : Vec Ideal S1x128x256 .bf16) (c : Fin 64) :
    k0_pay19 (F := Ideal) w a v v' (ix2 c (0 : Fin 1)) = (a (ix2 c (0 : Fin 1)) + qs w v c) + qs w v' c := by
  unfold k0_pay19
  exact acc_qs _ _ _ _ c _ _ (acc_qs _ _ _ _ c _ _ rfl (fun s => pay13_apply w v c s)) (fun s => pay15_apply w v' c s)
private theorem pay22_apply (w : FVec Ideal S64x128 .f32) (a : FVec Ideal S64x1 .f32) (v : Vec Ideal S1x128x256 .bf16) (c : Fin 64) :
    k0_pay22 (F := Ideal) w a v (ix2 c (0 : Fin 1)) = a (ix2 c (0 : Fin 1)) + rs w v c := by
  unfold k0_pay22
  exact acc_rs _ _ _ _ c _ _ rfl (fun s => pay21_apply w v c s)
private theorem pay23_apply (w : FVec Ideal S64x128 .f32) (a : FVec Ideal S64x1 .f32) (v : Vec Ideal S1x128x256 .bf16) (c : Fin 64) :
    k0_pay23 (F := Ideal) w a v (ix2 c (0 : Fin 1)) = a (ix2 c (0 : Fin 1)) + qs w v c := by
  unfold k0_pay23
  exact acc_qs _ _ _ _ c _ _ rfl (fun s => pay21_apply w v c s)
private theorem pay26_apply (w : FVec Ideal S64x128 .f32) (a : FVec Ideal S64x1 .f32) (v v' : Vec Ideal S1x128x256 .bf16) (c : Fin 64) :
    k0_pay26 (F := Ideal) w a v v' (ix2 c (0 : Fin 1)) = (a (ix2 c (0 : Fin 1)) + rs w v c) + rs w v' c := by
  unfold k0_pay26
  exact acc_rs _ _ _ _ c _ _ (acc_rs _ _ _ _ c _ _ rfl (fun s => pay20_apply w v c s)) (fun s => pay24_apply w v' c s)
private theorem pay27_apply (w : FVec Ideal S64x128 .f32) (a : FVec Ideal S64x1 .f32) (v v' : Vec Ideal S1x128x256 .bf16) (c : Fin 64) :
    k0_pay27 (F := Ideal) w a v v' (ix2 c (0 : Fin 1)) = (a (ix2 c (0 : Fin 1)) + qs w v c) + qs w v' c := by
  unfold k0_pay27
  exact acc_qs _ _ _ _ c _ _ (acc_qs _ _ _ _ c _ _ rfl (fun s => pay20_apply w v c s)) (fun s => pay24_apply w v' c s)
private theorem pay28_apply (w : FVec Ideal S64x128 .f32) (v : Vec Ideal S1x128x256 .bf16) (c : Fin 64) : k0_pay28 (F := Ideal) w v (ix1 c) = rs w v c := by
  unfold k0_pay28
  exact (lanesum_apply _ _ c).trans (Finset.sum_congr rfl fun s _ => pay25_apply w v c s)
private theorem pay31_apply (w : FVec Ideal S64x128 .f32) (a : FVec Ideal S64x1 .f32) (v : Vec Ideal S1x128x256 .bf16) (c : Fin 64) :
    k0_pay31 (F := Ideal) w a v (ix2 c (0 : Fin 1)) = a (ix2 c (0 : Fin 1)) + rs w v c := by
  unfold k0_pay31
  exact acc_rs _ _ _ _ c _ _ rfl (fun s => pay29_apply w v c s)
private theorem pay32_apply (w : FVec Ideal S64x128 .f32) (a : FVec Ideal S64x1 .f32) (v : Vec Ideal S1x128x256 .bf16) (c : Fin 64) :
    k0_pay32 (F := Ideal) w a v (ix2 c (0 : Fin 1)) = a (ix2 c (0 : Fin 1)) + qs w v c := by
  unfold k0_pay32
  exact acc_qs _ _ _ _ c _ _ rfl (fun s => pay29_apply w v c s)
private theorem pay33_apply (w : FVec Ideal S64x128 .f32) (a : FVec Ideal S64x1 .f32) (l : FVec Ideal S64 .f32) (v : Vec Ideal S1x128x256 .bf16) (c : Fin 64) :
    k0_pay33 (F := Ideal) w a l v (ix2 c (0 : Fin 1)) = (a (ix2 c (0 : Fin 1)) + l (ix1 c)) + rs w v c := by
  unfold k0_pay33
  exact acc_rs _ _ _ _ c _ _ ((addf_apply _ _ _).trans (congrArg (a (ix2 c (0 : Fin 1)) + ·) (cast_col _ _ c))) (fun s => pay30_apply w v c s)
private theorem pay34_apply (w : FVec Ideal S64x128 .f32) (a : FVec Ideal S64x1 .f32) (y : FVec Ideal S64x256 .f32) (v : Vec Ideal S1x128x256 .bf16) (c : Fin 64) :
    k0_pay34 (F := Ideal) w a y v (ix2 c (0 : Fin 1)) = (a (ix2 c (0 : Fin 1)) + ∑ s : Fin 256, y (ix2 c s) * y (ix2 c s)) + qs w v c := by
  unfold k0_pay34
  exact acc_qs _ _ _ _ c _ _ (acc_qs _ _ _ _ c _ _ rfl (fun s => rfl)) (fun s => pay30_apply w v c s)
private theorem pay37_apply (w : FVec Ideal S64x128 .f32) (v : Vec Ideal S1x128x256 .bf16) (c : Fin 64) : k0_pay37 (F := Ideal) w v (ix2 c (0 : Fin 1)) = rs w v c := by
  unfold k0_pay37
  exact (rowsum_apply _ _ _ c).trans (Finset.sum_congr rfl fun s _ => pay35_apply w v c s)
private theorem pay40_apply (w : FVec Ideal S64x128 .f32) (a : FVec Ideal S64x1 .f32) (y : FVec Ideal S64x256 .f32) (v : Vec Ideal S1x128x256 .bf16) (c : Fin 64) :
    k0_pay40 (F := Ideal) w a y v (ix2 c (0 : Fin 1)) = (a (ix2 c (0 : Fin 1)) + ∑ s : Fin 256, y (ix2 c s) * y (ix2 c s)) + qs w v c := by
  unfold k0_pay40
  exact acc_qs _ _ _ _ c _ _ (acc_qs _ _ _ _ c _ _ rfl (fun s => rfl)) (fun s => pay38_apply w v c s)
private theorem pay41_apply (w : FVec Ideal S64x128 .f32) (a : FVec Ideal S64x1 .f32) (y : FVec Ideal S64x256 .f32) (v : Vec Ideal S1x128x256 .bf16) (c : Fin 64) :
    k0_pay41 (F := Ideal) w a y v (ix2 c (0 : Fin 1)) = (a (ix2 c (0 : Fin 1)) + ∑ s : Fin 256, y (ix2 c s)) + rs w v c := by
  unfold k0_pay41
  exact acc_rs _ _ _ _ c _ _ (acc_rs _ _ _ _ c _ _ rfl (fun s => rfl)) (fun s => pay39_apply w v c s)
private theorem pay42_apply (w : FVec Ideal S64x128 .f32) (a : FVec Ideal S64x1 .f32) (y : FVec Ideal S64x256 .f32) (v : Vec Ideal S1x128x256 .bf16) (c : Fin 64) :
    k0_pay42 (F := Ideal) w a y v (ix2 c (0 : Fin 1)) = (a (ix2 c (0 : Fin 1)) + ∑ s : Fin 256, y (ix2 c s) * y (ix2 c s)) + qs w v c := by
  unfold k0_pay42
  exact acc_qs _ _ _ _ c _ _ (acc_qs _ _ _ _ c _ _ rfl (fun s => rfl)) (fun s => pay39_apply w v c s)
private theorem pay43_apply (w : FVec Ideal S64x128 .f32) (a b : FVec Ideal S64x1 .f32) (v : Vec Ideal S1x128x256 .bf16) (c : Fin 64) :
    k0_pay43 (F := Ideal) w a b v (ix3 (0 : Fin 1) c (0 : Fin 1)) = (a (ix2 c (0 : Fin 1)) + b (ix2 c (0 : Fin 1))) + rs w v c := by
  unfold k0_pay43
  exact (cast_blk _ _ c).trans (acc_rs _ _ _ _ c _ _ (addf_apply _ _ _) (fun s => pay38_apply w v c s))
private theorem pay1_apply (a : FVec Ideal S64x1 .f32) (c : Fin 64) : k0_pay1 (F := Ideal) a (ix3 (0 : Fin 1) c (0 : Fin 1)) = a (ix2 c (0 : Fin 1)) := cast_blk _ _ c
private theorem pay2_apply (a : FVec Ideal S64x1 .f32) (c : Fin 64) : k0_pay2 (F := Ideal) a (ix3 (0 : Fin 1) c (0 : Fin 1)) = a (ix2 c (0 : Fin 1)) := cast_blk _ _ c
private theorem pay3_apply (a : FVec Ideal S64x1 .f32) (c : Fin 64) : k0_pay3 (F := Ideal) a (ix3 (0 : Fin 1) c (0 : Fin 1)) = a (ix2 c (0 : Fin 1)) := cast_blk _ _ c

/-! ## The four stored columns over eight abstract images -/

/-- Column 0, rows 0–63: the eight images' row sums, added in the body's order. -/
private theorem chain_s1 (w : Vec Ideal S64x128 .f32) (I0 I1 I2 I3 I4 I5 I6 I7 : Vec Ideal S1x128x256 .bf16) (c : Fin 64) :
    k0_pay43 (F := Ideal) (k0_pay4 w) (k0_pay31 (k0_pay4 w) (k0_pay26 (k0_pay4 w) (k0_pay16 (k0_pay4 w) (k0_pay8 w I0) (k0_pay12 w I1) I2) I3 I4) I5) (k0_pay37 (k0_pay4 w) I6) I7 (ix3 (0 : Fin 1) c (0 : Fin 1))
      = rs w I0 c + rs w I1 c + rs w I2 c + rs w I3 c + rs w I4 c + rs w I5 c + rs w I6 c + rs w I7 c := by
  rw [pay4_eq, pay43_apply, pay31_apply, pay26_apply, pay16_apply, pay8_apply, pay37_apply, zero_add]
  simp only [pay12_apply]

/-- Column 0, rows 64–127. -/
private theorem chain_s2 (w : Vec Ideal S64x128 .f32) (J0 J1 J2 J3 J4 J5 J6 J7 : Vec Ideal S1x128x256 .bf16) (c : Fin 64) :
    k0_pay1 (F := Ideal) (k0_pay41 (k0_pay5 w) (k0_pay33 (k0_pay5 w) (k0_pay22 (k0_pay5 w) (k0_pay18 (k0_pay5 w) (k0_pay10 w J0) J1 J2) J3) (k0_pay28 (k0_pay5 w) J4) J5) (k0_pay36 (k0_pay5 w) J6) J7) (ix3 (0 : Fin 1) c (0 : Fin 1))
      = rs w J0 c + rs w J1 c + rs w J2 c + rs w J3 c + rs w J4 c + rs w J5 c + rs w J6 c + rs w J7 c := by
  rw [pay5_eq, pay1_apply, pay41_apply, pay33_apply, pay22_apply, pay18_apply, pay10_apply, pay28_apply, zero_add]
  simp only [pay36_apply]

/-- Column 1, rows 0–63: the row sums of the squares. -/
private theorem chain_q1 (w : Vec Ideal S64x128 .f32) (I0 I1 I2 I3 I4 I5 I6 I7 : Vec Ideal S1x128x256 .bf16) (c : Fin 64) :
    k0_pay2 (F := Ideal) (k0_pay40 (k0_pay4 w) (k0_pay32 (k0_pay4 w) (k0_pay27 (k0_pay4 w) (k0_pay17 (k0_pay4 w) (k0_pay9 w I0) (k0_pay12 w I1) I2) I3 I4) I5) (k0_pay35 (k0_pay4 w) I6) I7) (ix3 (0 : Fin 1) c (0 : Fin 1))
      = qs w I0 c + qs w I1 c + qs w I2 c + qs w I3 c + qs w I4 c + qs w I5 c + qs w I6 c + qs w I7 c := by
  rw [pay4_eq, pay2_apply, pay40_apply, pay32_apply, pay27_apply, pay17_apply, pay9_apply, zero_add]
  simp only [pay12_apply, pay35_apply]

/-- Column 1, rows 64–127. -/
private theorem chain_q2 (w : Vec Ideal S64x128 .f32) (J0 J1 J2 J3 J4 J5 J6 J7 : Vec Ideal S1x128x256 .bf16) (c : Fin 64) :
    k0_pay3 (F := Ideal) (k0_pay42 (k0_pay5 w) (k0_pay34 (k0_pay5 w) (k0_pay23 (k0_pay5 w) (k0_pay19 (k0_pay5 w) (k0_pay11 w J0) J1 J2) J3) (k0_pay25 (k0_pay5 w) J4) J5) (k0_pay36 (k0_pay5 w) J6) J7) (ix3 (0 : Fin 1) c (0 : Fin 1))
      = qs w J0 c + qs w J1 c + qs w J2 c + qs w J3 c + qs w J4 c + qs w J5 c + qs w J6 c + qs w J7 c := by
  rw [pay5_eq, pay3_apply, pay42_apply, pay34_apply, pay23_apply, pay19_apply, pay11_apply, zero_add]
  simp only [pay25_apply, pay36_apply]

/-! ## The output block as one function of the four input blocks -/

private theorem hz2 : (![0, 0] : Fin 2 → Nat) = fun _ => 0 := funext fun a => by fin_cases a <;> rfl

/-- Image i of a block, multiplied by the weight, at (c, s). -/
private def bconv (w : S64x128.Idx → EReal) (x : S8x128x256.Idx → EReal) (i : Fin 8) (c : Fin 64) (s : Fin 256) : EReal :=
  ∑ k : Fin 128, w (ix2 c k) * x (ix3 i k s)

/-- One image loaded from the block of eight is that image of the block. -/
private theorem ymat_ld (w : S64x128.Idx → EReal) (x : Vec Ideal S8x128x256 .bf16) (i : Fin 8)
    (inb : ∀ a, (![i.val, 0, 0] : Fin 3 → Nat) a + S1x128x256.size a ≤ S8x128x256.size a) (c : Fin 64) (s : Fin 256) :
    ymat w (View.ld x (Rect.unit (s := S8x128x256) ![i.val, 0, 0] S1x128x256.size inb)) c s = bconv w x i c s := by
  unfold ymat bconv
  refine Finset.sum_congr rfl fun k _ => congrArg (w (ix2 c k) * ·) (congrArg x ?_)
  funext a; apply Fin.ext
  match a with
  | ⟨0, _⟩ => show i.val + 1 * 0 = i.val; omega
  | ⟨1, _⟩ => show 0 + 1 * k.val = k.val; omega
  | ⟨2, _⟩ => show 0 + 1 * s.val = s.val; omega

private theorem rs_ld (w : S64x128.Idx → EReal) (x : Vec Ideal S8x128x256 .bf16) (i : Fin 8)
    (inb : ∀ a, (![i.val, 0, 0] : Fin 3 → Nat) a + S1x128x256.size a ≤ S8x128x256.size a) (c : Fin 64) :
    rs w (View.ld x (Rect.unit (s := S8x128x256) ![i.val, 0, 0] S1x128x256.size inb)) c = ∑ s : Fin 256, bconv w x i c s :=
  Finset.sum_congr rfl fun s _ => ymat_ld w x i inb c s

private theorem qs_ld (w : S64x128.Idx → EReal) (x : Vec Ideal S8x128x256 .bf16) (i : Fin 8)
    (inb : ∀ a, (![i.val, 0, 0] : Fin 3 → Nat) a + S1x128x256.size a ≤ S8x128x256.size a) (c : Fin 64) :
    qs w (View.ld x (Rect.unit (s := S8x128x256) ![i.val, 0, 0] S1x128x256.size inb)) c = ∑ s : Fin 256, bconv w x i c s * bconv w x i c s :=
  Finset.sum_congr rfl fun s _ => by rw [ymat_ld w x i inb c s]

/-- What the body leaves at row ch, column j of the output block: over the block's eight images and 256 lanes, the sum
    (column 0) or the sum of squares (column 1) of the product with the first weight (rows 0–63) or the second (rows 64–127). -/
private def bstat (x0 x1 : Vec Ideal S8x128x256 .bf16) (x2 x3 : Vec Ideal S64x128 .f32) (ch : Fin 128) (j : Fin 2) : EReal :=
  if h : ch.val < 64 then
    (if j.val = 0 then ∑ i : Fin 8, ∑ s : Fin 256, bconv x2 x0 i ⟨ch.val, h⟩ s
     else ∑ i : Fin 8, ∑ s : Fin 256, bconv x2 x0 i ⟨ch.val, h⟩ s * bconv x2 x0 i ⟨ch.val, h⟩ s)
  else
    (if j.val = 0 then ∑ i : Fin 8, ∑ s : Fin 256, bconv x3 x1 i ⟨ch.val - 64, by omega⟩ s
     else ∑ i : Fin 8, ∑ s : Fin 256, bconv x3 x1 i ⟨ch.val - 64, by omega⟩ s * bconv x3 x1 i ⟨ch.val - 64, by omega⟩ s)

private theorem bstat_lo_s (x0 x1 : Vec Ideal S8x128x256 .bf16) (x2 x3 : Vec Ideal S64x128 .f32) (ch : Fin 128) (j : Fin 2) (c : Fin 64) (hch : ch.val = c.val) (hj : j.val = 0) :
    bstat x0 x1 x2 x3 ch j = ∑ i : Fin 8, ∑ s : Fin 256, bconv x2 x0 i c s := by
  have h : ch.val < 64 := by omega
  obtain rfl : c = ⟨ch.val, h⟩ := Fin.ext hch.symm
  unfold bstat; rw [dif_pos h, if_pos hj]
private theorem bstat_lo_q (x0 x1 : Vec Ideal S8x128x256 .bf16) (x2 x3 : Vec Ideal S64x128 .f32) (ch : Fin 128) (j : Fin 2) (c : Fin 64) (hch : ch.val = c.val) (hj : j.val = 1) :
    bstat x0 x1 x2 x3 ch j = ∑ i : Fin 8, ∑ s : Fin 256, bconv x2 x0 i c s * bconv x2 x0 i c s := by
  have h : ch.val < 64 := by omega
  obtain rfl : c = ⟨ch.val, h⟩ := Fin.ext hch.symm
  unfold bstat; rw [dif_pos h, if_neg (by omega)]
private theorem bstat_hi_s (x0 x1 : Vec Ideal S8x128x256 .bf16) (x2 x3 : Vec Ideal S64x128 .f32) (ch : Fin 128) (j : Fin 2) (c : Fin 64) (hch : ch.val = 64 + c.val) (hj : j.val = 0) :
    bstat x0 x1 x2 x3 ch j = ∑ i : Fin 8, ∑ s : Fin 256, bconv x3 x1 i c s := by
  have h : ¬ ch.val < 64 := by omega
  have e : c = ⟨ch.val - 64, by have := ch.isLt; omega⟩ := Fin.ext (by show c.val = ch.val - 64; omega)
  rw [e]; unfold bstat; rw [dif_neg h, if_pos hj]
private theorem bstat_hi_q (x0 x1 : Vec Ideal S8x128x256 .bf16) (x2 x3 : Vec Ideal S64x128 .f32) (ch : Fin 128) (j : Fin 2) (c : Fin 64) (hch : ch.val = 64 + c.val) (hj : j.val = 1) :
    bstat x0 x1 x2 x3 ch j = ∑ i : Fin 8, ∑ s : Fin 256, bconv x3 x1 i c s * bconv x3 x1 i c s := by
  have h : ¬ ch.val < 64 := by omega
  have e : c = ⟨ch.val - 64, by have := ch.isLt; omega⟩ := Fin.ext (by show c.val = ch.val - 64; omega)
  rw [e]; unfold bstat; rw [dif_neg h, if_neg (by omega)]

/-! Each stored piece is the block function on its rectangle. -/
private theorem piece_s1 (x0 x1 : Vec Ideal S8x128x256 .bf16) (x2 x3 : Vec Ideal S64x128 .f32) (x : S1x64x1.Idx) :
    (k0_pay43 (k0_pay4 (View.ld x2 r0_0)) (k0_pay31 (k0_pay4 (View.ld x2 r0_0)) (k0_pay26 (k0_pay4 (View.ld x2 r0_0)) (k0_pay16 (k0_pay4 (View.ld x2 r0_0)) (k0_pay8 (View.ld x2 r0_0) (View.ld x0 r0_1)) (k0_pay12 (View.ld x2 r0_0) (View.ld x0 r0_2)) (View.ld x0 r0_3)) (View.ld x0 r0_4) (View.ld x0 r0_5)) (View.ld x0 r0_6)) (k0_pay37 (k0_pay4 (View.ld x2 r0_0)) (View.ld x0 r0_7)) (View.ld x0 r0_8) : S1x64x1.Idx → EReal) x = bstat x0 x1 x2 x3 (r0_9.emb x 1) (r0_9.emb x 2) := by
  obtain ⟨a, c, b, rfl⟩ : ∃ (a : Fin 1) (c : Fin 64) (b : Fin 1), x = ix3 a c b := ⟨x 0, x 1, x 2, eq_ix3 x⟩
  obtain rfl : a = 0 := Subsingleton.elim _ _
  obtain rfl : b = 0 := Subsingleton.elim _ _
  refine (chain_s1 (View.ld x2 r0_0) (View.ld x0 r0_1) (View.ld x0 r0_2) (View.ld x0 r0_3) (View.ld x0 r0_4) (View.ld x0 r0_5) (View.ld x0 r0_6) (View.ld x0 r0_7) (View.ld x0 r0_8) c).trans ?_
  rw [show View.ld x2 r0_0 = x2 from View.ld_unit_zero (S := S64x128) hz2 _ x2]
  have h0 : rs x2 (View.ld x0 r0_1) c = ∑ s : Fin 256, bconv x2 x0 0 c s := rs_ld x2 x0 0 _ c
  have h1 : rs x2 (View.ld x0 r0_2) c = ∑ s : Fin 256, bconv x2 x0 1 c s := rs_ld x2 x0 1 _ c
  have h2 : rs x2 (View.ld x0 r0_3) c = ∑ s : Fin 256, bconv x2 x0 2 c s := rs_ld x2 x0 2 _ c
  have h3 : rs x2 (View.ld x0 r0_4) c = ∑ s : Fin 256, bconv x2 x0 3 c s := rs_ld x2 x0 3 _ c
  have h4 : rs x2 (View.ld x0 r0_5) c = ∑ s : Fin 256, bconv x2 x0 4 c s := rs_ld x2 x0 4 _ c
  have h5 : rs x2 (View.ld x0 r0_6) c = ∑ s : Fin 256, bconv x2 x0 5 c s := rs_ld x2 x0 5 _ c
  have h6 : rs x2 (View.ld x0 r0_7) c = ∑ s : Fin 256, bconv x2 x0 6 c s := rs_ld x2 x0 6 _ c
  have h7 : rs x2 (View.ld x0 r0_8) c = ∑ s : Fin 256, bconv x2 x0 7 c s := rs_ld x2 x0 7 _ c
  rw [h0, h1, h2, h3, h4, h5, h6, h7]
  refine Eq.trans ?_ (bstat_lo_s x0 x1 x2 x3 _ _ c (by show 0 + 1 * c.val = c.val; omega) (by show 0 + 1 * 0 = 0; omega)).symm
  rw [Fin.sum_univ_eight]
private theorem piece_s2 (x0 x1 : Vec Ideal S8x128x256 .bf16) (x2 x3 : Vec Ideal S64x128 .f32) (x : S1x64x1.Idx) :
    (k0_pay1 (k0_pay41 (k0_pay5 (View.ld x3 r0_0)) (k0_pay33 (k0_pay5 (View.ld x3 r0_0)) (k0_pay22 (k0_pay5 (View.ld x3 r0_0)) (k0_pay18 (k0_pay5 (View.ld x3 r0_0)) (k0_pay10 (View.ld x3 r0_0) (View.ld x1 r0_1)) (View.ld x1 r0_2) (View.ld x1 r0_3)) (View.ld x1 r0_4)) (k0_pay28 (k0_pay5 (View.ld x3 r0_0)) (View.ld x1 r0_5)) (View.ld x1 r0_6)) (k0_pay36 (k0_pay5 (View.ld x3 r0_0)) (View.ld x1 r0_7)) (View.ld x1 r0_8)) : S1x64x1.Idx → EReal) x = bstat x0 x1 x2 x3 (r0_10.emb x 1) (r0_10.emb x 2) := by
  obtain ⟨a, c, b, rfl⟩ : ∃ (a : Fin 1) (c : Fin 64) (b : Fin 1), x = ix3 a c b := ⟨x 0, x 1, x 2, eq_ix3 x⟩
  obtain rfl : a = 0 := Subsingleton.elim _ _
  obtain rfl : b = 0 := Subsingleton.elim _ _
  refine (chain_s2 (View.ld x3 r0_0) (View.ld x1 r0_1) (View.ld x1 r0_2) (View.ld x1 r0_3) (View.ld x1 r0_4) (View.ld x1 r0_5) (View.ld x1 r0_6) (View.ld x1 r0_7) (View.ld x1 r0_8) c).trans ?_
  rw [show View.ld x3 r0_0 = x3 from View.ld_unit_zero (S := S64x128) hz2 _ x3]
  have h0 : rs x3 (View.ld x1 r0_1) c = ∑ s : Fin 256, bconv x3 x1 0 c s := rs_ld x3 x1 0 _ c
  have h1 : rs x3 (View.ld x1 r0_2) c = ∑ s : Fin 256, bconv x3 x1 1 c s := rs_ld x3 x1 1 _ c
  have h2 : rs x3 (View.ld x1 r0_3) c = ∑ s : Fin 256, bconv x3 x1 2 c s := rs_ld x3 x1 2 _ c
  have h3 : rs x3 (View.ld x1 r0_4) c = ∑ s : Fin 256, bconv x3 x1 3 c s := rs_ld x3 x1 3 _ c
  have h4 : rs x3 (View.ld x1 r0_5) c = ∑ s : Fin 256, bconv x3 x1 4 c s := rs_ld x3 x1 4 _ c
  have h5 : rs x3 (View.ld x1 r0_6) c = ∑ s : Fin 256, bconv x3 x1 5 c s := rs_ld x3 x1 5 _ c
  have h6 : rs x3 (View.ld x1 r0_7) c = ∑ s : Fin 256, bconv x3 x1 6 c s := rs_ld x3 x1 6 _ c
  have h7 : rs x3 (View.ld x1 r0_8) c = ∑ s : Fin 256, bconv x3 x1 7 c s := rs_ld x3 x1 7 _ c
  rw [h0, h1, h2, h3, h4, h5, h6, h7]
  refine Eq.trans ?_ (bstat_hi_s x0 x1 x2 x3 _ _ c (by show 64 + 1 * c.val = 64 + c.val; omega) (by show 0 + 1 * 0 = 0; omega)).symm
  rw [Fin.sum_univ_eight]
private theorem piece_q1 (x0 x1 : Vec Ideal S8x128x256 .bf16) (x2 x3 : Vec Ideal S64x128 .f32) (x : S1x64x1.Idx) :
    (k0_pay2 (k0_pay40 (k0_pay4 (View.ld x2 r0_0)) (k0_pay32 (k0_pay4 (View.ld x2 r0_0)) (k0_pay27 (k0_pay4 (View.ld x2 r0_0)) (k0_pay17 (k0_pay4 (View.ld x2 r0_0)) (k0_pay9 (View.ld x2 r0_0) (View.ld x0 r0_1)) (k0_pay12 (View.ld x2 r0_0) (View.ld x0 r0_2)) (View.ld x0 r0_3)) (View.ld x0 r0_4) (View.ld x0 r0_5)) (View.ld x0 r0_6)) (k0_pay35 (k0_pay4 (View.ld x2 r0_0)) (View.ld x0 r0_7)) (View.ld x0 r0_8)) : S1x64x1.Idx → EReal) x = bstat x0 x1 x2 x3 (r0_11.emb x 1) (r0_11.emb x 2) := by
  obtain ⟨a, c, b, rfl⟩ : ∃ (a : Fin 1) (c : Fin 64) (b : Fin 1), x = ix3 a c b := ⟨x 0, x 1, x 2, eq_ix3 x⟩
  obtain rfl : a = 0 := Subsingleton.elim _ _
  obtain rfl : b = 0 := Subsingleton.elim _ _
  refine (chain_q1 (View.ld x2 r0_0) (View.ld x0 r0_1) (View.ld x0 r0_2) (View.ld x0 r0_3) (View.ld x0 r0_4) (View.ld x0 r0_5) (View.ld x0 r0_6) (View.ld x0 r0_7) (View.ld x0 r0_8) c).trans ?_
  rw [show View.ld x2 r0_0 = x2 from View.ld_unit_zero (S := S64x128) hz2 _ x2]
  have h0 : qs x2 (View.ld x0 r0_1) c = ∑ s : Fin 256, bconv x2 x0 0 c s * bconv x2 x0 0 c s := qs_ld x2 x0 0 _ c
  have h1 : qs x2 (View.ld x0 r0_2) c = ∑ s : Fin 256, bconv x2 x0 1 c s * bconv x2 x0 1 c s := qs_ld x2 x0 1 _ c
  have h2 : qs x2 (View.ld x0 r0_3) c = ∑ s : Fin 256, bconv x2 x0 2 c s * bconv x2 x0 2 c s := qs_ld x2 x0 2 _ c
  have h3 : qs x2 (View.ld x0 r0_4) c = ∑ s : Fin 256, bconv x2 x0 3 c s * bconv x2 x0 3 c s := qs_ld x2 x0 3 _ c
  have h4 : qs x2 (View.ld x0 r0_5) c = ∑ s : Fin 256, bconv x2 x0 4 c s * bconv x2 x0 4 c s := qs_ld x2 x0 4 _ c
  have h5 : qs x2 (View.ld x0 r0_6) c = ∑ s : Fin 256, bconv x2 x0 5 c s * bconv x2 x0 5 c s := qs_ld x2 x0 5 _ c
  have h6 : qs x2 (View.ld x0 r0_7) c = ∑ s : Fin 256, bconv x2 x0 6 c s * bconv x2 x0 6 c s := qs_ld x2 x0 6 _ c
  have h7 : qs x2 (View.ld x0 r0_8) c = ∑ s : Fin 256, bconv x2 x0 7 c s * bconv x2 x0 7 c s := qs_ld x2 x0 7 _ c
  rw [h0, h1, h2, h3, h4, h5, h6, h7]
  refine Eq.trans ?_ (bstat_lo_q x0 x1 x2 x3 _ _ c (by show 0 + 1 * c.val = c.val; omega) (by show 1 + 1 * 0 = 1; omega)).symm
  rw [Fin.sum_univ_eight]
private theorem piece_q2 (x0 x1 : Vec Ideal S8x128x256 .bf16) (x2 x3 : Vec Ideal S64x128 .f32) (x : S1x64x1.Idx) :
    (k0_pay3 (k0_pay42 (k0_pay5 (View.ld x3 r0_0)) (k0_pay34 (k0_pay5 (View.ld x3 r0_0)) (k0_pay23 (k0_pay5 (View.ld x3 r0_0)) (k0_pay19 (k0_pay5 (View.ld x3 r0_0)) (k0_pay11 (View.ld x3 r0_0) (View.ld x1 r0_1)) (View.ld x1 r0_2) (View.ld x1 r0_3)) (View.ld x1 r0_4)) (k0_pay25 (k0_pay5 (View.ld x3 r0_0)) (View.ld x1 r0_5)) (View.ld x1 r0_6)) (k0_pay36 (k0_pay5 (View.ld x3 r0_0)) (View.ld x1 r0_7)) (View.ld x1 r0_8)) : S1x64x1.Idx → EReal) x = bstat x0 x1 x2 x3 (r0_12.emb x 1) (r0_12.emb x 2) := by
  obtain ⟨a, c, b, rfl⟩ : ∃ (a : Fin 1) (c : Fin 64) (b : Fin 1), x = ix3 a c b := ⟨x 0, x 1, x 2, eq_ix3 x⟩
  obtain rfl : a = 0 := Subsingleton.elim _ _
  obtain rfl : b = 0 := Subsingleton.elim _ _
  refine (chain_q2 (View.ld x3 r0_0) (View.ld x1 r0_1) (View.ld x1 r0_2) (View.ld x1 r0_3) (View.ld x1 r0_4) (View.ld x1 r0_5) (View.ld x1 r0_6) (View.ld x1 r0_7) (View.ld x1 r0_8) c).trans ?_
  rw [show View.ld x3 r0_0 = x3 from View.ld_unit_zero (S := S64x128) hz2 _ x3]
  have h0 : qs x3 (View.ld x1 r0_1) c = ∑ s : Fin 256, bconv x3 x1 0 c s * bconv x3 x1 0 c s := qs_ld x3 x1 0 _ c
  have h1 : qs x3 (View.ld x1 r0_2) c = ∑ s : Fin 256, bconv x3 x1 1 c s * bconv x3 x1 1 c s := qs_ld x3 x1 1 _ c
  have h2 : qs x3 (View.ld x1 r0_3) c = ∑ s : Fin 256, bconv x3 x1 2 c s * bconv x3 x1 2 c s := qs_ld x3 x1 2 _ c
  have h3 : qs x3 (View.ld x1 r0_4) c = ∑ s : Fin 256, bconv x3 x1 3 c s * bconv x3 x1 3 c s := qs_ld x3 x1 3 _ c
  have h4 : qs x3 (View.ld x1 r0_5) c = ∑ s : Fin 256, bconv x3 x1 4 c s * bconv x3 x1 4 c s := qs_ld x3 x1 4 _ c
  have h5 : qs x3 (View.ld x1 r0_6) c = ∑ s : Fin 256, bconv x3 x1 5 c s * bconv x3 x1 5 c s := qs_ld x3 x1 5 _ c
  have h6 : qs x3 (View.ld x1 r0_7) c = ∑ s : Fin 256, bconv x3 x1 6 c s * bconv x3 x1 6 c s := qs_ld x3 x1 6 _ c
  have h7 : qs x3 (View.ld x1 r0_8) c = ∑ s : Fin 256, bconv x3 x1 7 c s * bconv x3 x1 7 c s := qs_ld x3 x1 7 _ c
  rw [h0, h1, h2, h3, h4, h5, h6, h7]
  refine Eq.trans ?_ (bstat_hi_q x0 x1 x2 x3 _ _ c (by show 64 + 1 * c.val = 64 + c.val; omega) (by show 1 + 1 * 0 = 1; omega)).symm
  rw [Fin.sum_univ_eight]

/-- The output block after the body is that one function of the four input blocks. -/
private theorem out_eq (x0 x1 : Vec Ideal S8x128x256 .bf16) (x2 x3 : Vec Ideal S64x128 .f32) :
    out0_4 (F := Ideal) x0 x1 x2 x3 = fun y => bstat x0 x1 x2 x3 (y 1) (y 2) := by
  funext y
  unfold out0_4
  refine View.canon_apply_of_pieces (Val := Elt Ideal) (S := S1x128x2) (e := .f32) (fun y : S1x128x2.Idx => bstat x0 x1 x2 x3 (y 1) (y 2)) _ ?_ y (cover0_4 _ _ _ _ y)
  intro p hp x
  simp only [List.mem_cons, List.not_mem_nil, or_false] at hp
  rcases hp with rfl | rfl | rfl | rfl
  · exact piece_q2 x0 x1 x2 x3 x
  · exact piece_q1 x0 x1 x2 x3 x
  · exact piece_s2 x0 x1 x2 x3 x
  · exact piece_s1 x0 x1 x2 x3 x

/-! ## From the blocks to the array -/

/-- The printed index maps over the grid: the image blocks move with the point, the weights stay, the output block is row t. -/
private theorem idx_x1 : ∀ t : Fin cfg0.N, win0_0.index t (0 : Fin 3) = t.val ∧ win0_0.index t (1 : Fin 3) = 0 ∧ win0_0.index t (2 : Fin 3) = 0 :=
  (by decide +kernel : ∀ t : Fin grid0.N, _)
private theorem idx_x2 : ∀ t : Fin cfg0.N, win0_1.index t (0 : Fin 3) = t.val ∧ win0_1.index t (1 : Fin 3) = 0 ∧ win0_1.index t (2 : Fin 3) = 0 :=
  (by decide +kernel : ∀ t : Fin grid0.N, _)
private theorem idx_w1 : ∀ t : Fin cfg0.N, win0_2.index t (0 : Fin 2) = 0 ∧ win0_2.index t (1 : Fin 2) = 0 :=
  (by decide +kernel : ∀ t : Fin grid0.N, _)
private theorem idx_w2 : ∀ t : Fin cfg0.N, win0_3.index t (0 : Fin 2) = 0 ∧ win0_3.index t (1 : Fin 2) = 0 :=
  (by decide +kernel : ∀ t : Fin grid0.N, _)
private theorem idx_o : ∀ t : Fin cfg0.N, win0_4.index t (0 : Fin 3) = t.val ∧ win0_4.index t (1 : Fin 3) = 0 ∧ win0_4.index t (2 : Fin 3) = 0 :=
  (by decide +kernel : ∀ t : Fin grid0.N, _)

private theorem lt_N (t : Fin cfg0.N) : t.val < 8 := lt_of_lt_of_eq t.isLt (show cfg0.N = 8 from N_0)

/-- The first image block at point t holds images 8t … 8t+7 of its array. -/
private theorem iblk_x1 (V : (c : Dev nD) → (b : Ref sig .tc) → Buf (Elt Ideal) ((c : Thread nD τ).loc b)) (c : Dev nD) (t : Fin cfg0.N) (ht : t.val < 8) (i : Fin 8) (k : Fin 128) (s : Fin 256) :
    (iblk0 (F := Ideal) V c 0 t : Vec Ideal S8x128x256 .bf16) (ix3 i k s)
      = (V c main_call0_v9 : S64x128x256.Idx → EReal) (ix3 ⟨8 * t.val + i.val, by omega⟩ k s) := by
  obtain ⟨e0, e1, e2⟩ := idx_x1 t
  unfold iblk0
  rw [View.read_apply]
  show V c main_call0_v9 _ = V c main_call0_v9 _
  congr 1
  funext a
  apply Fin.ext
  match a with
  | ⟨0, _⟩ => show win0_0.index t (0 : Fin 3) * 8 + 1 * i.val = 8 * t.val + i.val; rw [e0]; omega
  | ⟨1, _⟩ => show win0_0.index t (1 : Fin 3) * 128 + 1 * k.val = k.val; rw [e1]; omega
  | ⟨2, _⟩ => show win0_0.index t (2 : Fin 3) * 256 + 1 * s.val = s.val; rw [e2]; omega

/-- The second image block likewise. -/
private theorem iblk_x2 (V : (c : Dev nD) → (b : Ref sig .tc) → Buf (Elt Ideal) ((c : Thread nD τ).loc b)) (c : Dev nD) (t : Fin cfg0.N) (ht : t.val < 8) (i : Fin 8) (k : Fin 128) (s : Fin 256) :
    (iblk0 (F := Ideal) V c 1 t : Vec Ideal S8x128x256 .bf16) (ix3 i k s)
      = (V c main_call0_v12 : S64x128x256.Idx → EReal) (ix3 ⟨8 * t.val + i.val, by omega⟩ k s) := by
  obtain ⟨e0, e1, e2⟩ := idx_x2 t
  unfold iblk0
  rw [View.read_apply]
  show V c main_call0_v12 _ = V c main_call0_v12 _
  congr 1
  funext a
  apply Fin.ext
  match a with
  | ⟨0, _⟩ => show win0_1.index t (0 : Fin 3) * 8 + 1 * i.val = 8 * t.val + i.val; rw [e0]; omega
  | ⟨1, _⟩ => show win0_1.index t (1 : Fin 3) * 128 + 1 * k.val = k.val; rw [e1]; omega
  | ⟨2, _⟩ => show win0_1.index t (2 : Fin 3) * 256 + 1 * s.val = s.val; rw [e2]; omega

/-- Each weight block is its whole array at every point. -/
private theorem iblk_w1 (V : (c : Dev nD) → (b : Ref sig .tc) → Buf (Elt Ideal) ((c : Thread nD τ).loc b)) (c : Dev nD) (t : Fin cfg0.N) (r : Fin 64) (k : Fin 128) :
    (iblk0 (F := Ideal) V c 2 t : Vec Ideal S64x128 .f32) (ix2 r k) = (V c main_call0_v13 : S64x128.Idx → EReal) (ix2 r k) := by
  obtain ⟨e0, e1⟩ := idx_w1 t
  unfold iblk0
  rw [View.read_apply]
  show V c main_call0_v13 _ = V c main_call0_v13 _
  congr 1
  funext a
  apply Fin.ext
  match a with
  | ⟨0, _⟩ => show win0_2.index t (0 : Fin 2) * 64 + 1 * r.val = r.val; rw [e0]; omega
  | ⟨1, _⟩ => show win0_2.index t (1 : Fin 2) * 128 + 1 * k.val = k.val; rw [e1]; omega

private theorem iblk_w2 (V : (c : Dev nD) → (b : Ref sig .tc) → Buf (Elt Ideal) ((c : Thread nD τ).loc b)) (c : Dev nD) (t : Fin cfg0.N) (r : Fin 64) (k : Fin 128) :
    (iblk0 (F := Ideal) V c 3 t : Vec Ideal S64x128 .f32) (ix2 r k) = (V c main_call0_v14 : S64x128.Idx → EReal) (ix2 r k) := by
  obtain ⟨e0, e1⟩ := idx_w2 t
  unfold iblk0
  rw [View.read_apply]
  show V c main_call0_v14 _ = V c main_call0_v14 _
  congr 1
  funext a
  apply Fin.ext
  match a with
  | ⟨0, _⟩ => show win0_3.index t (0 : Fin 2) * 64 + 1 * r.val = r.val; rw [e0]; omega
  | ⟨1, _⟩ => show win0_3.index t (1 : Fin 2) * 128 + 1 * k.val = k.val; rw [e1]; omega

/-- The block function of blocks that are grid point g's part of the arrays is the specification's partial sums at g. -/
private theorem bstat_eq_kstats (W1 W2 : Spec.T2 64 128) (X1 X2 : Spec.T3 64 128 256) (g : Fin 8)
    (x0 x1 : Vec Ideal S8x128x256 .bf16) (x2 x3 : Vec Ideal S64x128 .f32)
    (h0 : ∀ (i : Fin 8) (k : Fin 128) (s : Fin 256), x0 (ix3 i k s) = X1 ⟨8 * g.val + i.val, by omega⟩ k s)
    (h1 : ∀ (i : Fin 8) (k : Fin 128) (s : Fin 256), x1 (ix3 i k s) = X2 ⟨8 * g.val + i.val, by omega⟩ k s)
    (h2 : ∀ (r : Fin 64) (k : Fin 128), x2 (ix2 r k) = W1 r k) (h3 : ∀ (r : Fin 64) (k : Fin 128), x3 (ix2 r k) = W2 r k)
    (ch : Fin 128) (j : Fin 2) :
    bstat x0 x1 x2 x3 ch j = Spec.kstats W1 W2 X1 X2 g ch j := by
  have hlo : ∀ (r : Fin 64) (i : Fin 8) (s : Fin 256), bconv x2 x0 i r s = Spec.conv W1 X1 ⟨8 * g.val + i.val, by omega⟩ r s := fun r i s => by
    unfold bconv Spec.conv
    exact Finset.sum_congr rfl fun k _ => by rw [h2, h0]
  have hhi : ∀ (r : Fin 64) (i : Fin 8) (s : Fin 256), bconv x3 x1 i r s = Spec.conv W2 X2 ⟨8 * g.val + i.val, by omega⟩ r s := fun r i s => by
    unfold bconv Spec.conv
    exact Finset.sum_congr rfl fun k _ => by rw [h3, h1]
  unfold bstat Spec.kstats Spec.conv2
  by_cases h : ch.val < 64
  · simp only [dif_pos h, hlo]
  · simp only [dif_neg h, hhi]

/-- The whole result array as one function of the arrays the region finds. -/
private abbrev statsOf (V : (c : Dev nD) → (b : Ref sig .tc) → Buf (Elt Ideal) ((c : Thread nD τ).loc b)) (c : Dev nD) : S8x128x2.Idx → EReal := fun i =>
  Spec.kstats (a2 (V c main_call0_v13)) (a2 (V c main_call0_v14)) (a3 (V c main_call0_v9)) (a3 (V c main_call0_v12)) (i 0) (i 1) (i 2)

/-- What point t writes back is block t of that function. -/
private theorem flushed_eq (V : (c : Dev nD) → (b : Ref sig .tc) → Buf (Elt Ideal) ((c : Thread nD τ).loc b)) (c : Dev nD) (t : Fin cfg0.N) :
    (dat0 (F := Ideal) V c).flushed 4 t = ((cfg0.win 4).blk t).view.read (Elt Ideal) (statsOf V c) := by
  have ht : t.val < 8 := lt_N t
  obtain ⟨e0, e1, e2⟩ := idx_o t
  show (cfg0.win 4).cut (grid0.coords t) ((dat0 V c).after 4 t) = _
  rw [after0_4, out_eq]
  funext y
  obtain ⟨a, ch, j, rfl⟩ : ∃ (a : Fin 1) (ch : Fin 128) (j : Fin 2), y = ix3 a ch j := ⟨y 0, y 1, y 2, eq_ix3 y⟩
  obtain rfl : a = 0 := Subsingleton.elim _ _
  rw [View.read_apply]
  have hemb : ((cfg0.win 4).blk t).view.emb (ix3 (0 : Fin 1) ch j) = (ix3 (⟨t.val, ht⟩ : Fin 8) ch j : S8x128x2.Idx) := by
    funext ax
    apply Fin.ext
    match ax with
    | ⟨0, _⟩ => show win0_4.index t (0 : Fin 3) * 1 + 1 * 0 = t.val; rw [e0]; omega
    | ⟨1, _⟩ => show win0_4.index t (1 : Fin 3) * 128 + 1 * ch.val = ch.val; rw [e1]; omega
    | ⟨2, _⟩ => show win0_4.index t (2 : Fin 3) * 2 + 1 * j.val = j.val; rw [e2]; omega
  rw [hemb]
  exact bstat_eq_kstats (a2 (V c main_call0_v13)) (a2 (V c main_call0_v14)) (a3 (V c main_call0_v9)) (a3 (V c main_call0_v12)) ⟨t.val, ht⟩
    (iblk0 V c 0 t) (iblk0 V c 1 t) (iblk0 V c 2 t) (iblk0 V c 3 t)
    (iblk_x1 V c t ht) (iblk_x2 V c t ht) (iblk_w1 V c t) (iblk_w2 V c t) ch j

/-- An index of the array is in point t's block iff each coordinate is in the block's range on its axis. -/
private theorem mem_blk (t : Fin cfg0.N) (i : S8x128x2.Idx) :
    i ∈ ((cfg0.win 4).blk t).view.set ↔ ∀ a : Fin 3, win0_4.index t a * S1x128x2.size a ≤ (i a).val ∧ (i a).val < win0_4.index t a * S1x128x2.size a + S1x128x2.size a := by
  show i ∈ ((View.whole main_call0_v17).slice (win0_4.rect t)).set ↔ _
  rw [View.set_slice_whole, Rect.mem_set_unit]
  exact Iff.rfl

/-- Every index of the array lies in the block of the point its row names. -/
private theorem covered (i : S8x128x2.Idx) : ∃ t : Fin cfg0.N, (cfg0.win 4).flush t = true ∧ i ∈ ((cfg0.win 4).blk t).view.set := by
  have hi0 : (i 0).val < 8 := (i 0).isLt
  have hi1 : (i 1).val < 128 := (i 1).isLt
  have hi2 : (i 2).val < 2 := (i 2).isLt
  have hN : (i 0).val < cfg0.N := by rw [show cfg0.N = 8 from N_0]; exact hi0
  obtain ⟨e0, e1, e2⟩ := idx_o ⟨(i 0).val, hN⟩
  refine ⟨⟨(i 0).val, hN⟩, flush0_4 _, ?_⟩
  rw [mem_blk]
  intro a
  match a with
  | ⟨0, _⟩ => show win0_4.index ⟨(i 0).val, hN⟩ (0 : Fin 3) * 1 ≤ (i 0).val ∧ (i 0).val < win0_4.index ⟨(i 0).val, hN⟩ (0 : Fin 3) * 1 + 1; rw [e0]; show (i 0).val * 1 ≤ (i 0).val ∧ (i 0).val < (i 0).val * 1 + 1; omega
  | ⟨1, _⟩ => show win0_4.index ⟨(i 0).val, hN⟩ (1 : Fin 3) * 128 ≤ (i 1).val ∧ (i 1).val < win0_4.index ⟨(i 0).val, hN⟩ (1 : Fin 3) * 128 + 128; rw [e1]; omega
  | ⟨2, _⟩ => show win0_4.index ⟨(i 0).val, hN⟩ (2 : Fin 3) * 2 ≤ (i 2).val ∧ (i 2).val < win0_4.index ⟨(i 0).val, hN⟩ (2 : Fin 3) * 2 + 2; rw [e2]; omega

/-- The result array after the whole grid: every row is some point's block, and each block is the partial sums. -/
theorem stats_arr (V : (c : Dev nD) → (b : Ref sig .tc) → Buf (Elt Ideal) ((c : Thread nD τ).loc b)) (c : Dev nD) :
    ((dat0 (F := Ideal) V c).arrAt 4 cfg0.N : S8x128x2.Idx → EReal)
      = fun i => Spec.kstats (a2 (V c main_call0_v13)) (a2 (V c main_call0_v14)) (a3 (V c main_call0_v9)) (a3 (V c main_call0_v12)) (i 0) (i 1) (i 2) :=
  (dat0 (F := Ideal) V c).arrAt_eq_of_cover 4 (statsOf V c) (fun t _ => flushed_eq V c t) covered

end Cert.KernelIdeal.Val
end
-- ==== Proof.KOut.lean ====
import proofs.«175401_g2000004280588758_pallasbulk_1102_2_alg».proof.Proof.Gen.KernelIdeal.Frame
import proofs.«175401_g2000004280588758_pallasbulk_1102_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx
open Cert.Spec (a1 a2 a3 a4 col)

/-! What the second region (normalise and write out) leaves in its result array, from the arrays it finds. -/
namespace Cert.KernelIdeal.Val.KOut
open Cert.KernelIdeal Cert.KernelIdeal.Gen

/-- The product's contraction index is one coordinate below 128. -/
abbrev D := dot_S64x128_S128x256_S64x256_1_0_0_1_n_n

theorem lhs_D_0 (j : S64x256.Idx) (k : D.contr.Idx) : (D.lhsIdx j k 0).val = (j 0).val := by
  simp [DotDims.lhsIdx, D, dot_S64x128_S128x256_S64x256_1_0_0_1_n_n]; rfl

theorem lhs_D_1 (j : S64x256.Idx) (k : D.contr.Idx) : (D.lhsIdx j k 1).val = (k ⟨0, by decide⟩).val :=
  D.lhsIdx_val_of_single (cl := 1) rfl j k

theorem rhs_D_0 (j : S64x256.Idx) (k : D.contr.Idx) : (D.rhsIdx j k 0).val = (k ⟨0, by decide⟩).val :=
  D.rhsIdx_val_of_single (cr := 0) rfl j k

theorem rhs_D_1 (j : S64x256.Idx) (k : D.contr.Idx) : (D.rhsIdx j k 1).val = (j 1).val := by
  simp [DotDims.rhsIdx, D, dot_S64x128_S128x256_S64x256_1_0_0_1_n_n]; rfl

/-- A [64,128] by [128,256] product into the zero accumulator, at (p, q). -/
theorem matmul_at (w : FVec Ideal S64x128 .f32) (x : FVec Ideal S128x256 .f32) (p : Fin 64) (q : Fin 256) :
    matmul D none w x (constant S64x256 .f32 0x00000000#32) (ix2 p q) = ∑ k : Fin 128, w (ix2 p k) * x (ix2 k q) := by
  show FloatOps.matmul D none w x (constant S64x256 .f32 0x00000000#32) (ix2 p q) = _
  rw [Ideal.matmul_constant_zero_apply, ← Equiv.sum_comp (contrEquiv1 D 128 rfl rfl).symm]
  refine Finset.sum_congr rfl fun k _ => ?_
  have hk := contrEquiv1_symm_val D 128 rfl rfl k
  have hl : D.lhsIdx (ix2 p q) ((contrEquiv1 D 128 rfl rfl).symm k) = ix2 p k := by
    funext a; apply Fin.ext
    match a with
    | ⟨0, _⟩ => exact lhs_D_0 _ _
    | ⟨1, _⟩ => exact (lhs_D_1 _ _).trans hk
  have hr : D.rhsIdx (ix2 p q) ((contrEquiv1 D 128 rfl rfl).symm k) = ix2 k q := by
    funext a; apply Fin.ext
    match a with
    | ⟨0, _⟩ => exact (rhs_D_0 _ _).trans hk
    | ⟨1, _⟩ => exact rhs_D_1 _ _
  rw [hl, hr]

/-- One store's payload: a weight half times one image, times the scale column, plus the bias column. -/
def piece (w : FVec Ideal S64x128 .f32) (sc bi : FVec Ideal S64x1 .f32) (x : Vec Ideal S1x128x256 .bf16) : FVec Ideal S1x64x256 .f32 :=
  shapeCast S1x64x256 (addf (mulf (matmul D none w (extf .f32 (shapeCast S128x256 x shapeCasts_S1x128x256_S128x256) bitsLt_bf16_f32) (constant S64x256 .f32 0x00000000#32)) (broadcastTo S64x256 sc broadcasts_S64x1_S64x256)) (broadcastTo S64x256 bi broadcasts_S64x1_S64x256)) shapeCasts_S64x256_S1x64x256

/-- A [64,1] column spread over 256 lanes reads its row. -/
theorem spread_at (v : FVec Ideal S64x1 .f32) (p : Fin 64) (q : Fin 256) :
    broadcastTo S64x256 v broadcasts_S64x1_S64x256 (ix2 p q) = v (ix2 p 0) :=
  broadcastTo_apply v broadcasts_S64x1_S64x256 (ix2 p q) (ix2 p 0) fun a => by
    match a with
    | ⟨0, _⟩ => rfl
    | ⟨1, _⟩ => rfl

theorem piece_apply (w : FVec Ideal S64x128 .f32) (sc bi : FVec Ideal S64x1 .f32) (x : Vec Ideal S1x128x256 .bf16)
    (u : Fin 1) (p : Fin 64) (q : Fin 256) :
    piece w sc bi x (ix3 u p q) = (∑ k : Fin 128, w (ix2 p k) * (x (ix3 0 k q) : EReal)) * sc (ix2 p 0) + bi (ix2 p 0) := by
  unfold piece
  refine (shapeCast_ab_1ab_apply _ _ u p q).trans ?_
  rw [addf_apply, mulf_apply, matmul_at, spread_at, spread_at]
  refine congrArg (fun z => z * sc (ix2 p 0) + bi (ix2 p 0)) (Finset.sum_congr rfl fun k _ => ?_)
  refine congrArg (fun z => w (ix2 p k) * z) ?_
  exact shapeCast_1ab_ab_apply x shapeCasts_S1x128x256_S128x256 k q

/-- The partial sums added over the leading axis. -/
theorem tot_apply (st : Vec Ideal S8x128x2 .f32) (ch : Fin 128) (j : Fin 2) :
    k1_pay5 st (ix2 ch j) = Spec.tot (a3 st) ch j := by
  unfold k1_pay5
  rw [shapeCast_self]
  refine (Ideal.multiReduction_add_single st _ reduces_S8x128x2_S128x2 _ _ (ix2 ch j)).trans ?_
  refine Finset.sum_congr rfl fun g _ => congrArg st ?_
  funext a
  match a with
  | ⟨0, _⟩ => rfl
  | ⟨1, _⟩ => rfl
  | ⟨2, _⟩ => rfl

/-- Column 0 of the totals times the reciprocal count: the mean. -/
theorem mean_apply (st : Vec Ideal S8x128x2 .f32) (ch : Fin 128) :
    k1_pay6 st (ix2 ch 0) = Spec.kmean (a3 st) ch := by
  unfold k1_pay6
  rw [mulf_apply, broadcast_apply]
  refine congrArg (fun z => z * Spec.invCnt) ?_
  refine (extractStridedSlice_apply _ _ slices_S128x2_o0_0_S128x1 (ix2 ch 0) (ix2 ch 0) fun a => ?_).trans (tot_apply st ch 0)
  match a with
  | ⟨0, _⟩ => show ch.val = 0 + ch.val; omega
  | ⟨1, _⟩ => rfl

/-- The scale column: γ over the root of the clamped variance plus ε. -/
theorem scale_apply (st : Vec Ideal S8x128x2 .f32) (gm : Vec Ideal S128x1 .f32) (ch : Fin 128) :
    k1_pay7 st gm (ix2 ch 0) = Spec.scaleOf (col gm) (Spec.kvar (a3 st)) ch := by
  have e1 : extractStridedSlice S128x1 ![0, 1] (k1_pay5 st) slices_S128x2_o0_1_S128x1 (ix2 ch 0) = Spec.tot (a3 st) ch 1 :=
    (extractStridedSlice_apply _ _ slices_S128x2_o0_1_S128x1 (ix2 ch 0) (ix2 ch 1) fun a => by
      match a with
      | ⟨0, _⟩ => show ch.val = 0 + ch.val; omega
      | ⟨1, _⟩ => rfl).trans (tot_apply st ch 1)
  unfold k1_pay7
  rw [mulf_apply, shapeCast_self]
  show (gm (ix2 ch 0) : EReal) * Ideal.rsqrt (max (extractStridedSlice S128x1 ![0, 1] (k1_pay5 st) slices_S128x2_o0_1_S128x1 (ix2 ch 0) * Spec.invCnt
      - k1_pay6 st (ix2 ch 0) * k1_pay6 st (ix2 ch 0)) (Ideal.ofBits .f32 0x00000000#32) + Spec.eps) = _
  rw [e1, mean_apply, Ideal.ofBits_zero_f32]
  rfl

/-- The bias column: β less the mean times the scale. -/
theorem bias_apply (st : Vec Ideal S8x128x2 .f32) (gm bt : Vec Ideal S128x1 .f32) (ch : Fin 128) :
    k1_pay8 st gm bt (ix2 ch 0) = Spec.biasOf (col bt) (Spec.kmean (a3 st)) (Spec.scaleOf (col gm) (Spec.kvar (a3 st))) ch := by
  unfold k1_pay8
  rw [subf_apply, mulf_apply, shapeCast_self, mean_apply, scale_apply]
  rfl

/-- What a grid point leaves in its output block, from the blocks it reads: image i of the point's eight,
    channel ch, pixel s.  Channels 0–63 come from the first product, 64–127 from the second. -/
def blockF (x1 x2 : Vec Ideal S8x128x256 .bf16) (w1 w2 : Vec Ideal S64x128 .f32) (st : Vec Ideal S8x128x2 .f32)
    (gm bt : Vec Ideal S128x1 .f32) (i : Fin 8) (ch : Fin 128) (s : Fin 256) : EReal :=
  (if h : ch.val < 64 then ∑ k : Fin 128, (w1 (ix2 (⟨ch.val, h⟩ : Fin 64) k) : EReal) * (x1 (ix3 i k s) : EReal)
    else ∑ k : Fin 128, (w2 (ix2 (⟨ch.val - 64, by omega⟩ : Fin 64) k) : EReal) * (x2 (ix3 i k s) : EReal))
    * Spec.scaleOf (col gm) (Spec.kvar (a3 st)) ch
    + Spec.biasOf (col bt) (Spec.kmean (a3 st)) (Spec.scaleOf (col gm) (Spec.kvar (a3 st))) ch

def blockG (x1 x2 : Vec Ideal S8x128x256 .bf16) (w1 w2 : Vec Ideal S64x128 .f32) (st : Vec Ideal S8x128x2 .f32)
    (gm bt : Vec Ideal S128x1 .f32) : S8x128x256.Idx → EReal :=
  fun y => blockF x1 x2 w1 w2 st gm bt (y 0) (y 1) (y 2)

theorem hz2 : (![0, 0] : Fin 2 → Nat) = fun _ => 0 := funext fun a => by fin_cases a <;> rfl
theorem hz3 : (![0, 0, 0] : Fin 3 → Nat) = fun _ => 0 := funext fun a => by fin_cases a <;> rfl

/-- Rows 0–63 and rows 64–127 of the scale and bias columns. -/
theorem scale_lo (st : Vec Ideal S8x128x2 .f32) (gm : Vec Ideal S128x1 .f32) (p : Fin 64) :
    k1_pay11 (View.ld st r1_0) (View.ld gm r1_1) (ix2 p 0) = Spec.scaleOf (col gm) (Spec.kvar (a3 st)) ⟨p.val, by omega⟩ := by
  unfold k1_pay11
  rw [View.ld_unit_zero (S := S8x128x2) hz3, View.ld_unit_zero (S := S128x1) hz2]
  refine (extractStridedSlice_apply _ _ slices_S128x1_o0_0_S64x1 (ix2 p 0) (ix2 (⟨p.val, by omega⟩ : Fin 128) 0) fun a => ?_).trans (scale_apply st gm _)
  match a with
  | ⟨0, _⟩ => show p.val = 0 + p.val; omega
  | ⟨1, _⟩ => rfl

theorem scale_hi (st : Vec Ideal S8x128x2 .f32) (gm : Vec Ideal S128x1 .f32) (p : Fin 64) :
    k1_pay12 (View.ld st r1_0) (View.ld gm r1_1) (ix2 p 0) = Spec.scaleOf (col gm) (Spec.kvar (a3 st)) ⟨p.val + 64, by omega⟩ := by
  unfold k1_pay12
  rw [View.ld_unit_zero (S := S8x128x2) hz3, View.ld_unit_zero (S := S128x1) hz2]
  refine (extractStridedSlice_apply _ _ slices_S128x1_o64_0_S64x1 (ix2 p 0) (ix2 (⟨p.val + 64, by omega⟩ : Fin 128) 0) fun a => ?_).trans (scale_apply st gm _)
  match a with
  | ⟨0, _⟩ => show p.val + 64 = 64 + p.val; omega
  | ⟨1, _⟩ => rfl

theorem bias_lo (st : Vec Ideal S8x128x2 .f32) (gm bt : Vec Ideal S128x1 .f32) (p : Fin 64) :
    k1_pay13 (View.ld st r1_0) (View.ld gm r1_1) (View.ld bt r1_1) (ix2 p 0)
      = Spec.biasOf (col bt) (Spec.kmean (a3 st)) (Spec.scaleOf (col gm) (Spec.kvar (a3 st))) ⟨p.val, by omega⟩ := by
  unfold k1_pay13
  rw [View.ld_unit_zero (S := S8x128x2) hz3, View.ld_unit_zero (S := S128x1) hz2, View.ld_unit_zero (S := S128x1) hz2]
  refine (extractStridedSlice_apply _ _ slices_S128x1_o0_0_S64x1 (ix2 p 0) (ix2 (⟨p.val, by omega⟩ : Fin 128) 0) fun a => ?_).trans (bias_apply st gm bt _)
  match a with
  | ⟨0, _⟩ => show p.val = 0 + p.val; omega
  | ⟨1, _⟩ => rfl

theorem bias_hi (st : Vec Ideal S8x128x2 .f32) (gm bt : Vec Ideal S128x1 .f32) (p : Fin 64) :
    k1_pay14 (View.ld st r1_0) (View.ld gm r1_1) (View.ld bt r1_1) (ix2 p 0)
      = Spec.biasOf (col bt) (Spec.kmean (a3 st)) (Spec.scaleOf (col gm) (Spec.kvar (a3 st))) ⟨p.val + 64, by omega⟩ := by
  unfold k1_pay14
  rw [View.ld_unit_zero (S := S8x128x2) hz3, View.ld_unit_zero (S := S128x1) hz2, View.ld_unit_zero (S := S128x1) hz2]
  refine (extractStridedSlice_apply _ _ slices_S128x1_o64_0_S64x1 (ix2 p 0) (ix2 (⟨p.val + 64, by omega⟩ : Fin 128) 0) fun a => ?_).trans (bias_apply st gm bt _)
  match a with
  | ⟨0, _⟩ => show p.val + 64 = 64 + p.val; omega
  | ⟨1, _⟩ => rfl

/-- Image i of a block of eight, loaded as one [1,128,256] slab. -/
theorem slab_at (x : Vec Ideal S8x128x256 .bf16) (i : Fin 8) (inb' : ∀ a, (![i.val, 0, 0] : Fin 3 → Nat) a + S1x128x256.size a ≤ S8x128x256.size a)
    (k : Fin 128) (q : Fin 256) :
    View.ld x (Rect.unit (s := S8x128x256) ![i.val, 0, 0] S1x128x256.size inb') (ix3 0 k q) = x (ix3 i k q) := by
  show x ((Rect.unit (s := S8x128x256) ![i.val, 0, 0] S1x128x256.size inb').emb (ix3 0 k q)) = _
  refine congrArg x (funext fun a => Fin.ext ?_)
  match a with
  | ⟨0, _⟩ => show i.val + 1 * 0 = i.val; omega
  | ⟨1, _⟩ => show 0 + 1 * k.val = k.val; omega
  | ⟨2, _⟩ => show 0 + 1 * q.val = q.val; omega

/-- A lower-half store (channels 0–63 of image i) is the block function on its rectangle. -/
theorem lo_piece (x1 x2 : Vec Ideal S8x128x256 .bf16) (w1 w2 : Vec Ideal S64x128 .f32) (st : Vec Ideal S8x128x2 .f32)
    (gm bt : Vec Ideal S128x1 .f32) (i : Nat) (hi : i < 8)
    (inb : ∀ a, (![i, 0, 0] : Fin 3 → Nat) a + S1x64x256.size a ≤ S8x128x256.size a)
    (inb' : ∀ a, (![i, 0, 0] : Fin 3 → Nat) a + S1x128x256.size a ≤ S8x128x256.size a) (xx : S1x64x256.Idx) :
    piece (k1_pay9 (View.ld w1 r1_2)) (k1_pay11 (View.ld st r1_0) (View.ld gm r1_1))
        (k1_pay13 (View.ld st r1_0) (View.ld gm r1_1) (View.ld bt r1_1))
        (View.ld x1 (Rect.unit (s := S8x128x256) ![i, 0, 0] S1x128x256.size inb')) xx
      = blockG x1 x2 w1 w2 st gm bt ((Rect.unit (s := S8x128x256) ![i, 0, 0] S1x64x256.size inb).emb xx) := by
  obtain ⟨u, p, q, rfl⟩ : ∃ (u : Fin 1) (p : Fin 64) (q : Fin 256), xx = ix3 u p q := ⟨xx 0, xx 1, xx 2, eq_ix3 xx⟩
  have e : (Rect.unit (s := S8x128x256) ![i, 0, 0] S1x64x256.size inb).emb (ix3 u p q) = ix3 (⟨i, hi⟩ : Fin 8) (⟨p.val, by omega⟩ : Fin 128) q := by
    funext a; apply Fin.ext
    match a with
    | ⟨0, _⟩ => show i + 1 * u.val = i; omega
    | ⟨1, _⟩ => show 0 + 1 * p.val = p.val; omega
    | ⟨2, _⟩ => show 0 + 1 * q.val = q.val; omega
  rw [e, piece_apply, scale_lo, bias_lo]
  show _ = blockF x1 x2 w1 w2 st gm bt ⟨i, hi⟩ ⟨p.val, _⟩ q
  unfold blockF
  rw [dif_pos (show (⟨p.val, by omega⟩ : Fin 128).val < 64 from p.isLt)]
  refine congrArg (fun z => z * _ + _) (Finset.sum_congr rfl fun k _ => ?_)
  unfold k1_pay9
  rw [shapeCast_self, View.ld_unit_zero (S := S64x128) hz2, slab_at _ ⟨i, hi⟩]

/-- An upper-half store (channels 64–127 of image i) is the block function on its rectangle. -/
theorem hi_piece (x1 x2 : Vec Ideal S8x128x256 .bf16) (w1 w2 : Vec Ideal S64x128 .f32) (st : Vec Ideal S8x128x2 .f32)
    (gm bt : Vec Ideal S128x1 .f32) (i : Nat) (hi : i < 8)
    (inb : ∀ a, (![i, 64, 0] : Fin 3 → Nat) a + S1x64x256.size a ≤ S8x128x256.size a)
    (inb' : ∀ a, (![i, 0, 0] : Fin 3 → Nat) a + S1x128x256.size a ≤ S8x128x256.size a) (xx : S1x64x256.Idx) :
    piece (k1_pay10 (View.ld w2 r1_2)) (k1_pay12 (View.ld st r1_0) (View.ld gm r1_1))
        (k1_pay14 (View.ld st r1_0) (View.ld gm r1_1) (View.ld bt r1_1))
        (View.ld x2 (Rect.unit (s := S8x128x256) ![i, 0, 0] S1x128x256.size inb')) xx
      = blockG x1 x2 w1 w2 st gm bt ((Rect.unit (s := S8x128x256) ![i, 64, 0] S1x64x256.size inb).emb xx) := by
  obtain ⟨u, p, q, rfl⟩ : ∃ (u : Fin 1) (p : Fin 64) (q : Fin 256), xx = ix3 u p q := ⟨xx 0, xx 1, xx 2, eq_ix3 xx⟩
  have e : (Rect.unit (s := S8x128x256) ![i, 64, 0] S1x64x256.size inb).emb (ix3 u p q) = ix3 (⟨i, hi⟩ : Fin 8) (⟨p.val + 64, by omega⟩ : Fin 128) q := by
    funext a; apply Fin.ext
    match a with
    | ⟨0, _⟩ => show i + 1 * u.val = i; omega
    | ⟨1, _⟩ => show 64 + 1 * p.val = p.val + 64; omega
    | ⟨2, _⟩ => show 0 + 1 * q.val = q.val; omega
  rw [e, piece_apply, scale_hi, bias_hi]
  show _ = blockF x1 x2 w1 w2 st gm bt ⟨i, hi⟩ ⟨p.val + 64, _⟩ q
  unfold blockF
  rw [dif_neg (show ¬ (⟨p.val + 64, by omega⟩ : Fin 128).val < 64 from by show ¬ p.val + 64 < 64; omega)]
  refine congrArg (fun z => z * _ + _) (Finset.sum_congr rfl fun k _ => ?_)
  unfold k1_pay10
  rw [shapeCast_self, View.ld_unit_zero (S := S64x128) hz2, slab_at _ ⟨i, hi⟩]
  have ep : (⟨(⟨p.val + 64, by omega⟩ : Fin 128).val - 64, by show p.val + 64 - 64 < 64; omega⟩ : Fin 64) = p := Fin.ext (by show p.val + 64 - 64 = p.val; omega)
  rw [ep]

/-- The sixteen stores together: the block a point leaves is the block function of the blocks it reads. -/
theorem block_eq (x1 x2 : Vec Ideal S8x128x256 .bf16) (w1 w2 : Vec Ideal S64x128 .f32) (st : Vec Ideal S8x128x2 .f32)
    (gm bt : Vec Ideal S128x1 .f32) :
    out1_7 x1 x2 w1 w2 st gm bt = blockG x1 x2 w1 w2 st gm bt := by
  funext y
  unfold out1_7
  refine View.canon_apply_of_pieces (Val := Elt Ideal) (blockG x1 x2 w1 w2 st gm bt) _ ?_ y (cover1_7 _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl
  · exact fun xx => hi_piece x1 x2 w1 w2 st gm bt 7 (by omega) inb_S8x128x256_S1x64x256_7_64_0 inb_S8x128x256_S1x128x256_7_0_0 xx
  · exact fun xx => lo_piece x1 x2 w1 w2 st gm bt 7 (by omega) inb_S8x128x256_S1x64x256_7_0_0 inb_S8x128x256_S1x128x256_7_0_0 xx
  · exact fun xx => hi_piece x1 x2 w1 w2 st gm bt 6 (by omega) inb_S8x128x256_S1x64x256_6_64_0 inb_S8x128x256_S1x128x256_6_0_0 xx
  · exact fun xx => lo_piece x1 x2 w1 w2 st gm bt 6 (by omega) inb_S8x128x256_S1x64x256_6_0_0 inb_S8x128x256_S1x128x256_6_0_0 xx
  · exact fun xx => hi_piece x1 x2 w1 w2 st gm bt 5 (by omega) inb_S8x128x256_S1x64x256_5_64_0 inb_S8x128x256_S1x128x256_5_0_0 xx
  · exact fun xx => lo_piece x1 x2 w1 w2 st gm bt 5 (by omega) inb_S8x128x256_S1x64x256_5_0_0 inb_S8x128x256_S1x128x256_5_0_0 xx
  · exact fun xx => hi_piece x1 x2 w1 w2 st gm bt 4 (by omega) inb_S8x128x256_S1x64x256_4_64_0 inb_S8x128x256_S1x128x256_4_0_0 xx
  · exact fun xx => lo_piece x1 x2 w1 w2 st gm bt 4 (by omega) inb_S8x128x256_S1x64x256_4_0_0 inb_S8x128x256_S1x128x256_4_0_0 xx
  · exact fun xx => hi_piece x1 x2 w1 w2 st gm bt 3 (by omega) inb_S8x128x256_S1x64x256_3_64_0 inb_S8x128x256_S1x128x256_3_0_0 xx
  · exact fun xx => lo_piece x1 x2 w1 w2 st gm bt 3 (by omega) inb_S8x128x256_S1x64x256_3_0_0 inb_S8x128x256_S1x128x256_3_0_0 xx
  · exact fun xx => hi_piece x1 x2 w1 w2 st gm bt 2 (by omega) inb_S8x128x256_S1x64x256_2_64_0 inb_S8x128x256_S1x128x256_2_0_0 xx
  · exact fun xx => lo_piece x1 x2 w1 w2 st gm bt 2 (by omega) inb_S8x128x256_S1x64x256_2_0_0 inb_S8x128x256_S1x128x256_2_0_0 xx
  · exact fun xx => hi_piece x1 x2 w1 w2 st gm bt 1 (by omega) inb_S8x128x256_S1x64x256_1_64_0 inb_S8x128x256_S1x128x256_1_0_0 xx
  · exact fun xx => lo_piece x1 x2 w1 w2 st gm bt 1 (by omega) inb_S8x128x256_S1x64x256_1_0_0 inb_S8x128x256_S1x128x256_1_0_0 xx
  · exact fun xx => hi_piece x1 x2 w1 w2 st gm bt 0 (by omega) inb_S8x128x256_S1x64x256_0_64_0 inb_S8x128x256_S1x128x256_0_0_0 xx
  · exact fun xx => lo_piece x1 x2 w1 w2 st gm bt 0 (by omega) inb_S8x128x256_S1x64x256_0_0_0 inb_S8x128x256_S1x128x256_0_0_0 xx

/-- The block function over blocks cut from whole arrays is the array function at the blocks' place:
    image 8·g + i of the arrays is image i of point g's blocks. -/
theorem blockF_eq_kout (x1 x2 : Vec Ideal S8x128x256 .bf16) (w1 w2 : Vec Ideal S64x128 .f32) (st : Vec Ideal S8x128x2 .f32)
    (gm bt : Vec Ideal S128x1 .f32) (X1 X2 : S64x128x256.Idx → EReal) (i : Fin 8) (n : Fin 64)
    (h1 : ∀ (k : Fin 128) (s : Fin 256), (x1 (ix3 i k s) : EReal) = X1 (ix3 n k s))
    (h2 : ∀ (k : Fin 128) (s : Fin 256), (x2 (ix3 i k s) : EReal) = X2 (ix3 n k s))
    (ch : Fin 128) (s : Fin 256) :
    blockF x1 x2 w1 w2 st gm bt i ch s = Spec.kout (a2 w1) (a2 w2) (a3 X1) (a3 X2) (a3 st) (col gm) (col bt) n ch s := by
  unfold blockF Spec.kout Spec.conv2 Spec.conv
  refine congrArg (fun z => z * _ + _) ?_
  by_cases h : ch.val < 64
  · rw [dif_pos h, dif_pos h]
    exact Finset.sum_congr rfl fun k _ => by rw [h1]
  · rw [dif_neg h, dif_neg h]
    exact Finset.sum_congr rfl fun k _ => by rw [h2]

/-- The index maps over the grid: the image windows and the output move with the point along the leading axis;
    every other window stays at block (0, …, 0). -/
theorem idx_facts : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = 0 ∧ win1_4.index t (1 : Fin 3) = 0 ∧ win1_4.index t (2 : Fin 3) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 3) = t.val ∧ win1_7.index t (1 : Fin 3) = 0 ∧ win1_7.index t (2 : Fin 3) = 0 :=
  (by decide +kernel : ∀ t : Fin grid1.N, _)

variable (V : (c : Dev nD) → (b : Ref sig .tc) → Buf (Elt Ideal) ((c : Thread nD τ).loc b))

/-- The blocks a point reads, each at its literal type. -/
abbrev bx1 (c : Dev nD) (t : Fin cfg1.N) : Vec Ideal S8x128x256 .bf16 := iblk1 V c 0 t
abbrev bx2 (c : Dev nD) (t : Fin cfg1.N) : Vec Ideal S8x128x256 .bf16 := iblk1 V c 1 t
abbrev bw1 (c : Dev nD) (t : Fin cfg1.N) : Vec Ideal S64x128 .f32 := iblk1 V c 2 t
abbrev bw2 (c : Dev nD) (t : Fin cfg1.N) : Vec Ideal S64x128 .f32 := iblk1 V c 3 t
abbrev bst (c : Dev nD) (t : Fin cfg1.N) : Vec Ideal S8x128x2 .f32 := iblk1 V c 4 t
abbrev bgm (c : Dev nD) (t : Fin cfg1.N) : Vec Ideal S128x1 .f32 := iblk1 V c 5 t
abbrev bbt (c : Dev nD) (t : Fin cfg1.N) : Vec Ideal S128x1 .f32 := iblk1 V c 6 t

/-- Image i of point t's first image block is image 8·t + i of the array. -/
theorem bx1_apply (c : Dev nD) (t : Fin cfg1.N) (i : Fin 8) (n : Fin 64) (hn : n.val = 8 * t.val + i.val) (k : Fin 128) (s : Fin 256) :
    (bx1 V c t (ix3 i k s) : EReal) = (V c main_call0_v9 : S64x128x256.Idx → EReal) (ix3 n k s) := by
  obtain ⟨e0, e1, e2, -⟩ := idx_facts t
  show (V c main_call0_v9 : S64x128x256.Idx → EReal) (((cfg1.win 0).blk t).view.emb (ix3 i k s)) = _
  refine congrArg _ (funext fun a => Fin.ext ?_)
  match a with
  | ⟨0, _⟩ => show win1_0.index t (0 : Fin 3) * 8 + 1 * i.val = n.val; rw [e0, hn]; omega
  | ⟨1, _⟩ => show win1_0.index t (1 : Fin 3) * 128 + 1 * k.val = k.val; rw [e1]; omega
  | ⟨2, _⟩ => show win1_0.index t (2 : Fin 3) * 256 + 1 * s.val = s.val; rw [e2]; omega

theorem bx2_apply (c : Dev nD) (t : Fin cfg1.N) (i : Fin 8) (n : Fin 64) (hn : n.val = 8 * t.val + i.val) (k : Fin 128) (s : Fin 256) :
    (bx2 V c t (ix3 i k s) : EReal) = (V c main_call0_v12 : S64x128x256.Idx → EReal) (ix3 n k s) := by
  obtain ⟨-, -, -, e0, e1, e2, -⟩ := idx_facts t
  show (V c main_call0_v12 : S64x128x256.Idx → EReal) (((cfg1.win 1).blk t).view.emb (ix3 i k s)) = _
  refine congrArg _ (funext fun a => Fin.ext ?_)
  match a with
  | ⟨0, _⟩ => show win1_1.index t (0 : Fin 3) * 8 + 1 * i.val = n.val; rw [e0, hn]; omega
  | ⟨1, _⟩ => show win1_1.index t (1 : Fin 3) * 128 + 1 * k.val = k.val; rw [e1]; omega
  | ⟨2, _⟩ => show win1_1.index t (2 : Fin 3) * 256 + 1 * s.val = s.val; rw [e2]; omega

/-- The windows that hold a whole array read that array at every point. -/
theorem bw1_eq (c : Dev nD) (t : Fin cfg1.N) : bw1 V c t = (V c main_call0_v13 : S64x128.Idx → EReal) := by
  obtain ⟨-, -, -, -, -, -, e0, e1, -⟩ := idx_facts t
  funext y
  show (V c main_call0_v13 : S64x128.Idx → EReal) (((cfg1.win 2).blk t).view.emb y) = _
  refine congrArg _ (funext fun a => Fin.ext ?_)
  match a with
  | ⟨0, _⟩ => show win1_2.index t (0 : Fin 2) * 64 + 1 * (y 0).val = (y 0).val; rw [e0]; omega
  | ⟨1, _⟩ => show win1_2.index t (1 : Fin 2) * 128 + 1 * (y 1).val = (y 1).val; rw [e1]; omega

theorem bw2_eq (c : Dev nD) (t : Fin cfg1.N) : bw2 V c t = (V c main_call0_v14 : S64x128.Idx → EReal) := by
  obtain ⟨-, -, -, -, -, -, -, -, e0, e1, -⟩ := idx_facts t
  funext y
  show (V c main_call0_v14 : S64x128.Idx → EReal) (((cfg1.win 3).blk t).view.emb y) = _
  refine congrArg _ (funext fun a => Fin.ext ?_)
  match a with
  | ⟨0, _⟩ => show win1_3.index t (0 : Fin 2) * 64 + 1 * (y 0).val = (y 0).val; rw [e0]; omega
  | ⟨1, _⟩ => show win1_3.index t (1 : Fin 2) * 128 + 1 * (y 1).val = (y 1).val; rw [e1]; omega

theorem bst_eq (c : Dev nD) (t : Fin cfg1.N) : bst V c t = (V c main_call0_v17 : S8x128x2.Idx → EReal) := by
  obtain ⟨-, -, -, -, -, -, -, -, -, -, e0, e1, e2, -⟩ := idx_facts t
  funext y
  show (V c main_call0_v17 : S8x128x2.Idx → EReal) (((cfg1.win 4).blk t).view.emb y) = _
  refine congrArg _ (funext fun a => Fin.ext ?_)
  match a with
  | ⟨0, _⟩ => show win1_4.index t (0 : Fin 3) * 8 + 1 * (y 0).val = (y 0).val; rw [e0]; omega
  | ⟨1, _⟩ => show win1_4.index t (1 : Fin 3) * 128 + 1 * (y 1).val = (y 1).val; rw [e1]; omega
  | ⟨2, _⟩ => show win1_4.index t (2 : Fin 3) * 2 + 1 * (y 2).val = (y 2).val; rw [e2]; omega

theorem bgm_eq (c : Dev nD) (t : Fin cfg1.N) : bgm V c t = (V c main_call0_v15 : S128x1.Idx → EReal) := by
  obtain ⟨-, -, -, -, -, -, -, -, -, -, -, -, -, e0, e1, -⟩ := idx_facts t
  funext y
  show (V c main_call0_v15 : S128x1.Idx → EReal) (((cfg1.win 5).blk t).view.emb y) = _
  refine congrArg _ (funext fun a => Fin.ext ?_)
  match a with
  | ⟨0, _⟩ => show win1_5.index t (0 : Fin 2) * 128 + 1 * (y 0).val = (y 0).val; rw [e0]; omega
  | ⟨1, _⟩ => show win1_5.index t (1 : Fin 2) * 1 + 1 * (y 1).val = (y 1).val; rw [e1]; omega

theorem bbt_eq (c : Dev nD) (t : Fin cfg1.N) : bbt V c t = (V c main_call0_v16 : S128x1.Idx → EReal) := by
  obtain ⟨-, -, -, -, -, -, -, -, -, -, -, -, -, -, -, e0, e1, -⟩ := idx_facts t
  funext y
  show (V c main_call0_v16 : S128x1.Idx → EReal) (((cfg1.win 6).blk t).view.emb y) = _
  refine congrArg _ (funext fun a => Fin.ext ?_)
  match a with
  | ⟨0, _⟩ => show win1_6.index t (0 : Fin 2) * 128 + 1 * (y 0).val = (y 0).val; rw [e0]; omega
  | ⟨1, _⟩ => show win1_6.index t (1 : Fin 2) * 1 + 1 * (y 1).val = (y 1).val; rw [e1]; omega

/-- The whole result array as one function of the arrays the region finds. -/
abbrev arrG (c : Dev nD) : S64x128x256.Idx → EReal := fun i =>
  Spec.kout (a2 (V c main_call0_v13)) (a2 (V c main_call0_v14)) (a3 (V c main_call0_v9)) (a3 (V c main_call0_v12))
    (a3 (V c main_call0_v17)) (col (V c main_call0_v15)) (col (V c main_call0_v16)) (i 0) (i 1) (i 2)

/-- What point t writes back is block t of the array function. -/
theorem flushed_eq (c : Dev nD) (t : Fin cfg1.N) :
    (dat1 (F := Ideal) V c).flushed 7 t = ((cfg1.win 7).blk t).view.read (Elt Ideal) (arrG V c) := by
  show (cfg1.win 7).cut (grid1.coords t) ((dat1 V c).after 7 t) = _
  rw [after1_7]
  refine funext fun (j : S8x128x256.Idx) => ?_
  obtain ⟨i, ch, s, rfl⟩ : ∃ (i : Fin 8) (ch : Fin 128) (s : Fin 256), j = ix3 i ch s := ⟨j 0, j 1, j 2, eq_ix3 j⟩
  have ht : t.val < 8 := by have h := t.isLt; have hN : cfg1.N = 8 := N_1; omega
  obtain ⟨-, -, -, -, -, -, -, -, -, -, -, -, -, -, -, -, -, e0, e1, e2⟩ := idx_facts t
  have e : ((cfg1.win 7).blk t).view.emb (ix3 i ch s) = (ix3 (⟨8 * t.val + i.val, by omega⟩ : Fin 64) ch s : S64x128x256.Idx) := by
    funext a; apply Fin.ext
    match a with
    | ⟨0, _⟩ => show win1_7.index t (0 : Fin 3) * 8 + 1 * i.val = 8 * t.val + i.val; rw [e0]; omega
    | ⟨1, _⟩ => show win1_7.index t (1 : Fin 3) * 128 + 1 * ch.val = ch.val; rw [e1]; omega
    | ⟨2, _⟩ => show win1_7.index t (2 : Fin 3) * 256 + 1 * s.val = s.val; rw [e2]; omega
  show out1_7 (bx1 V c t) (bx2 V c t) (bw1 V c t) (bw2 V c t) (bst V c t) (bgm V c t) (bbt V c t) (ix3 i ch s)
      = arrG V c (((cfg1.win 7).blk t).view.emb (ix3 i ch s))
  rw [e, block_eq, bw1_eq, bw2_eq, bst_eq, bgm_eq, bbt_eq]
  exact blockF_eq_kout (bx1 V c t) (bx2 V c t) (V c main_call0_v13) (V c main_call0_v14) (V c main_call0_v17)
    (V c main_call0_v15) (V c main_call0_v16) (V c main_call0_v9) (V c main_call0_v12) i (⟨8 * t.val + i.val, by omega⟩ : Fin 64)
    (bx1_apply V c t i _ rfl) (bx2_apply V c t i _ rfl) ch s

/-- Every image lies in the block of the point that holds it. -/
theorem covered (i : S64x128x256.Idx) :
    ∃ t : Fin cfg1.N, (cfg1.win 7).flush t = true ∧ i ∈ ((cfg1.win 7).blk t).view.set := by
  have h0 : (i 0).val < 64 := (i 0).isLt
  have h1 : (i 1).val < 128 := (i 1).isLt
  have h2 : (i 2).val < 256 := (i 2).isLt
  have hN : cfg1.N = 8 := N_1
  obtain ⟨t, ht⟩ : ∃ t : Fin cfg1.N, t.val = (i 0).val / 8 := ⟨⟨(i 0).val / 8, by omega⟩, rfl⟩
  obtain ⟨-, -, -, -, -, -, -, -, -, -, -, -, -, -, -, -, -, e0, e1, e2⟩ := idx_facts t
  refine ⟨t, flush1_7 t, ?_⟩
  show i ∈ ((View.whole main_call0_v18).slice (win1_7.rect t)).set
  rw [View.set_slice_whole, Rect.mem_set_unit]
  intro a
  match a with
  | ⟨0, _⟩ => show win1_7.index t (0 : Fin 3) * 8 ≤ (i 0).val ∧ (i 0).val < win1_7.index t (0 : Fin 3) * 8 + 8; rw [e0]; omega
  | ⟨1, _⟩ => show win1_7.index t (1 : Fin 3) * 128 ≤ (i 1).val ∧ (i 1).val < win1_7.index t (1 : Fin 3) * 128 + 128; rw [e1]; omega
  | ⟨2, _⟩ => show win1_7.index t (2 : Fin 3) * 256 ≤ (i 2).val ∧ (i 2).val < win1_7.index t (2 : Fin 3) * 256 + 256; rw [e2]; omega

/-- The result array after the whole grid is the array function: the points' blocks tile it. -/
theorem result (c : Dev nD) :
    ((dat1 (F := Ideal) V c).arrAt 7 cfg1.N : S64x128x256.Idx → EReal) = arrG V c :=
  (dat1 (F := Ideal) V c).arrAt_eq_of_cover 7 (arrG V c) (fun t _ => flushed_eq V c t) (covered)

end Cert.KernelIdeal.Val.KOut

namespace Cert.KernelIdeal.Val
open Cert.KernelIdeal Cert.KernelIdeal.Gen

theorem out_arr (V : (c : Dev nD) → (b : Ref sig .tc) → Buf (Elt Ideal) ((c : Thread nD τ).loc b)) (c : Dev nD) :
    ((dat1 (F := Ideal) V c).arrAt 7 cfg1.N : S64x128x256.Idx → EReal)
      = fun i => Spec.kout (a2 (V c main_call0_v13)) (a2 (V c main_call0_v14)) (a3 (V c main_call0_v9)) (a3 (V c main_call0_v12))
          (a3 (V c main_call0_v17)) (col (V c main_call0_v15)) (col (V c main_call0_v16)) (i 0) (i 1) (i 2) :=
  KOut.result V c

end Cert.KernelIdeal.Val
end
-- ==== Proof.KHost.lean ====
import proofs.«175401_g2000004280588758_pallasbulk_1102_2_alg».proof.Proof.Gen.KernelIdeal.Frame
import proofs.«175401_g2000004280588758_pallasbulk_1102_2_alg».proof.Proof.Spec
import Idealize.ShloMosaic.Lib.Pipeline.Value
import Idealize.ShloMosaic.Lib.ValueIdx
import Idealize.ShloMosaic.Lib.ValueIdxRank6
import Idealize.ShloMosaic.Lib.StableHlo.Run
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx
open Cert.Spec (a1 a2 a3 a4 col)

/-! The host operations around the two regions, read at an index: the strided picks of the activated input, the
    weights and the affine parameters re-laid, and the final reshape. -/
namespace Cert.KernelIdeal.Val
open Cert.KernelIdeal Cert.KernelIdeal.Gen

/-! ## The re-layings, each read at coordinates

Every reshape keeps the row-major position; each lemma below spells the two positions as sums and compares them. -/

section Layout
variable {α : Type}

/-- [64,128,256] re-laid as [64,128,16,16]: pixel (p, q) is position 16·p + q. -/
private theorem cast_3_4 (x : S64x128x256.Idx → α) (h : S64x128x256.ShapeCasts S64x128x16x16)
    (n : Fin 64) (c : Fin 128) (p q : Fin 16) :
    shapeCast S64x128x16x16 x h (ix4 n c p q) = x (ix3 n c (Spec.pix p q)) :=
  shapeCast_apply x h _ _ (by
    rw [Shape.rowMajor_val_three, Shape.rowMajor_val_four]
    show (n.val * 128 + c.val) * 256 + (16 * p.val + q.val) = ((n.val * 128 + c.val) * 16 + p.val) * 16 + q.val
    omega)

/-- [64,128,16,16] flattened to [64,128,256]: position s is pixel (s / 16, s % 16). -/
private theorem cast_4_3 (x : S64x128x16x16.Idx → α) (h : S64x128x16x16.ShapeCasts S64x128x256)
    (n : Fin 64) (c : Fin 128) (s : Fin 256) :
    shapeCast S64x128x256 x h (ix3 n c s)
      = x (ix4 n c (⟨s.val / 16, by omega⟩ : Fin 16) (⟨s.val % 16, by omega⟩ : Fin 16)) :=
  shapeCast_apply x h _ _ (by
    rw [Shape.rowMajor_val_three, Shape.rowMajor_val_four]
    show ((n.val * 128 + c.val) * 16 + s.val / 16) * 16 + s.val % 16 = (n.val * 128 + c.val) * 256 + s.val
    omega)

/-- The two unit axes of [64,128,16,1,16,1] dropped. -/
private theorem cast_6u_4 (x : S64x128x16x1x16x1.Idx → α) (h : S64x128x16x1x16x1.ShapeCasts S64x128x16x16)
    (n : Fin 64) (c : Fin 128) (p q : Fin 16) :
    shapeCast S64x128x16x16 x h (ix4 n c p q) = x (ix6 n c p (0 : Fin 1) q (0 : Fin 1)) :=
  shapeCast_apply x h _ _ (by
    rw [Shape.rowMajor_val_six, Shape.rowMajor_val_four]
    show ((((n.val * 128 + c.val) * 16 + p.val) * 1 + 0) * 16 + q.val) * 1 + 0 = ((n.val * 128 + c.val) * 16 + p.val) * 16 + q.val
    omega)

/-- [64,128,32,32] split as [64,128,16,2,16,2]: (p, a, q, b) is pixel (2·p + a, 2·q + b). -/
private theorem cast_4_6 (x : S64x128x32x32.Idx → α) (h : S64x128x32x32.ShapeCasts S64x128x16x2x16x2)
    (n : Fin 64) (c : Fin 128) (p : Fin 16) (a : Fin 2) (q : Fin 16) (b : Fin 2) :
    shapeCast S64x128x16x2x16x2 x h (ix6 n c p a q b)
      = x (ix4 n c (⟨2 * p.val + a.val, by omega⟩ : Fin 32) (⟨2 * q.val + b.val, by omega⟩ : Fin 32)) :=
  shapeCast_apply x h _ _ (by
    rw [Shape.rowMajor_val_six, Shape.rowMajor_val_four]
    show ((n.val * 128 + c.val) * 32 + (2 * p.val + a.val)) * 32 + (2 * q.val + b.val)
      = ((((n.val * 128 + c.val) * 16 + p.val) * 2 + a.val) * 16 + q.val) * 2 + b.val
    omega)

/-- The slice at offset o on both parity axes reads parity o. -/
private theorem slice_par (o : Nat) (oo : Fin 2) (ho : oo.val = o) (x : S64x128x16x2x16x2.Idx → α)
    (h : S64x128x16x2x16x2.Slices ![0, 0, 0, o, 0, o] S64x128x16x1x16x1)
    (n : Fin 64) (c : Fin 128) (p : Fin 16) (u : Fin 1) (q : Fin 16) (v : Fin 1) :
    extractStridedSlice S64x128x16x1x16x1 ![0, 0, 0, o, 0, o] x h (ix6 n c p u q v) = x (ix6 n c p oo q oo) :=
  extractStridedSlice_apply _ x h _ _ (fun a => by
    have hu : u.val = 0 := by omega
    have hv : v.val = 0 := by omega
    match a with
    | ⟨0, _⟩ => show n.val = 0 + n.val; omega
    | ⟨1, _⟩ => show c.val = 0 + c.val; omega
    | ⟨2, _⟩ => show p.val = 0 + p.val; omega
    | ⟨3, _⟩ => show oo.val = o + u.val; omega
    | ⟨4, _⟩ => show q.val = 0 + q.val; omega
    | ⟨5, _⟩ => show oo.val = o + v.val; omega)

/-- The weights [64,128,1,1] read as a matrix. -/
private theorem cast_w (x : S64x128x1x1.Idx → α) (h : S64x128x1x1.ShapeCasts S64x128) (a : Fin 64) (b : Fin 128) :
    shapeCast S64x128 x h (ix2 a b) = x (ix4 a b (0 : Fin 1) (0 : Fin 1)) :=
  shapeCast_apply x h _ _ (by
    rw [Shape.rowMajor_val_four, Shape.rowMajor_val_two]
    show ((a.val * 128 + b.val) * 1 + 0) * 1 + 0 = a.val * 128 + b.val
    omega)

/-- A vector [128] read as a column [128,1]. -/
private theorem cast_col (x : S128.Idx → α) (h : S128.ShapeCasts S128x1) (a : Fin 128) (u : Fin 1) :
    shapeCast S128x1 x h (ix2 a u) = x (ix1 a) :=
  shapeCast_apply x h _ _ (by
    have hu : u.val = 0 := by omega
    rw [Shape.rowMajor_val_one, Shape.rowMajor_val_two]
    show a.val = a.val * 1 + u.val
    omega)

end Layout

/-! ## The activation -/

/-- LeakyReLU as the program writes it on the split array: compare against the broadcast 0, multiply the broadcast
    slope word by the element, select, narrow to bf16. -/
private abbrev lrelu (x : FVec Ideal S64x128x16x2x16x2 .f32) : FVec Ideal S64x128x16x2x16x2 .bf16 :=
  truncf .bf16
    (select
      (cmpf .oge x (broadcastInDim S64x128x16x2x16x2 ![] bcast_S_S64x128x16x2x16x2 (constant (F := Ideal) S_ .f32 0x00000000#32)))
      x
      (mulf (broadcastInDim S64x128x16x2x16x2 ![] bcast_S_S64x128x16x2x16x2 (constant (F := Ideal) S_ .f32 0x3C23D70A#32)) x))
    bitsLt_bf16_f32

/-- At an index it is `Spec.act` of the element: the narrowing is the identity on extended reals, both broadcasts
    read their one word, and the word of 0 is 0. -/
private theorem lrelu_apply (x : FVec Ideal S64x128x16x2x16x2 .f32) (j : S64x128x16x2x16x2.Idx) :
    lrelu x j = Spec.act (x j) := by
  unfold lrelu
  rw [truncf_apply, select_apply, cmpf_apply, mulf_apply,
    broadcastInDim_apply _ bcast_S_S64x128x16x2x16x2 _ j ix0 (fun a => a.elim0),
    broadcastInDim_apply _ bcast_S_S64x128x16x2x16x2 _ j ix0 (fun a => a.elim0),
    constant_apply, constant_apply, Ideal.ofBits_zero_f32]
  rfl

/-! ## The buffers -/

variable (W : Valuation τ sig (Elt Ideal))

theorem host0_x1 : (StableHlo.after hostOps0 W (Proc.devRef .tc main_call0_v9) : S64x128x256.Idx → EReal)
    = fun i => Spec.act (Spec.pick (a4 (W (Proc.devRef .tc main_arg0))) 0 (i 0) (i 1) (i 2)) := by
  have e : (StableHlo.after hostOps0 W (Proc.devRef .tc main_call0_v9) : S64x128x256.Idx → EReal)
      = shapeCast S64x128x256
          (shapeCast S64x128x16x16
            (extractStridedSlice S64x128x16x1x16x1 ![0, 0, 0, 0, 0, 0]
              (lrelu (shapeCast S64x128x16x2x16x2 (W (Proc.devRef .tc main_arg0) : S64x128x32x32.Idx → EReal)
                shapeCasts_S64x128x32x32_S64x128x16x2x16x2))
              slices_S64x128x16x2x16x2_S64x128x16x1x16x1_0_0_0_0_0_0)
            shapeCasts_S64x128x16x1x16x1_S64x128x16x16)
          shapeCasts_S64x128x16x16_S64x128x256 := by
    simp only [hostOps0]; after_results; rfl
  rw [e]
  funext i
  obtain ⟨n, k, s, rfl⟩ : ∃ n k s, i = ix3 n k s := ⟨i 0, i 1, i 2, eq_ix3 i⟩
  rw [cast_4_3, cast_6u_4, slice_par 0 (0 : Fin 2) rfl, lrelu_apply, cast_4_6]
  rfl
theorem host0_x2 : (StableHlo.after hostOps0 W (Proc.devRef .tc main_call0_v12) : S64x128x256.Idx → EReal)
    = fun i => Spec.act (Spec.pick (a4 (W (Proc.devRef .tc main_arg0))) 1 (i 0) (i 1) (i 2)) := by
  have e : (StableHlo.after hostOps0 W (Proc.devRef .tc main_call0_v12) : S64x128x256.Idx → EReal)
      = shapeCast S64x128x256
          (shapeCast S64x128x16x16
            (extractStridedSlice S64x128x16x1x16x1 ![0, 0, 0, 1, 0, 1]
              (lrelu (shapeCast S64x128x16x2x16x2 (W (Proc.devRef .tc main_arg0) : S64x128x32x32.Idx → EReal)
                shapeCasts_S64x128x32x32_S64x128x16x2x16x2))
              slices_S64x128x16x2x16x2_S64x128x16x1x16x1_0_0_0_1_0_1)
            shapeCasts_S64x128x16x1x16x1_S64x128x16x16)
          shapeCasts_S64x128x16x16_S64x128x256 := by
    simp only [hostOps0]; after_results; rfl
  rw [e]
  funext i
  obtain ⟨n, k, s, rfl⟩ : ∃ n k s, i = ix3 n k s := ⟨i 0, i 1, i 2, eq_ix3 i⟩
  rw [cast_4_3, cast_6u_4, slice_par 1 (1 : Fin 2) rfl, lrelu_apply, cast_4_6]
  rfl
theorem host0_w1 : (StableHlo.after hostOps0 W (Proc.devRef .tc main_call0_v13) : S64x128.Idx → EReal)
    = fun i => Spec.mat11 (W (Proc.devRef .tc main_arg1)) (i 0) (i 1) := by
  have e : (StableHlo.after hostOps0 W (Proc.devRef .tc main_call0_v13) : S64x128.Idx → EReal)
      = shapeCast S64x128 (W (Proc.devRef .tc main_arg1) : S64x128x1x1.Idx → EReal) shapeCasts_S64x128x1x1_S64x128 := by
    simp only [hostOps0]; after_results; rfl
  rw [e]
  funext i
  obtain ⟨a, b, rfl⟩ : ∃ a b, i = ix2 a b := ⟨i 0, i 1, eq_ix2 i⟩
  exact cast_w _ _ a b
theorem host0_w2 : (StableHlo.after hostOps0 W (Proc.devRef .tc main_call0_v14) : S64x128.Idx → EReal)
    = fun i => Spec.mat11 (W (Proc.devRef .tc main_arg2)) (i 0) (i 1) := by
  have e : (StableHlo.after hostOps0 W (Proc.devRef .tc main_call0_v14) : S64x128.Idx → EReal)
      = shapeCast S64x128 (W (Proc.devRef .tc main_arg2) : S64x128x1x1.Idx → EReal) shapeCasts_S64x128x1x1_S64x128 := by
    simp only [hostOps0]; after_results; rfl
  rw [e]
  funext i
  obtain ⟨a, b, rfl⟩ : ∃ a b, i = ix2 a b := ⟨i 0, i 1, eq_ix2 i⟩
  exact cast_w _ _ a b
theorem host0_g : (StableHlo.after hostOps0 W (Proc.devRef .tc main_call0_v15) : S128x1.Idx → EReal)
    = fun i => a1 (W (Proc.devRef .tc main_arg3)) (i 0) := by
  have e : (StableHlo.after hostOps0 W (Proc.devRef .tc main_call0_v15) : S128x1.Idx → EReal)
      = shapeCast S128x1 (W (Proc.devRef .tc main_arg3) : S128.Idx → EReal) shapeCasts_S128_S128x1 := by
    simp only [hostOps0]; after_results; rfl
  rw [e]
  funext i
  obtain ⟨a, u, rfl⟩ : ∃ a u, i = ix2 a u := ⟨i 0, i 1, eq_ix2 i⟩
  exact cast_col _ _ a u
theorem host0_b : (StableHlo.after hostOps0 W (Proc.devRef .tc main_call0_v16) : S128x1.Idx → EReal)
    = fun i => a1 (W (Proc.devRef .tc main_arg4)) (i 0) := by
  have e : (StableHlo.after hostOps0 W (Proc.devRef .tc main_call0_v16) : S128x1.Idx → EReal)
      = shapeCast S128x1 (W (Proc.devRef .tc main_arg4) : S128.Idx → EReal) shapeCasts_S128_S128x1 := by
    simp only [hostOps0]; after_results; rfl
  rw [e]
  funext i
  obtain ⟨a, u, rfl⟩ : ∃ a u, i = ix2 a u := ⟨i 0, i 1, eq_ix2 i⟩
  exact cast_col _ _ a u
/-- The result is the second region's array, pixel (h, w) at position 16·h + w. -/
theorem host2_res : (StableHlo.after hostOps2 W (Proc.devRef .tc main_v0) : S64x128x16x16.Idx → EReal)
    = fun i => a3 (W (Proc.devRef .tc main_call0_v18)) (i 0) (i 1) (Spec.pix (i 2) (i 3)) := by
  have e : (StableHlo.after hostOps2 W (Proc.devRef .tc main_v0) : S64x128x16x16.Idx → EReal)
      = shapeCast S64x128x16x16 (W (Proc.devRef .tc main_call0_v18) : S64x128x256.Idx → EReal)
          shapeCasts_S64x128x256_S64x128x16x16 := by
    simp only [hostOps2]; after_results; rfl
  rw [e]
  funext i
  obtain ⟨n, c, p, q, rfl⟩ : ∃ n c p q, i = ix4 n c p q := ⟨i 0, i 1, i 2, i 3, eq_ix4 i⟩
  exact cast_3_4 _ _ n c p q

end Cert.KernelIdeal.Val
end
-- ==== Proof.KFinal.lean ====
import proofs.«175401_g2000004280588758_pallasbulk_1102_2_alg».proof.Proof.Gen.KernelIdeal.Frame
import proofs.«175401_g2000004280588758_pallasbulk_1102_2_alg».proof.Proof.Spec
import Idealize.ShloMosaic.Lib.Pipeline.Value
import Idealize.ShloMosaic.Lib.ValueIdx
import proofs.«175401_g2000004280588758_pallasbulk_1102_2_alg».proof.Proof.KStats
import proofs.«175401_g2000004280588758_pallasbulk_1102_2_alg».proof.Proof.KOut
import proofs.«175401_g2000004280588758_pallasbulk_1102_2_alg».proof.Proof.KHost

noncomputable section

open Idealize.ShloMosaic Idealize.ShloMosaic.TcCoe Idealize.SL.Sem
open Idealize.ShloMosaic.Pipeline (Dat)
open Idealize.ShloMosaic.ValueIdx
open Cert.Spec (a1 a2 a3 a4 col)

/-! The first program's result as ONE function of the five inputs: the last boundary's contents at the result
    buffer, walked back through the final reshape, the second region (its arrays at what the first region and the
    first host stretch left), the first region, and the host stretch before it, down to the launch memory. -/
namespace Cert.KernelIdeal.Val
open Cert.KernelIdeal Cert.KernelIdeal.Gen

variable (m : (ℓ : Loc nD τ sig) → Buf (Elt Ideal) ℓ) (ρ : Dev nD → PrngReg)

/-- An input window's array is as the region found it. -/
theorem V2_in (c : Dev nD) (w : Fin cfg0.W) (hin : (cfg0.win w).isOut = false) :
    V2 m ρ c (Pipeline.arrRef spec0 w) = V1 m ρ c (Pipeline.arrRef spec0 w) := by
  show W2 m ρ c (Proc.devRef .tc (Pipeline.arrRef spec0 w)) = _
  rw [W2_arr, (dat0 (V1 m ρ) c).arrAt_in w hin, A_eq0]

theorem V2_x1 (c : Dev nD) : V2 m ρ c main_call0_v9 = V1 m ρ c main_call0_v9 := V2_in m ρ c 0 rfl
theorem V2_x2 (c : Dev nD) : V2 m ρ c main_call0_v12 = V1 m ρ c main_call0_v12 := V2_in m ρ c 1 rfl
theorem V2_w1 (c : Dev nD) : V2 m ρ c main_call0_v13 = V1 m ρ c main_call0_v13 := V2_in m ρ c 2 rfl
theorem V2_w2 (c : Dev nD) : V2 m ρ c main_call0_v14 = V1 m ρ c main_call0_v14 := V2_in m ρ c 3 rfl
theorem V2_g (c : Dev nD) : V2 m ρ c main_call0_v15 = V1 m ρ c main_call0_v15 := W2_of_ne m ρ c main_call0_v15 (by decide)
theorem V2_b (c : Dev nD) : V2 m ρ c main_call0_v16 = V1 m ρ c main_call0_v16 := W2_of_ne m ρ c main_call0_v16 (by decide)
theorem V2_st (c : Dev nD) : V2 m ρ c main_call0_v17 = (dat0 (V1 m ρ) c).arrAt 4 cfg0.N := W2_arr m ρ c 4

/-- The result buffer at the end of the run is `Spec.kfinal` of the launch memory's five arguments. -/
theorem final (c : Dev nD) :
    (W4 m ρ c (Proc.devRef .tc main_v0) : S64x128x16x16.Idx → EReal)
      = fun i => Spec.kfinal (a4 (m ((c : Thread nD τ).loc main_arg0))) (Spec.mat11 (m ((c : Thread nD τ).loc main_arg1)))
          (Spec.mat11 (m ((c : Thread nD τ).loc main_arg2))) (a1 (m ((c : Thread nD τ).loc main_arg3))) (a1 (m ((c : Thread nD τ).loc main_arg4)))
          (i 0) (i 1) (Spec.pix (i 2) (i 3)) := by
  have hx1 : a3 (V2 m ρ c main_call0_v9) = fun n k s => Spec.act (Spec.pick (a4 (m ((c : Thread nD τ).loc main_arg0))) 0 n k s) := by
    rw [V2_x1]; funext n k s; exact congrFun (host0_x1 (W0 m ρ c)) (ix3 n k s)
  have hx2 : a3 (V2 m ρ c main_call0_v12) = fun n k s => Spec.act (Spec.pick (a4 (m ((c : Thread nD τ).loc main_arg0))) 1 n k s) := by
    rw [V2_x2]; funext n k s; exact congrFun (host0_x2 (W0 m ρ c)) (ix3 n k s)
  have hw1 : a2 (V2 m ρ c main_call0_v13) = Spec.mat11 (m ((c : Thread nD τ).loc main_arg1)) := by
    rw [V2_w1]; funext a b; exact congrFun (host0_w1 (W0 m ρ c)) (ix2 a b)
  have hw2 : a2 (V2 m ρ c main_call0_v14) = Spec.mat11 (m ((c : Thread nD τ).loc main_arg2)) := by
    rw [V2_w2]; funext a b; exact congrFun (host0_w2 (W0 m ρ c)) (ix2 a b)
  have hg : col (V2 m ρ c main_call0_v15) = a1 (m ((c : Thread nD τ).loc main_arg3)) := by
    rw [V2_g]; funext a; exact congrFun (host0_g (W0 m ρ c)) (ix2 a (0 : Fin 1))
  have hb : col (V2 m ρ c main_call0_v16) = a1 (m ((c : Thread nD τ).loc main_arg4)) := by
    rw [V2_b]; funext a; exact congrFun (host0_b (W0 m ρ c)) (ix2 a (0 : Fin 1))
  have hx1' : a3 (V1 m ρ c main_call0_v9) = fun n k s => Spec.act (Spec.pick (a4 (m ((c : Thread nD τ).loc main_arg0))) 0 n k s) := by
    funext n k s; exact congrFun (host0_x1 (W0 m ρ c)) (ix3 n k s)
  have hx2' : a3 (V1 m ρ c main_call0_v12) = fun n k s => Spec.act (Spec.pick (a4 (m ((c : Thread nD τ).loc main_arg0))) 1 n k s) := by
    funext n k s; exact congrFun (host0_x2 (W0 m ρ c)) (ix3 n k s)
  have hw1' : a2 (V1 m ρ c main_call0_v13) = Spec.mat11 (m ((c : Thread nD τ).loc main_arg1)) := by
    funext a b; exact congrFun (host0_w1 (W0 m ρ c)) (ix2 a b)
  have hw2' : a2 (V1 m ρ c main_call0_v14) = Spec.mat11 (m ((c : Thread nD τ).loc main_arg2)) := by
    funext a b; exact congrFun (host0_w2 (W0 m ρ c)) (ix2 a b)
  have hst : a3 (V2 m ρ c main_call0_v17) = Spec.kstats (Spec.mat11 (m ((c : Thread nD τ).loc main_arg1))) (Spec.mat11 (m ((c : Thread nD τ).loc main_arg2)))
      (fun n k s => Spec.act (Spec.pick (a4 (m ((c : Thread nD τ).loc main_arg0))) 0 n k s)) (fun n k s => Spec.act (Spec.pick (a4 (m ((c : Thread nD τ).loc main_arg0))) 1 n k s)) := by
    rw [V2_st]; funext g ch j
    refine (congrFun (stats_arr (V1 m ρ) c) (ix3 g ch j)).trans ?_
    rw [hx1', hx2', hw1', hw2']
    rfl
  refine (host2_res (W3 m ρ c)).trans ?_
  funext i
  refine (congrFun ((W3_arr m ρ c 7).trans (out_arr (V2 m ρ) c)) (ix3 (i 0) (i 1) (Spec.pix (i 2) (i 3)))).trans ?_
  rw [hx1, hx2, hw1, hw2, hg, hb, hst]
  rfl

end Cert.KernelIdeal.Val
end
-- ==== Proof.RStats.lean ====
import proofs.«175401_g2000004280588758_pallasbulk_1102_2_alg».proof.Proof.Gen.ReferenceIdeal.Frame
import proofs.«175401_g2000004280588758_pallasbulk_1102_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx
open Cert.Spec (a1 a2 a3 a4 col)
open scoped BigOperators

/-! What the first region (the partial sums) leaves in its result array, from the arrays it finds. -/
namespace Cert.ReferenceIdeal.Val
open Cert.ReferenceIdeal Cert.ReferenceIdeal.Gen

/-! ## The body's arithmetic at an index -/

/-- The pointwise stage: the activation of each element. -/
private theorem act_apply (x0 : Vec Ideal S2x256x256 .f32) (i : S2x256x256.Idx) :
    k0_pay2 x0 i = Spec.act (x0 i) := by
  unfold k0_pay2 Spec.act
  simp only [shapeCast_self]
  show Scalar.select (Ideal.cmp .oge (x0 i) (Ideal.ofBits .f32 0x00000000#32)) (x0 i) (Ideal.ofBits .f32 0x3C23D70A#32 * x0 i) = _
  rw [Ideal.ofBits_zero_f32]

/-- The product's operand indices, axis by axis: the left operand reads (row of the result, contraction position), the
    right operand (contraction position, column of the result). -/
private theorem lhs_axis0 (j : S128x256.Idx) (k : dot_S128x256_S256x256_S128x256_1_0_0_1_n_n.contr.Idx) :
    (dot_S128x256_S256x256_S128x256_1_0_0_1_n_n.lhsIdx j k 0).val = (j 0).val := by
  simp [DotDims.lhsIdx, dot_S128x256_S256x256_S128x256_1_0_0_1_n_n]
  rfl
private theorem lhs_axis1 (j : S128x256.Idx) (k : dot_S128x256_S256x256_S128x256_1_0_0_1_n_n.contr.Idx) :
    (dot_S128x256_S256x256_S128x256_1_0_0_1_n_n.lhsIdx j k 1).val = (k ⟨0, by decide⟩).val :=
  dot_S128x256_S256x256_S128x256_1_0_0_1_n_n.lhsIdx_val_of_single rfl j k
private theorem rhs_axis0 (j : S128x256.Idx) (k : dot_S128x256_S256x256_S128x256_1_0_0_1_n_n.contr.Idx) :
    (dot_S128x256_S256x256_S128x256_1_0_0_1_n_n.rhsIdx j k 0).val = (k ⟨0, by decide⟩).val :=
  dot_S128x256_S256x256_S128x256_1_0_0_1_n_n.rhsIdx_val_of_single rfl j k
private theorem rhs_axis1 (j : S128x256.Idx) (k : dot_S128x256_S256x256_S128x256_1_0_0_1_n_n.contr.Idx) :
    (dot_S128x256_S256x256_S128x256_1_0_0_1_n_n.rhsIdx j k 1).val = (j 1).val := by
  simp [DotDims.rhsIdx, dot_S128x256_S256x256_S128x256_1_0_0_1_n_n]
  rfl

/-- The weight times image `b` of a two-image block, into a zero accumulator, at (channel, pixel): the sum over the
    256 input channels of weight × element. -/
private theorem matmul_slice_apply (w : FVec Ideal S128x256 .f32) (A : FVec Ideal S2x256x256 .f32) (b : Fin 2)
    (off : Fin 3 → Nat) (hoff : off = ![b.val, 0, 0]) (hs : S2x256x256.Slices off S1x256x256)
    (h1 : S128x256.ShapeCasts S128x256) (h2 : S1x256x256.ShapeCasts S256x256) (ch : Fin 128) (s : Fin 256) :
    matmul (F := Ideal) dot_S128x256_S256x256_S128x256_1_0_0_1_n_n none (shapeCast S128x256 w h1)
        (shapeCast S256x256 (extractStridedSlice S1x256x256 off A hs) h2) (constant (F := Ideal) S128x256 .f32 0x00000000#32) (ix2 ch s)
      = ∑ k : Fin 256, w (ix2 ch k) * A (ix3 b k s) := by
  refine (Ideal.matmul_constant_zero_apply _ _ _ _ _).trans ?_
  rw [← Equiv.sum_comp (contrEquiv1 dot_S128x256_S256x256_S128x256_1_0_0_1_n_n 256 rfl rfl).symm]
  refine Finset.sum_congr rfl fun k _ => ?_
  have hk := contrEquiv1_symm_val dot_S128x256_S256x256_S128x256_1_0_0_1_n_n 256 rfl rfl k
  have el : dot_S128x256_S256x256_S128x256_1_0_0_1_n_n.lhsIdx (ix2 ch s)
      ((contrEquiv1 dot_S128x256_S256x256_S128x256_1_0_0_1_n_n 256 rfl rfl).symm k) = ix2 ch k := by
    funext a; apply Fin.ext
    match a with
    | ⟨0, _⟩ => exact lhs_axis0 _ _
    | ⟨1, _⟩ => exact (lhs_axis1 _ _).trans hk
  have er : dot_S128x256_S256x256_S128x256_1_0_0_1_n_n.rhsIdx (ix2 ch s)
      ((contrEquiv1 dot_S128x256_S256x256_S128x256_1_0_0_1_n_n 256 rfl rfl).symm k) = ix2 k s := by
    funext a; apply Fin.ext
    match a with
    | ⟨0, _⟩ => exact (rhs_axis0 _ _).trans hk
    | ⟨1, _⟩ => exact rhs_axis1 _ _
  rw [el, er, shapeCast_self, shapeCast_1ab_ab_apply]
  congr 1
  refine extractStridedSlice_apply off A hs _ _ fun a => ?_
  subst hoff
  match a with
  | ⟨0, _⟩ => show b.val = b.val + 0; rfl
  | ⟨1, _⟩ => show k.val = 0 + k.val; omega
  | ⟨2, _⟩ => show s.val = 0 + s.val; omega

/-- The product with each image of the block, the activation read through. -/
private theorem conv0_apply (x0 : Vec Ideal S2x256x256 .f32) (x1 : Vec Ideal S128x256 .f32) (ch : Fin 128) (s : Fin 256) :
    k0_pay3 x0 x1 (ix2 ch s) = ∑ k : Fin 256, x1 (ix2 ch k) * Spec.act (x0 (ix3 (0 : Fin 2) k s)) := by
  unfold k0_pay3
  refine (matmul_slice_apply x1 (k0_pay2 x0) 0 _ rfl _ _ _ ch s).trans ?_
  simp only [act_apply]
private theorem conv1_apply (x0 : Vec Ideal S2x256x256 .f32) (x1 : Vec Ideal S128x256 .f32) (ch : Fin 128) (s : Fin 256) :
    k0_pay4 x0 x1 (ix2 ch s) = ∑ k : Fin 256, x1 (ix2 ch k) * Spec.act (x0 (ix3 (1 : Fin 2) k s)) := by
  unfold k0_pay4
  refine (matmul_slice_apply x1 (k0_pay2 x0) 1 _ rfl _ _ _ ch s).trans ?_
  simp only [act_apply]

/-- A lane sum of a 128×256 value at channel `ch`: the sum over the 256 pixels. -/
private theorem lane_sum_apply (v : FVec Ideal S128x256 .f32) (h : S128x256.Reduces [1] S128) (hφ : FKind.Formats .f32)
    (hacc : (0x00000000#32 : BitVec 32) = FKind.add.neutral .f32 hφ) (ch : Fin 128) :
    multiReduction (F := Ideal) .add [1] S128 v 0x00000000#32 h hφ hacc (ix1 ch) = ∑ s : Fin 256, v (ix2 ch s) := by
  refine (Ideal.multiReduction_add_single v _ h hφ hacc (ix1 ch)).trans ?_
  refine Finset.sum_congr rfl fun s _ => congrArg v ?_
  funext a; apply Fin.ext
  match a with
  | ⟨0, _⟩ => rfl
  | ⟨1, _⟩ => rfl

/-- A 128-vector viewed as a 128×1 column reads its entry. -/
private theorem col_of_vec_apply {α : Type} (v : S128.Idx → α) (h : S128.ShapeCasts S128x1) (ch : Fin 128) (z : Fin 1) :
    shapeCast S128x1 v h (ix2 ch z) = v (ix1 ch) :=
  shapeCast_apply v h _ _ (by
    rw [Shape.rowMajor_val_one, Shape.rowMajor_val_two]
    show ch.val = ch.val * 1 + z.val
    omega)

/-- Two lane sums added onto a zero column, at channel `ch`. -/
private theorem acc_col_apply (m0 m1 : FVec Ideal S128x256 .f32) (h : S128x256.Reduces [1] S128) (hφ : FKind.Formats .f32)
    (hacc : (0x00000000#32 : BitVec 32) = FKind.add.neutral .f32 hφ) (hc : S128.ShapeCasts S128x1) (ch : Fin 128) (z : Fin 1) :
    addf (addf (broadcast S128x1 (Scalar.ofBits (F := Ideal) .f32 0x00000000#32))
        (shapeCast S128x1 (multiReduction (F := Ideal) .add [1] S128 m0 0x00000000#32 h hφ hacc) hc))
        (shapeCast S128x1 (multiReduction (F := Ideal) .add [1] S128 m1 0x00000000#32 h hφ hacc) hc) (ix2 ch z)
      = (∑ s : Fin 256, m0 (ix2 ch s)) + ∑ s : Fin 256, m1 (ix2 ch s) := by
  show (Ideal.ofBits .f32 0x00000000#32 + shapeCast S128x1 _ hc (ix2 ch z)) + shapeCast S128x1 _ hc (ix2 ch z) = _
  rw [Ideal.ofBits_zero_f32, zero_add, col_of_vec_apply, col_of_vec_apply]
  exact congrArg₂ (· + ·) (lane_sum_apply m0 h hφ hacc ch) (lane_sum_apply m1 h hφ hacc ch)

/-! ## The output block as one function of the input blocks -/

/-- The product of the weight with image `b` of a two-image block, the activation applied, at (channel, pixel). -/
private def blockConv (w : Spec.T2 128 256) (X : Spec.T3 2 256 256) (b : Fin 2) (ch : Fin 128) (s : Fin 256) : EReal :=
  ∑ k : Fin 256, w ch k * Spec.act (X b k s)

/-- The partial sums one grid point leaves in its output block: column 0 the sum over its two images and the pixels,
    column 1 the sum of squares. -/
private def blockStats (w : Spec.T2 128 256) (X : Spec.T3 2 256 256) (ch : Fin 128) (j : Fin 2) : EReal :=
  if j.val = 0 then ∑ b : Fin 2, ∑ s : Fin 256, blockConv w X b ch s
  else ∑ b : Fin 2, ∑ s : Fin 256, blockConv w X b ch s * blockConv w X b ch s

/-- The first store's payload (column 0): the sums. -/
private theorem sum_piece_apply (x0 : Vec Ideal S2x256x256 .f32) (x1 : Vec Ideal S128x256 .f32) (u : Fin 1) (ch : Fin 128) (z : Fin 1) :
    k0_pay6 x0 x1 x1 (ix3 u ch z) = blockStats (a2 x1) (a3 x0) ch 0 := by
  unfold k0_pay6
  refine (shapeCast_ab_1ab_apply _ _ u ch z).trans ?_
  refine (acc_col_apply (k0_pay3 x0 x1) (k0_pay4 x0 x1) _ _ _ _ ch z).trans ?_
  unfold blockStats blockConv
  rw [if_pos (show (0 : Fin 2).val = 0 from rfl), Fin.sum_univ_two]
  simp only [conv0_apply, conv1_apply]

/-- The second store's payload (column 1): the sums of squares. -/
private theorem sq_piece_apply (x0 : Vec Ideal S2x256x256 .f32) (x1 : Vec Ideal S128x256 .f32) (u : Fin 1) (ch : Fin 128) (z : Fin 1) :
    k0_pay1 (k0_pay5 x0 x1 x1) (ix3 u ch z) = blockStats (a2 x1) (a3 x0) ch 1 := by
  unfold k0_pay1 k0_pay5
  refine (shapeCast_ab_1ab_apply _ _ u ch z).trans ?_
  refine (acc_col_apply (mulf (k0_pay3 x0 x1) (k0_pay3 x0 x1)) (mulf (k0_pay4 x0 x1) (k0_pay4 x0 x1)) _ _ _ _ ch z).trans ?_
  unfold blockStats blockConv
  rw [if_neg (show ¬ (1 : Fin 2).val = 0 by decide), Fin.sum_univ_two]
  simp only [mulf_apply, conv0_apply, conv1_apply]

private theorem zeros3 : (![0, 0, 0] : Fin 3 → Nat) = fun _ => 0 := funext fun a => by fin_cases a <;> rfl
private theorem zeros2 : (![0, 0] : Fin 2 → Nat) = fun _ => 0 := funext fun a => by fin_cases a <;> rfl

/-- The output block after the body, as one function of the two input blocks: the two stores are the two columns. -/
private theorem out_block_apply (x0 : Vec Ideal S2x256x256 .f32) (x1 : Vec Ideal S128x256 .f32) (y : S1x128x2.Idx) :
    out0_2 x0 x1 y = blockStats (a2 x1) (a3 x0) (y 1) (y 2) := by
  unfold out0_2
  rw [View.ld_unit_zero (S := S2x256x256) zeros3, View.ld_unit_zero (S := S128x256) zeros2]
  refine View.canon_apply_of_pieces (Val := Elt Ideal) (S := S1x128x2) (e := .f32) (fun y => blockStats (a2 x1) (a3 x0) (y 1) (y 2)) _ ?_ y (cover0_2 _ _ y)
  intro p hp x
  simp only [List.mem_cons, List.mem_singleton, List.not_mem_nil, or_false] at hp
  rcases hp with rfl | rfl
  · obtain ⟨u, ch, z, rfl⟩ : ∃ (u : Fin 1) (ch : Fin 128) (z : Fin 1), x = ix3 u ch z := ⟨x 0, x 1, x 2, eq_ix3 x⟩
    refine (sq_piece_apply x0 x1 u ch z).trans ?_
    show blockStats _ _ ch 1 = blockStats _ _ (r0_3.emb (ix3 u ch z) 1) (r0_3.emb (ix3 u ch z) 2)
    congr 1 <;> apply Fin.ext
    · show ch.val = 0 + 1 * ch.val; omega
    · show 1 = 1 + 1 * z.val; omega
  · obtain ⟨u, ch, z, rfl⟩ : ∃ (u : Fin 1) (ch : Fin 128) (z : Fin 1), x = ix3 u ch z := ⟨x 0, x 1, x 2, eq_ix3 x⟩
    refine (sum_piece_apply x0 x1 u ch z).trans ?_
    show blockStats _ _ ch 0 = blockStats _ _ (r0_2.emb (ix3 u ch z) 1) (r0_2.emb (ix3 u ch z) 2)
    congr 1 <;> apply Fin.ext
    · show ch.val = 0 + 1 * ch.val; omega
    · show 0 = 0 + 1 * z.val; omega

/-! ## From the blocks to the array -/

section Array

/-- A grid point's partial sums are the specification's at that point, when the image block is images 2g, 2g+1 of the
    array and the weight block is the weight. -/
private theorem blockStats_eq_rstats (W : S128x256.Idx → EReal) (X : S64x256x256.Idx → EReal)
    (x0 : Vec Ideal S2x256x256 .f32) (x1 : Vec Ideal S128x256 .f32) (g : Fin 32)
    (h0 : ∀ (b : Fin 2) (k s : Fin 256), x0 (ix3 b k s) = X (ix3 (⟨2 * g.val + b.val, by omega⟩ : Fin 64) k s))
    (h1 : x1 = W) (ch : Fin 128) (j : Fin 2) :
    blockStats (a2 x1) (a3 x0) ch j = Spec.rstats (a2 W) (a3 X) g ch j := by
  subst h1
  have hf : ∀ (b : Fin 2) (s : Fin 256),
      blockConv (a2 x1) (a3 x0) b ch s = Spec.rconv (a2 x1) (a3 X) ⟨2 * g.val + b.val, by omega⟩ ch s := fun b s => by
    unfold blockConv Spec.rconv
    exact Finset.sum_congr rfl fun k _ => congrArg (fun v => a2 x1 ch k * Spec.act v) (h0 b k s)
  unfold blockStats Spec.rstats
  simp only [hf]

variable (V : (c : Dev nD) → (b : Ref sig .tc) → Buf (Elt Ideal) ((c : Thread nD τ).loc b))

/-- The printed index maps over the grid: the image window and the output window move with the point along the
    leading axis, the weight window stays. -/
private theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The image window's block at point `t` is images 2t, 2t+1 of the array. -/
private theorem img_block_apply (c : Dev nD) (t : Fin cfg0.N) (x : S2x256x256.Idx) (k : S64x256x256.Idx)
    (hk0 : (k 0).val = 2 * t.val + (x 0).val) (hk1 : (k 1).val = (x 1).val) (hk2 : (k 2).val = (x 2).val) :
    (iblk0 V c 0 t : Vec Ideal S2x256x256 .f32) x = (V c main_call0_v7 : S64x256x256.Idx → EReal) k := by
  obtain ⟨e0, e1, e2, -⟩ := idx_facts t
  unfold iblk0
  rw [View.read_apply]
  show V c main_call0_v7 _ = V c main_call0_v7 _
  congr 1
  funext a
  apply Fin.ext
  match a with
  | ⟨0, _⟩ => show win0_0.index t 0 * 2 + 1 * (x 0).val = (k 0).val; rw [e0, hk0]; omega
  | ⟨1, _⟩ => show win0_0.index t 1 * 256 + 1 * (x 1).val = (k 1).val; rw [e1, hk1]; omega
  | ⟨2, _⟩ => show win0_0.index t 2 * 256 + 1 * (x 2).val = (k 2).val; rw [e2, hk2]; omega

/-- The weight window's block at any point is the whole weight. -/
private theorem wgt_block_eq (c : Dev nD) (t : Fin cfg0.N) :
    (iblk0 V c 1 t : Vec Ideal S128x256 .f32) = (V c main_call0_v18 : S128x256.Idx → EReal) := by
  obtain ⟨-, -, -, e0, e1, -⟩ := idx_facts t
  funext x
  unfold iblk0
  rw [View.read_apply]
  show V c main_call0_v18 _ = V c main_call0_v18 _
  congr 1
  funext a
  apply Fin.ext
  match a with
  | ⟨0, _⟩ => show win0_1.index t 0 * 128 + 1 * (x 0).val = (x 0).val; rw [e0]; omega
  | ⟨1, _⟩ => show win0_1.index t 1 * 256 + 1 * (x 1).val = (x 1).val; rw [e1]; omega

/-- The whole result array: the specification's partial sums of the weight and the image arrays the region finds. -/
private abbrev statsArr (c : Dev nD) : S32x128x2.Idx → EReal :=
  fun i => Spec.rstats (a2 (V c main_call0_v18)) (a3 (V c main_call0_v7)) (i 0) (i 1) (i 2)

/-- What point `t` writes back is its block of that array. -/
private theorem flushed_eq (c : Dev nD) (t : Fin cfg0.N) :
    (dat0 (F := Ideal) V c).flushed 2 t = ((cfg0.win 2).blk t).view.read (Elt Ideal) (statsArr V c) := by
  show (cfg0.win 2).cut (grid0.coords t) ((dat0 (F := Ideal) V c).after 2 t) = _
  rw [after0_2]
  obtain ⟨-, -, -, -, -, e0, e1, e2⟩ := idx_facts t
  have ht : t.val < 32 := lt_of_lt_of_eq t.isLt N_0
  funext y
  rw [View.read_apply]
  show out0_2 (iblk0 V c 0 t) (iblk0 V c 1 t) (fun a => ⟨(y a).val, _⟩) = statsArr V c _
  refine (out_block_apply (iblk0 V c 0 t) (iblk0 V c 1 t) _).trans ?_
  refine (blockStats_eq_rstats (V c main_call0_v18) (V c main_call0_v7) (iblk0 V c 0 t) (iblk0 V c 1 t) ⟨t.val, ht⟩
    (fun b k s => img_block_apply V c t (ix3 b k s) (ix3 ⟨2 * t.val + b.val, by omega⟩ k s) rfl rfl rfl)
    (wgt_block_eq V c t) _ _).trans ?_
  show Spec.rstats _ _ _ _ _ = Spec.rstats _ _ _ _ _
  congr 1 <;> apply Fin.ext
  · show t.val = win0_2.index t 0 * 1 + 1 * (y 0).val
    have : (y 0).val < 1 := (y 0).isLt
    rw [e0]; omega
  · show (y 1).val = win0_2.index t 1 * 128 + 1 * (y 1).val
    rw [e1]; omega
  · show (y 2).val = win0_2.index t 2 * 2 + 1 * (y 2).val
    rw [e2]; omega

/-- An index of the array is in point `t`'s block iff each coordinate is in the block's range on its axis. -/
private theorem mem_blk (t : Fin cfg0.N) (i : S32x128x2.Idx) :
    i ∈ ((cfg0.win 2).blk t).view.set ↔ ∀ a : Fin 3, win0_2.index t a * S1x128x2.size a ≤ (i a).val ∧ (i a).val < win0_2.index t a * S1x128x2.size a + S1x128x2.size a := by
  show i ∈ ((View.whole main_call0_v19).slice (win0_2.rect t)).set ↔ _
  rw [View.set_slice_whole, Rect.mem_set_unit]
  exact Iff.rfl

/-- Row `r` of the array is point `r`'s block. -/
private theorem covered (i : S32x128x2.Idx) :
    ∃ t : Fin cfg0.N, (cfg0.win 2).flush t = true ∧ i ∈ ((cfg0.win 2).blk t).view.set := by
  have h0 : (i 0).val < 32 := (i 0).isLt
  have h1 : (i 1).val < 128 := (i 1).isLt
  have h2 : (i 2).val < 2 := (i 2).isLt
  obtain ⟨t, ht⟩ : ∃ t : Fin cfg0.N, t.val = (i 0).val := ⟨⟨(i 0).val, lt_of_lt_of_eq h0 N_0.symm⟩, rfl⟩
  refine ⟨t, flush0_2 t, ?_⟩
  obtain ⟨-, -, -, -, -, e0, e1, e2⟩ := idx_facts t
  rw [mem_blk]
  intro a
  match a with
  | ⟨0, _⟩ => show win0_2.index t 0 * 1 ≤ (i 0).val ∧ (i 0).val < win0_2.index t 0 * 1 + 1; rw [e0]; omega
  | ⟨1, _⟩ => show win0_2.index t 1 * 128 ≤ (i 1).val ∧ (i 1).val < win0_2.index t 1 * 128 + 128; rw [e1]; omega
  | ⟨2, _⟩ => show win0_2.index t 2 * 2 ≤ (i 2).val ∧ (i 2).val < win0_2.index t 2 * 2 + 2; rw [e2]; omega

end Array

/-! ## The result array after the whole grid -/

theorem stats_arr (V : (c : Dev nD) → (b : Ref sig .tc) → Buf (Elt Ideal) ((c : Thread nD τ).loc b)) (c : Dev nD) :
    ((dat0 (F := Ideal) V c).arrAt 2 cfg0.N : S32x128x2.Idx → EReal)
      = fun i => Spec.rstats (a2 (V c main_call0_v18)) (a3 (V c main_call0_v7)) (i 0) (i 1) (i 2) :=
  (dat0 (F := Ideal) V c).arrAt_eq_of_cover 2 (statsArr V c) (fun t _ => flushed_eq V c t) covered

end Cert.ReferenceIdeal.Val
end
-- ==== Proof.ROut.lean ====
import proofs.«175401_g2000004280588758_pallasbulk_1102_2_alg».proof.Proof.Gen.ReferenceIdeal.Frame
import proofs.«175401_g2000004280588758_pallasbulk_1102_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx
open Cert.Spec (a1 a2 a3 a4 col)

/-! What the second region (the scaled product plus the bias) leaves in its result array, from the arrays it finds. -/
namespace Cert.ReferenceIdeal.Val
open Cert.ReferenceIdeal Cert.ReferenceIdeal.Gen

/-- The activated block at an index is the LeakyReLU of the element. -/
private theorem act_blk_apply (x0 : Vec Ideal S2x256x256 .f32) (a : Fin 2) (k : Fin 256) (q : Fin 256) :
    k1_pay1 x0 (ix3 a k q) = Spec.act (x0 (ix3 a k q)) := by
  unfold k1_pay1
  rw [shapeCast_self]
  show Scalar.select (Ideal.cmp .oge (x0 (ix3 a k q)) (Ideal.ofBits .f32 0x00000000#32)) (x0 (ix3 a k q)) (Ideal.ofBits .f32 0x3C23D70A#32 * x0 (ix3 a k q)) = _
  rw [Ideal.ofBits_zero_f32]
  rfl

/-- The product's left index: row of the output, the contracted coordinate on the columns. -/
private theorem mm_lhs_0 (j : S128x256.Idx) (k : dot_S128x256_S256x256_S128x256_1_0_0_1_n_n.contr.Idx) :
    (dot_S128x256_S256x256_S128x256_1_0_0_1_n_n.lhsIdx j k (0 : Fin 2)).val = (j 0).val := by
  simp [DotDims.lhsIdx, dot_S128x256_S256x256_S128x256_1_0_0_1_n_n]; rfl
private theorem mm_lhs_1 (j : S128x256.Idx) (k : dot_S128x256_S256x256_S128x256_1_0_0_1_n_n.contr.Idx) :
    (dot_S128x256_S256x256_S128x256_1_0_0_1_n_n.lhsIdx j k (1 : Fin 2)).val = (k ⟨0, by decide⟩).val :=
  DotDims.lhsIdx_val_of_single _ rfl j k
private theorem mm_rhs_0 (j : S128x256.Idx) (k : dot_S128x256_S256x256_S128x256_1_0_0_1_n_n.contr.Idx) :
    (dot_S128x256_S256x256_S128x256_1_0_0_1_n_n.rhsIdx j k (0 : Fin 2)).val = (k ⟨0, by decide⟩).val :=
  DotDims.rhsIdx_val_of_single _ rfl j k
private theorem mm_rhs_1 (j : S128x256.Idx) (k : dot_S128x256_S256x256_S128x256_1_0_0_1_n_n.contr.Idx) :
    (dot_S128x256_S256x256_S128x256_1_0_0_1_n_n.rhsIdx j k (1 : Fin 2)).val = (j 1).val := by
  simp [DotDims.rhsIdx, dot_S128x256_S256x256_S128x256_1_0_0_1_n_n]; rfl

/-- The 128×256 by 256×256 product into the zero accumulator, at an index: the sum over the contracted coordinate. -/
private theorem mm_apply (A : FVec Ideal S128x256 .f32) (B : FVec Ideal S256x256 .f32) (p : Fin 128) (q : Fin 256) :
    matmul dot_S128x256_S256x256_S128x256_1_0_0_1_n_n none A B (constant (F := Ideal) S128x256 .f32 0x00000000#32) (ix2 p q)
      = ∑ k : Fin 256, A (ix2 p k) * B (ix2 k q) := by
  show FloatOps.matmul _ none A B (constant (F := Ideal) S128x256 .f32 0x00000000#32) (ix2 p q) = _
  rw [Ideal.matmul_constant_zero_apply,
    ← Equiv.sum_comp (contrEquiv1 dot_S128x256_S256x256_S128x256_1_0_0_1_n_n 256 rfl rfl).symm]
  refine Finset.sum_congr rfl fun c _ => ?_
  have hc := contrEquiv1_symm_val dot_S128x256_S256x256_S128x256_1_0_0_1_n_n 256 rfl rfl c
  have hl : dot_S128x256_S256x256_S128x256_1_0_0_1_n_n.lhsIdx (ix2 p q) ((contrEquiv1 dot_S128x256_S256x256_S128x256_1_0_0_1_n_n 256 rfl rfl).symm c) = ix2 p c := by
    funext ax; apply Fin.ext
    match ax with
    | ⟨0, _⟩ => exact mm_lhs_0 _ _
    | ⟨1, _⟩ => exact (mm_lhs_1 _ _).trans hc
  have hr : dot_S128x256_S256x256_S128x256_1_0_0_1_n_n.rhsIdx (ix2 p q) ((contrEquiv1 dot_S128x256_S256x256_S128x256_1_0_0_1_n_n 256 rfl rfl).symm c) = ix2 c q := by
    funext ax; apply Fin.ext
    match ax with
    | ⟨0, _⟩ => exact (mm_rhs_0 _ _).trans hc
    | ⟨1, _⟩ => exact mm_rhs_1 _ _
  rw [hl, hr]

/-- A column broadcast along the lanes reads the column's entry of the row. -/
private theorem bcol_apply (v : FVec Ideal S128x1 .f32) (p : Fin 128) (q : Fin 256) :
    broadcastTo S128x256 v broadcasts_S128x1_S128x256 (ix2 p q) = v (ix2 p (0 : Fin 1)) := by
  refine broadcastTo_apply v broadcasts_S128x1_S128x256 (ix2 p q) (ix2 p (0 : Fin 1)) fun ax => ?_
  match ax with
  | ⟨0, _⟩ => rfl
  | ⟨1, _⟩ => rfl

/-- Image 0 of the activated block as a 256×256 matrix. -/
private theorem img0_apply (x0 : Vec Ideal S2x256x256 .f32) (k : Fin 256) (q : Fin 256) :
    shapeCast S256x256 (extractStridedSlice S1x256x256 ![0, 0, 0] (k1_pay1 x0) slices_S2x256x256_o0_0_0_S1x256x256) shapeCasts_S1x256x256_S256x256 (ix2 k q)
      = Spec.act (x0 (ix3 (0 : Fin 2) k q)) := by
  rw [shapeCast_1ab_ab_apply]
  refine (extractStridedSlice_apply _ _ _ _ (ix3 (0 : Fin 2) k q) fun ax => ?_).trans (act_blk_apply x0 0 k q)
  match ax with
  | ⟨0, _⟩ => rfl
  | ⟨1, _⟩ => show k.val = 0 + k.val; omega
  | ⟨2, _⟩ => show q.val = 0 + q.val; omega

/-- Image 1 of the activated block as a 256×256 matrix. -/
private theorem img1_apply (x0 : Vec Ideal S2x256x256 .f32) (k : Fin 256) (q : Fin 256) :
    shapeCast S256x256 (extractStridedSlice S1x256x256 ![1, 0, 0] (k1_pay1 x0) slices_S2x256x256_o1_0_0_S1x256x256) shapeCasts_S1x256x256_S256x256 (ix2 k q)
      = Spec.act (x0 (ix3 (1 : Fin 2) k q)) := by
  rw [shapeCast_1ab_ab_apply]
  refine (extractStridedSlice_apply _ _ _ _ (ix3 (1 : Fin 2) k q) fun ax => ?_).trans (act_blk_apply x0 1 k q)
  match ax with
  | ⟨0, _⟩ => rfl
  | ⟨1, _⟩ => show k.val = 0 + k.val; omega
  | ⟨2, _⟩ => show q.val = 0 + q.val; omega

/-- What one grid point leaves in the output block, from the blocks it reads: per image, the weight times the
    activated image plus the bias of the row. -/
private def blockOut (x0 : Vec Ideal S2x256x256 .f32) (x1 : Vec Ideal S128x256 .f32) (x2 : Vec Ideal S128x1 .f32) :
    S2x128x256.Idx → EReal :=
  fun y => (∑ k : Fin 256, x1 (ix2 (y 1) k) * Spec.act (x0 (ix3 (y 0) k (y 2)))) + x2 (ix2 (y 1) (0 : Fin 1))

/-- The first store's payload at an index. -/
private theorem pay3_apply (x0 : Vec Ideal S2x256x256 .f32) (x1 : Vec Ideal S128x256 .f32) (x2 : Vec Ideal S128x1 .f32)
    (u : Fin 1) (p : Fin 128) (q : Fin 256) :
    k1_pay3 x0 x2 x1 (ix3 u p q) = blockOut x0 x1 x2 (ix3 (0 : Fin 2) p q) := by
  unfold k1_pay3 k1_pay2
  rw [shapeCast_ab_1ab_apply, addf_apply, mm_apply, bcol_apply, shapeCast_self, shapeCast_self]
  simp only [img0_apply]
  rfl

/-- The second store's payload at an index. -/
private theorem pay4_apply (x0 : Vec Ideal S2x256x256 .f32) (x1 : Vec Ideal S128x256 .f32) (x2 : Vec Ideal S128x1 .f32)
    (u : Fin 1) (p : Fin 128) (q : Fin 256) :
    k1_pay4 x0 x2 x1 (ix3 u p q) = blockOut x0 x1 x2 (ix3 (1 : Fin 2) p q) := by
  unfold k1_pay4 k1_pay2
  rw [shapeCast_ab_1ab_apply, addf_apply, mm_apply, bcol_apply, shapeCast_self, shapeCast_self]
  simp only [img1_apply]
  rfl

private theorem hz2 : (![0, 0] : Fin 2 → Nat) = fun _ => 0 := funext fun a => by fin_cases a <;> rfl
private theorem hz3 : (![0, 0, 0] : Fin 3 → Nat) = fun _ => 0 := funext fun a => by fin_cases a <;> rfl

/-- Where the two stores' rectangles put an index of their payloads in the block: image 0 and image 1. -/
private theorem r1_3_emb (u : Fin 1) (p : Fin 128) (q : Fin 256) : r1_3.emb (ix3 u p q) = ix3 (0 : Fin 2) p q := by
  funext ax; apply Fin.ext
  have hu : u.val = 0 := by omega
  match ax with
  | ⟨0, _⟩ => show 0 + 1 * u.val = 0; omega
  | ⟨1, _⟩ => show 0 + 1 * p.val = p.val; omega
  | ⟨2, _⟩ => show 0 + 1 * q.val = q.val; omega
private theorem r1_4_emb (u : Fin 1) (p : Fin 128) (q : Fin 256) : r1_4.emb (ix3 u p q) = ix3 (1 : Fin 2) p q := by
  funext ax; apply Fin.ext
  have hu : u.val = 0 := by omega
  match ax with
  | ⟨0, _⟩ => show 1 + 1 * u.val = 1; omega
  | ⟨1, _⟩ => show 0 + 1 * p.val = p.val; omega
  | ⟨2, _⟩ => show 0 + 1 * q.val = q.val; omega

/-- The output block after the body is that one function of the blocks read. -/
private theorem out_blk_eq (x0 : Vec Ideal S2x256x256 .f32) (x1 : Vec Ideal S128x256 .f32) (x2 : Vec Ideal S128x1 .f32) :
    out1_3 x0 x1 x2 = blockOut x0 x1 x2 := by
  unfold out1_3
  simp only [View.ld_unit_zero (S := S2x256x256) hz3, View.ld_unit_zero (S := S128x1) hz2, View.ld_unit_zero (S := S128x256) hz2]
  funext y
  refine View.canon_apply_of_pieces (Val := Elt Ideal) (e := EltTy.f32) (blockOut x0 x1 x2) _ (fun pc hpc x => ?_) y (cover1_3 _ _ y)
  simp only [List.mem_cons, List.not_mem_nil, or_false] at hpc
  rcases hpc with rfl | rfl
  · obtain ⟨u, p, q, rfl⟩ : ∃ (u : Fin 1) (p : Fin 128) (q : Fin 256), x = ix3 u p q := ⟨x 0, x 1, x 2, eq_ix3 (n0 := 1) (n1 := 128) (n2 := 256) x⟩
    show k1_pay4 x0 x2 x1 (ix3 u p q) = blockOut x0 x1 x2 (r1_4.emb (ix3 u p q))
    rw [r1_4_emb, pay4_apply]
  · obtain ⟨u, p, q, rfl⟩ : ∃ (u : Fin 1) (p : Fin 128) (q : Fin 256), x = ix3 u p q := ⟨x 0, x 1, x 2, eq_ix3 (n0 := 1) (n1 := 128) (n2 := 256) x⟩
    show k1_pay3 x0 x2 x1 (ix3 u p q) = blockOut x0 x1 x2 (r1_3.emb (ix3 u p q))
    rw [r1_3_emb, pay3_apply]

/-- The block function read off whole arrays: wherever the blocks read agree with the arrays at the matching
    global indices, the block's entry is the specification's entry. -/
private theorem blockOut_eq_rout (x0 : Vec Ideal S2x256x256 .f32) (x1 : Vec Ideal S128x256 .f32) (x2 : Vec Ideal S128x1 .f32)
    (A7 : S64x256x256.Idx → EReal) (A43 : S128x256.Idx → EReal) (A40 : S128x1.Idx → EReal)
    (y : S2x128x256.Idx) (i : S64x128x256.Idx)
    (h0 : ∀ k : Fin 256, x0 (ix3 (y 0) k (y 2)) = A7 (ix3 (i 0) k (i 2)))
    (h1 : ∀ k : Fin 256, x1 (ix2 (y 1) k) = A43 (ix2 (i 1) k))
    (h2 : x2 (ix2 (y 1) (0 : Fin 1)) = A40 (ix2 (i 1) (0 : Fin 1))) :
    blockOut x0 x1 x2 y = Spec.rout (a2 A43) (a3 A7) (col A40) (i 0) (i 1) (i 2) := by
  show (∑ k : Fin 256, x1 (ix2 (y 1) k) * Spec.act (x0 (ix3 (y 0) k (y 2)))) + x2 (ix2 (y 1) (0 : Fin 1))
    = (∑ k : Fin 256, A43 (ix2 (i 1) k) * Spec.act (A7 (ix3 (i 0) k (i 2)))) + A40 (ix2 (i 1) (0 : Fin 1))
  rw [h2]
  exact congrArg (· + A40 (ix2 (i 1) (0 : Fin 1))) (Finset.sum_congr rfl fun k _ => by rw [h0 k, h1 k])

/-- The printed index maps over the grid: the image windows move two images per point, the weight and the bias stay. -/
private theorem idx_facts : ∀ t : Fin cfg1.N, win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = t.val ∧ win1_3.index t (1 : Fin 3) = 0 ∧ win1_3.index t (2 : Fin 3) = 0 :=
  (by decide +kernel : ∀ t : Fin grid1.N, _)

section AtEntry
variable (V : (c : Dev nD) → (b : Ref sig .tc) → Buf (Elt Ideal) ((c : Thread nD τ).loc b))

/-- The image window's block at point `t` is images `2t`, `2t + 1` of the concatenated input. -/
private theorem iblk_img_apply (c : Dev nD) (t : Fin cfg1.N) (x : S2x256x256.Idx) (k : S64x256x256.Idx)
    (hk0 : (k 0).val = 2 * t.val + (x 0).val) (hk1 : (k 1).val = (x 1).val) (hk2 : (k 2).val = (x 2).val) :
    (iblk1 V c 0 t : Vec Ideal S2x256x256 .f32) x = (V c main_call0_v7 : S64x256x256.Idx → EReal) k := by
  obtain ⟨e0, e1, e2, -⟩ := idx_facts t
  unfold iblk1
  rw [View.read_apply]
  show V c main_call0_v7 _ = V c main_call0_v7 _
  congr 1
  funext a
  apply Fin.ext
  match a with
  | ⟨0, _⟩ => show win1_0.index t (0 : Fin 3) * 2 + 1 * (x 0).val = (k 0).val; rw [e0, hk0]; omega
  | ⟨1, _⟩ => show win1_0.index t (1 : Fin 3) * 256 + 1 * (x 1).val = (k 1).val; rw [e1, hk1]; omega
  | ⟨2, _⟩ => show win1_0.index t (2 : Fin 3) * 256 + 1 * (x 2).val = (k 2).val; rw [e2, hk2]; omega

/-- The weight window's block at every point is the whole scaled weight. -/
private theorem iblk_w_apply (c : Dev nD) (t : Fin cfg1.N) (x : S128x256.Idx) :
    (iblk1 V c 1 t : Vec Ideal S128x256 .f32) x = (V c main_call0_v43 : S128x256.Idx → EReal) x := by
  obtain ⟨-, -, -, e0, e1, -⟩ := idx_facts t
  unfold iblk1
  rw [View.read_apply]
  show V c main_call0_v43 _ = V c main_call0_v43 _
  congr 1
  funext a
  apply Fin.ext
  match a with
  | ⟨0, _⟩ => show win1_1.index t (0 : Fin 2) * 128 + 1 * (x 0).val = (x 0).val; rw [e0]; omega
  | ⟨1, _⟩ => show win1_1.index t (1 : Fin 2) * 256 + 1 * (x 1).val = (x 1).val; rw [e1]; omega

/-- The bias window's block at every point is the whole bias column. -/
private theorem iblk_b_apply (c : Dev nD) (t : Fin cfg1.N) (x : S128x1.Idx) :
    (iblk1 V c 2 t : Vec Ideal S128x1 .f32) x = (V c main_call0_v40 : S128x1.Idx → EReal) x := by
  obtain ⟨-, -, -, -, -, e0, e1, -⟩ := idx_facts t
  unfold iblk1
  rw [View.read_apply]
  show V c main_call0_v40 _ = V c main_call0_v40 _
  congr 1
  funext a
  apply Fin.ext
  match a with
  | ⟨0, _⟩ => show win1_2.index t (0 : Fin 2) * 128 + 1 * (x 0).val = (x 0).val; rw [e0]; omega
  | ⟨1, _⟩ => show win1_2.index t (1 : Fin 2) * 1 + 1 * (x 1).val = (x 1).val; rw [e1]; omega

/-- The whole result array as the specification's function of the arrays the region finds. -/
private abbrev outArr (c : Dev nD) : S64x128x256.Idx → EReal :=
  fun i => Spec.rout (a2 (V c main_call0_v43)) (a3 (V c main_call0_v7)) (col (V c main_call0_v40)) (i 0) (i 1) (i 2)

/-- Point `t` writes back block `t` of that array. -/
private theorem flushed_eq (c : Dev nD) (t : Fin cfg1.N) :
    (dat1 (F := Ideal) V c).flushed 3 t = ((cfg1.win 3).blk t).view.read (Elt Ideal) (outArr V c) := by
  show (cfg1.win 3).cut (grid1.coords t) ((dat1 (F := Ideal) V c).after 3 t) = _
  rw [after1_3, out_blk_eq (iblk1 V c 0 t) (iblk1 V c 1 t) (iblk1 V c 2 t)]
  obtain ⟨-, -, -, -, -, -, -, e0, e1, e2⟩ := idx_facts t
  funext y
  show blockOut (iblk1 V c 0 t) (iblk1 V c 1 t) (iblk1 V c 2 t) y = outArr V c (((cfg1.win 3).blk t).view.emb y)
  have hy0 : ((((cfg1.win 3).blk t).view.emb y) 0 : Fin 64).val = 2 * t.val + (y 0).val := by
    show win1_3.index t (0 : Fin 3) * 2 + 1 * (y 0).val = _; rw [e0]; omega
  have hy1 : ((((cfg1.win 3).blk t).view.emb y) 1 : Fin 128) = y 1 := by
    apply Fin.ext; show win1_3.index t (1 : Fin 3) * 128 + 1 * (y 1).val = _; rw [e1]; omega
  have hy2 : ((((cfg1.win 3).blk t).view.emb y) 2 : Fin 256) = y 2 := by
    apply Fin.ext; show win1_3.index t (2 : Fin 3) * 256 + 1 * (y 2).val = _; rw [e2]; omega
  refine blockOut_eq_rout (iblk1 V c 0 t) (iblk1 V c 1 t) (iblk1 V c 2 t) (V c main_call0_v7) (V c main_call0_v43) (V c main_call0_v40) y _ (fun k => ?_) (fun k => ?_) ?_
  · exact iblk_img_apply V c t _ _ hy0 rfl (congrArg Fin.val hy2)
  · rw [hy1]; exact iblk_w_apply V c t _
  · rw [hy1]; exact iblk_b_apply V c t _

/-- An index of the array is in point `t`'s block iff each coordinate is in the block's range on its axis. -/
private theorem mem_blk (t : Fin cfg1.N) (i : S64x128x256.Idx) :
    i ∈ ((cfg1.win 3).blk t).view.set ↔ ∀ a : Fin 3, win1_3.index t a * S2x128x256.size a ≤ (i a).val ∧ (i a).val < win1_3.index t a * S2x128x256.size a + S2x128x256.size a := by
  show i ∈ ((View.whole main_call0_v44).slice (win1_3.rect t)).set ↔ _
  rw [View.set_slice_whole, Rect.mem_set_unit]
  exact Iff.rfl

/-- Every index of the array lies in the block of the point that holds its image. -/
private theorem covered (i : S64x128x256.Idx) :
    ∃ t : Fin cfg1.N, (cfg1.win 3).flush t = true ∧ i ∈ ((cfg1.win 3).blk t).view.set := by
  have hi0 : (i 0).val < 64 := (i 0).isLt
  have hi1 : (i 1).val < 128 := (i 1).isLt
  have hi2 : (i 2).val < 256 := (i 2).isLt
  have hN : cfg1.N = 32 := N_1
  let t : Fin cfg1.N := ⟨(i 0).val / 2, by rw [hN]; omega⟩
  have ht : t.val = (i 0).val / 2 := rfl
  obtain ⟨-, -, -, -, -, -, -, e0, e1, e2⟩ := idx_facts t
  refine ⟨t, flush1_3 t, ?_⟩
  rw [mem_blk]
  intro a
  match a with
  | ⟨0, _⟩ => show win1_3.index t (0 : Fin 3) * 2 ≤ (i 0).val ∧ (i 0).val < win1_3.index t (0 : Fin 3) * 2 + 2; rw [e0, ht]; omega
  | ⟨1, _⟩ => show win1_3.index t (1 : Fin 3) * 128 ≤ (i 1).val ∧ (i 1).val < win1_3.index t (1 : Fin 3) * 128 + 128; rw [e1]; omega
  | ⟨2, _⟩ => show win1_3.index t (2 : Fin 3) * 256 ≤ (i 2).val ∧ (i 2).val < win1_3.index t (2 : Fin 3) * 256 + 256; rw [e2]; omega

end AtEntry

theorem out_arr (V : (c : Dev nD) → (b : Ref sig .tc) → Buf (Elt Ideal) ((c : Thread nD τ).loc b)) (c : Dev nD) :
    ((dat1 (F := Ideal) V c).arrAt 3 cfg1.N : S64x128x256.Idx → EReal)
      = fun i => Spec.rout (a2 (V c main_call0_v43)) (a3 (V c main_call0_v7)) (col (V c main_call0_v40)) (i 0) (i 1) (i 2) :=
  (dat1 (F := Ideal) V c).arrAt_eq_of_cover 3 (outArr V c) (fun t _ => flushed_eq V c t) covered

end Cert.ReferenceIdeal.Val
end
-- ==== Proof.RHost0.lean ====
import proofs.«175401_g2000004280588758_pallasbulk_1102_2_alg».proof.Proof.Gen.ReferenceIdeal.Frame
import proofs.«175401_g2000004280588758_pallasbulk_1102_2_alg».proof.Proof.Spec
import Idealize.ShloMosaic.Lib.Pipeline.Value
import Idealize.ShloMosaic.Lib.ValueIdx
import Idealize.ShloMosaic.Lib.ValueIdxRank6
import Idealize.ShloMosaic.Lib.StableHlo.Run
import Idealize.ShloMosaic.Lib.ValueLayout
import Idealize.ShloMosaic.Lib.KernelVsHost
import Idealize.ShloMosaic.Lib.IdealHost

noncomputable section

open Idealize.ShloMosaic Idealize.ShloMosaic.TcCoe Idealize.SL.Sem
open Idealize.ShloMosaic.Pipeline (Dat)
open Idealize.ShloMosaic.ValueIdx
open Cert.Spec (a1 a2 a3 a4 col)

/-! The host operations before the first region and after the second, read at an index: the two strided picks
    concatenated on the channel axis (the zero-width pad is the identity), the block-diagonal weight built by two
    scatters into a zero matrix, and the final reshape. -/
namespace Cert.ReferenceIdeal.Val
open Cert.ReferenceIdeal Cert.ReferenceIdeal.Gen

variable (W : Valuation τ sig (Elt Ideal))

/-! ## The concatenated input -/

/-- One strided pick: split each spatial axis into (16, 2), keep offset (a, b) of the two inner axes, flatten back. -/
private def pickV (o : Fin 6 → Nat) (hs : S64x128x16x2x16x2.Slices o S64x128x16x1x16x1) (x : S64x128x32x32.Idx → EReal) :
    S64x128x16x16.Idx → EReal :=
  shapeCast S64x128x16x16
    (extractStridedSlice S64x128x16x1x16x1 o (shapeCast S64x128x16x2x16x2 x shapeCasts_S64x128x32x32_S64x128x16x2x16x2) hs)
    shapeCasts_S64x128x16x1x16x1_S64x128x16x16

/-- The two picks stacked on the channel axis, pixels flattened, then the zero-width pad. -/
private def xcatV (x : S64x128x32x32.Idx → EReal) : S64x256x256.Idx → EReal :=
  pad S64x256x256 ![0, 0, 0] ![0, 0, 0] ![0, 0, 0]
    (shapeCast S64x256x256
      (concatenate S64x256x16x16 1
        [⟨S64x128x16x16, pickV ![0, 0, 0, 0, 0, 0] slices_S64x128x16x2x16x2_S64x128x16x1x16x1_0_0_0_0_0_0 x⟩,
         ⟨S64x128x16x16, pickV ![0, 0, 0, 1, 0, 1] slices_S64x128x16x2x16x2_S64x128x16x1x16x1_0_0_0_1_0_1 x⟩]
        concatenates_S64x128x16x16_S64x128x16x16_S64x256x16x16_d1)
      shapeCasts_S64x256x16x16_S64x256x256)
    (sitofp (F := Ideal) .f32 (constantI S_ 32 0#32)) pads_S64x256x256_S64x256x256_000_000_000 h_S_

private theorem pickV_apply (o : Fin 6 → Nat) (hs : S64x128x16x2x16x2.Slices o S64x128x16x1x16x1)
    (a b : Nat) (ha : a < 2) (hb : b < 2)
    (ho : o = ![0, 0, 0, a, 0, b])
    (x : S64x128x32x32.Idx → EReal) (n : Fin 64) (k : Fin 128) (h w : Fin 16) :
    pickV o hs x (ix4 n k h w) = x (ix4 n k (⟨2 * h.val + a, by omega⟩ : Fin 32) (⟨2 * w.val + b, by omega⟩ : Fin 32)) := by
  subst ho
  unfold pickV
  have hn : (n : Nat) < 64 := n.isLt
  have hk : (k : Nat) < 128 := k.isLt
  have hh : (h : Nat) < 16 := h.isLt
  have hw : (w : Nat) < 16 := w.isLt
  refine (shapeCast_apply _ _ (ix4 n k h w) (ix6 n k h (0 : Fin 1) w (0 : Fin 1)) ?_).trans ?_
  · rw [Shape.rowMajor_val_six, Shape.rowMajor_val_four]
    show (((((n.val * 128 + k.val) * 16 + h.val) * 1 + 0) * 16 + w.val) * 1 + 0) = ((n.val * 128 + k.val) * 16 + h.val) * 16 + w.val
    omega
  refine (extractStridedSlice_apply _ _ _ _ (ix6 n k h (⟨a, ha⟩ : Fin 2) w (⟨b, hb⟩ : Fin 2)) ?_).trans ?_
  · intro c
    match c with
    | ⟨0, _⟩ => show n.val = 0 + n.val; omega
    | ⟨1, _⟩ => show k.val = 0 + k.val; omega
    | ⟨2, _⟩ => show h.val = 0 + h.val; omega
    | ⟨3, _⟩ => show a = a + 0; omega
    | ⟨4, _⟩ => show w.val = 0 + w.val; omega
    | ⟨5, _⟩ => show b = b + 0; omega
  refine shapeCast_apply _ _ _ _ ?_
  rw [Shape.rowMajor_val_six, Shape.rowMajor_val_four]
  show ((n.val * 128 + k.val) * 32 + (2 * h.val + a)) * 32 + (2 * w.val + b) = ((((n.val * 128 + k.val) * 16 + h.val) * 2 + a) * 16 + w.val) * 2 + b
  omega

private theorem xcatV_apply (x : S64x128x32x32.Idx → EReal) (n : Fin 64) (k : Fin 256) (s : Fin 256) :
    xcatV x (ix3 n k s) = Spec.xcat (a4 x) n k s := by
  have hn : (n : Nat) < 64 := n.isLt
  have hk : (k : Nat) < 256 := k.isLt
  have hs : (s : Nat) < 256 := s.isLt
  unfold xcatV
  refine (pad_apply_of_inside _ _ _ _ _ _ _ (ix3 n k s) (ix3 n k s) ?_).trans ?_
  · intro c
    match c with
    | ⟨0, _⟩ => show n.val = 0 + n.val * (0 + 1); omega
    | ⟨1, _⟩ => show k.val = 0 + k.val * (0 + 1); omega
    | ⟨2, _⟩ => show s.val = 0 + s.val * (0 + 1); omega
  refine (shapeCast_apply _ _ (ix3 n k s) (ix4 n k (⟨s.val / 16, by omega⟩ : Fin 16) (⟨s.val % 16, by omega⟩ : Fin 16)) ?_).trans ?_
  · rw [Shape.rowMajor_val_four, Shape.rowMajor_val_three]
    show ((n.val * 256 + k.val) * 16 + s.val / 16) * 16 + s.val % 16 = (n.val * 256 + k.val) * 256 + s.val
    omega
  unfold Spec.xcat
  by_cases hlt : k.val < 128
  · rw [dif_pos hlt]
    refine (concatenate_pair_apply_left (t := S64x256x16x16) (s₁ := S64x128x16x16) (s₂ := S64x128x16x16) 1 _ _
      concatenates_S64x128x16x16_S64x128x16x16_S64x256x16x16_d1
      (ix4 n k (⟨s.val / 16, by omega⟩ : Fin 16) (⟨s.val % 16, by omega⟩ : Fin 16)) rfl
      (ix4 n (⟨k.val, hlt⟩ : Fin 128) (⟨s.val / 16, by omega⟩ : Fin 16) (⟨s.val % 16, by omega⟩ : Fin 16)) ?_).trans ?_
    · intro c
      match c with
      | ⟨0, _⟩ => rfl
      | ⟨1, _⟩ => rfl
      | ⟨2, _⟩ => rfl
      | ⟨3, _⟩ => rfl
    exact pickV_apply _ _ 0 0 (by omega) (by omega) rfl x n ⟨k.val, hlt⟩ _ _
  · rw [dif_neg hlt]
    refine (concatenate_pair_apply_right (t := S64x256x16x16) (s₁ := S64x128x16x16) (s₂ := S64x128x16x16) 1 _ _
      concatenates_S64x128x16x16_S64x128x16x16_S64x256x16x16_d1
      (ix4 n k (⟨s.val / 16, by omega⟩ : Fin 16) (⟨s.val % 16, by omega⟩ : Fin 16)) rfl rfl
      (ix4 n (⟨k.val - 128, by omega⟩ : Fin 128) (⟨s.val / 16, by omega⟩ : Fin 16) (⟨s.val % 16, by omega⟩ : Fin 16)) ?_ ?_).trans ?_
    · intro c hc
      match c with
      | ⟨0, _⟩ => rfl
      | ⟨1, _⟩ => exact absurd rfl hc
      | ⟨2, _⟩ => rfl
      | ⟨3, _⟩ => rfl
    · show k.val - 128 + 128 = k.val; omega
    exact pickV_apply _ _ 1 1 (by omega) (by omega) rfl x n ⟨k.val - 128, by omega⟩ _ _

/-- The input buffer of the first region is the composed term of the ten operations that make it. -/
private theorem host0_xcat_e : (StableHlo.after hostOps0 W (Proc.devRef .tc main_call0_v7) : S64x256x256.Idx → EReal)
    = xcatV (W (Proc.devRef .tc main_arg0)) := by
  simp only [hostOps0]; after_results; rfl

theorem host0_xcat : (StableHlo.after hostOps0 W (Proc.devRef .tc main_call0_v7) : S64x256x256.Idx → EReal)
    = fun i => Spec.xcat (a4 (W (Proc.devRef .tc main_arg0))) (i 0) (i 1) (i 2) := by
  rw [host0_xcat_e]
  funext i
  exact (congrArg _ (eq_ix3 i)).trans (xcatV_apply _ (i 0) (i 1) (i 2))

/-! ## The block-diagonal weight -/

/-- A left fold of "set position g n to v n" steps leaves a position no step names untouched. -/
private theorem foldl_set_miss {ι β N : Type} (g : N → Option ι) (v : N → β)
    (step : (ι → β) → N → (ι → β))
    (hs_ne : ∀ r n i i'', g n = some i → i'' ≠ i → step r n i'' = r i'')
    (hn : ∀ r n, g n = none → step r n = r) (i' : ι) :
    ∀ (l : List N) (x : ι → β), (∀ n ∈ l, g n ≠ some i') → l.foldl step x i' = x i' := by
  intro l
  induction l with
  | nil => intro x _; rfl
  | cons a l ih =>
    intro x hl
    rw [List.foldl_cons, ih (step x a) (fun n hn' => hl n (List.mem_cons_of_mem _ hn'))]
    cases hg : g a with
    | none => rw [hn x a hg]
    | some i =>
      have hne : i' ≠ i := fun e => hl a (List.mem_cons_self ..) (by rw [hg, e])
      exact hs_ne x a i i' hg hne

/-- … and a position some step names, every step naming it writing the same value c, ends at c. -/
private theorem foldl_set_hit {ι β N : Type} (g : N → Option ι) (v : N → β)
    (step : (ι → β) → N → (ι → β))
    (hs_eq : ∀ r n i, g n = some i → step r n i = v n)
    (hs_ne : ∀ r n i i'', g n = some i → i'' ≠ i → step r n i'' = r i'')
    (hn : ∀ r n, g n = none → step r n = r) (i' : ι) (c : β) :
    ∀ (l : List N) (x : ι → β), (∃ n ∈ l, g n = some i') → (∀ n ∈ l, g n = some i' → v n = c) →
      l.foldl step x i' = c := by
  intro l
  induction l with
  | nil => intro x ⟨n, hm, _⟩; exact absurd hm (List.not_mem_nil)
  | cons a l ih =>
    intro x hex hall
    rw [List.foldl_cons]
    by_cases hl : ∃ n ∈ l, g n = some i'
    · exact ih (step x a) hl (fun n hn' => hall n (List.mem_cons_of_mem _ hn'))
    · have hmiss : ∀ n ∈ l, g n ≠ some i' := fun n hn' e => hl ⟨n, hn', e⟩
      rw [foldl_set_miss g v step hs_ne hn i' l (step x a) hmiss]
      obtain ⟨n, hm, hg⟩ := hex
      rcases List.mem_cons.1 hm with rfl | hm'
      · rw [hs_eq x n i' hg]; exact hall n (List.mem_cons_self ..) hg
      · exact absurd hg (hmiss n hm')

/-- The two start components are read off the index vector; the window coordinates are the update's own. -/
private theorem sd_start0 (j : S64x128.Idx) (idx : IVec S2 32) :
    scatter_S128x256_S2_S64x128_01_n_01_0.start j idx (0 : Fin 2) = (idx (ix1 (0 : Fin 2))).toInt := by
  unfold ScatterDims.start
  rw [dif_pos (by decide)]
  refine congrArg (fun k => (idx k).toInt) (funext fun b => ?_)
  match b with
  | ⟨0, _⟩ => rfl
private theorem sd_start1 (j : S64x128.Idx) (idx : IVec S2 32) :
    scatter_S128x256_S2_S64x128_01_n_01_0.start j idx (1 : Fin 2) = (idx (ix1 (1 : Fin 2))).toInt := by
  unfold ScatterDims.start
  rw [dif_pos (by decide)]
  refine congrArg (fun k => (idx k).toInt) (funext fun b => ?_)
  match b with
  | ⟨0, _⟩ => rfl
private theorem sd_window0 (j : S64x128.Idx) : scatter_S128x256_S2_S64x128_01_n_01_0.window j (0 : Fin 2) = (j 0).val := rfl
private theorem sd_window1 (j : S64x128.Idx) : scatter_S128x256_S2_S64x128_01_n_01_0.window j (1 : Fin 2) = (j 1).val := rfl

/-- With start (r0, c0) keeping the 64×128 window inside, update (p, q) lands at (p + r0, q + c0). -/
private theorem sd_resultIdx (idx : IVec S2 32) (r0 c0 : Nat)
    (h0 : (idx (ix1 (0 : Fin 2))).toInt = r0) (h1 : (idx (ix1 (1 : Fin 2))).toInt = c0)
    (hr : r0 + 64 ≤ 128) (hc : c0 + 128 ≤ 256) (p : Fin 64) (q : Fin 128) :
    scatter_S128x256_S2_S64x128_01_n_01_0.resultIdx? (ix2 p q) idx
      = some (ix2 (⟨p.val + r0, by omega⟩ : Fin 128) (⟨q.val + c0, by omega⟩ : Fin 256)) := by
  have hp : (p : Nat) < 64 := p.isLt
  have hq : (q : Nat) < 128 := q.isLt
  unfold ScatterDims.resultIdx?
  have hcond : ∀ a : Fin 2, 0 ≤ scatter_S128x256_S2_S64x128_01_n_01_0.start (ix2 p q) idx a + scatter_S128x256_S2_S64x128_01_n_01_0.window (ix2 p q) a
      ∧ scatter_S128x256_S2_S64x128_01_n_01_0.start (ix2 p q) idx a + scatter_S128x256_S2_S64x128_01_n_01_0.window (ix2 p q) a < S128x256.size a := by
    refine Fin.forall_fin_two.2 ⟨?_, ?_⟩
    · rw [sd_start0, sd_window0, h0]
      show (0 : Int) ≤ (r0 : Int) + ((p.val : Nat) : Int) ∧ (r0 : Int) + ((p.val : Nat) : Int) < ((128 : Nat) : Int)
      omega
    · rw [sd_start1, sd_window1, h1]
      show (0 : Int) ≤ (c0 : Int) + ((q.val : Nat) : Int) ∧ (c0 : Int) + ((q.val : Nat) : Int) < ((256 : Nat) : Int)
      omega
  rw [dif_pos hcond]
  refine congrArg some (Shape.idx_ext₂ ?_ ?_)
  · show (scatter_S128x256_S2_S64x128_01_n_01_0.start (ix2 p q) idx (0 : Fin 2) + scatter_S128x256_S2_S64x128_01_n_01_0.window (ix2 p q) (0 : Fin 2)).toNat = p.val + r0
    rw [sd_start0, sd_window0, h0]
    show ((r0 : Int) + ((p.val : Nat) : Int)).toNat = p.val + r0
    omega
  · show (scatter_S128x256_S2_S64x128_01_n_01_0.start (ix2 p q) idx (1 : Fin 2) + scatter_S128x256_S2_S64x128_01_n_01_0.window (ix2 p q) (1 : Fin 2)).toNat = q.val + c0
    rw [sd_start1, sd_window1, h1]
    show ((c0 : Int) + ((q.val : Nat) : Int)).toNat = q.val + c0
    omega

/-- A "set" scatter of a 64×128 update at start (r0, c0) into a 128×256 array, read at (p, q): the update inside
    the window, the operand elsewhere. -/
private theorem scatter_set_apply (x : S128x256.Idx → EReal) (idx : IVec S2 32) (upd : S64x128.Idx → EReal) (r0 c0 : Nat)
    (h0 : (idx (ix1 (0 : Fin 2))).toInt = r0) (h1 : (idx (ix1 (1 : Fin 2))).toInt = c0)
    (hr : r0 + 64 ≤ 128) (hc : c0 + 128 ≤ 256) (p : Fin 128) (q : Fin 256) :
    Host.scatter scatter_S128x256_S2_S64x128_01_n_01_0 (fun _ b => b) x idx upd (ix2 p q)
      = if h : (r0 ≤ p.val ∧ p.val < r0 + 64) ∧ (c0 ≤ q.val ∧ q.val < c0 + 128) then
          upd (ix2 (⟨p.val - r0, by omega⟩ : Fin 64) (⟨q.val - c0, by omega⟩ : Fin 128))
        else x (ix2 p q) := by
  have hp : (p : Nat) < 128 := p.isLt
  have hq : (q : Nat) < 256 := q.isLt
  unfold Host.scatter
  -- the fold is over every update number, in whatever order
  generalize hl : List.finRange S64x128.numel = l
  have hmem : ∀ n : Fin S64x128.numel, n ∈ l := fun n => hl ▸ List.mem_finRange n
  clear hl
  -- where update number n lands, and what it writes
  let g : Fin S64x128.numel → Option S128x256.Idx := fun n =>
    scatter_S128x256_S2_S64x128_01_n_01_0.resultIdx? (S64x128.rowMajor.symm n) idx
  let v : Fin S64x128.numel → EReal := fun n => upd (S64x128.rowMajor.symm n)
  have hg : ∀ n, ∃ a : Fin 64, ∃ b : Fin 128, S64x128.rowMajor.symm n = ix2 a b ∧
      g n = some (ix2 (⟨a.val + r0, by omega⟩ : Fin 128) (⟨b.val + c0, by omega⟩ : Fin 256)) := by
    intro n
    refine ⟨(S64x128.rowMajor.symm n) 0, (S64x128.rowMajor.symm n) 1, eq_ix2 _, ?_⟩
    show scatter_S128x256_S2_S64x128_01_n_01_0.resultIdx? (S64x128.rowMajor.symm n) idx = _
    rw [eq_ix2 (S64x128.rowMajor.symm n)]
    exact sd_resultIdx idx r0 c0 h0 h1 hr hc _ _
  by_cases h : (r0 ≤ p.val ∧ p.val < r0 + 64) ∧ (c0 ≤ q.val ∧ q.val < c0 + 128)
  · rw [dif_pos h]
    refine foldl_set_hit g v _ ?_ ?_ ?_ (ix2 p q) _ l x ?_ ?_
    · intro r n i hgi
      have h' : scatter_S128x256_S2_S64x128_01_n_01_0.resultIdx? (S64x128.rowMajor.symm n) idx = some i := hgi
      rw [h']
      exact if_pos rfl
    · intro r n i i'' hgi hne
      have h' : scatter_S128x256_S2_S64x128_01_n_01_0.resultIdx? (S64x128.rowMajor.symm n) idx = some i := hgi
      rw [h']
      exact if_neg hne
    · intro r n hgi
      have h' : scatter_S128x256_S2_S64x128_01_n_01_0.resultIdx? (S64x128.rowMajor.symm n) idx = none := hgi
      rw [h']
    · refine ⟨S64x128.rowMajor (ix2 (⟨p.val - r0, by omega⟩ : Fin 64) (⟨q.val - c0, by omega⟩ : Fin 128)), hmem _, ?_⟩
      show scatter_S128x256_S2_S64x128_01_n_01_0.resultIdx? (S64x128.rowMajor.symm (S64x128.rowMajor _)) idx = _
      rw [Equiv.symm_apply_apply, sd_resultIdx idx r0 c0 h0 h1 hr hc]
      refine congrArg some (Shape.idx_ext₂ ?_ ?_)
      · show p.val - r0 + r0 = p.val; omega
      · show q.val - c0 + c0 = q.val; omega
    · intro n _ hgn
      obtain ⟨a, b, hab, hgab⟩ := hg n
      rw [hgab] at hgn
      have e := Option.some.inj hgn
      have e0 : a.val + r0 = p.val := congrArg (fun k : S128x256.Idx => (k 0).val) e
      have e1 : b.val + c0 = q.val := congrArg (fun k : S128x256.Idx => (k 1).val) e
      show upd (S64x128.rowMajor.symm n) = _
      rw [hab]
      refine congrArg upd (Shape.idx_ext₂ ?_ ?_)
      · show a.val = p.val - r0; omega
      · show b.val = q.val - c0; omega
  · rw [dif_neg h]
    refine foldl_set_miss g v _ ?_ ?_ (ix2 p q) l x ?_
    · intro r n i i'' hgi hne
      have h' : scatter_S128x256_S2_S64x128_01_n_01_0.resultIdx? (S64x128.rowMajor.symm n) idx = some i := hgi
      rw [h']
      exact if_neg hne
    · intro r n hgi
      have h' : scatter_S128x256_S2_S64x128_01_n_01_0.resultIdx? (S64x128.rowMajor.symm n) idx = none := hgi
      rw [h']
    intro n _ hgn
    obtain ⟨a, b, hab, hgab⟩ := hg n
    rw [hgab] at hgn
    have e := Option.some.inj hgn
    have e0 : a.val + r0 = p.val := congrArg (fun k : S128x256.Idx => (k 0).val) e
    have e1 : b.val + c0 = q.val := congrArg (fun k : S128x256.Idx => (k 1).val) e
    have ha : (a : Nat) < 64 := a.isLt
    have hb : (b : Nat) < 128 := b.isLt
    exact h (by omega)

/-- A scatter index vector [a, b]: two broadcast i32 constants concatenated. -/
private def idxV (a b : BitVec 32) : IVec S2 32 :=
  concatenate S2 0
    [⟨S1, broadcastInDim S1 ![] bcast_S_S1 (constantI S_ 32 a)⟩, ⟨S1, broadcastInDim S1 ![] bcast_S_S1 (constantI S_ 32 b)⟩]
    concatenates_S1_S1_S2_d0

/-- The zero matrix with the first weight written at (0, 0) and then the second at (64, 128). -/
private def wbdV (w1 w2 : S64x128x1x1.Idx → EReal) : S128x256.Idx → EReal :=
  Host.scatter scatter_S128x256_S2_S64x128_01_n_01_0 (fun _ b => b)
    (Host.scatter scatter_S128x256_S2_S64x128_01_n_01_0 (fun _ b => b)
      (broadcastInDim S128x256 ![] bcast_S_S128x256 (constant (F := Ideal) S_ .f32 0x00000000#32))
      (idxV 0#32 0#32) (shapeCast S64x128 w1 shapeCasts_S64x128x1x1_S64x128))
    (idxV 64#32 128#32) (shapeCast S64x128 w2 shapeCasts_S64x128x1x1_S64x128)

private theorem idxV_0 (a b : BitVec 32) : idxV a b (ix1 (0 : Fin 2)) = a := by
  unfold idxV
  refine (concatenate_pair_apply_left (t := S2) (s₁ := S1) (s₂ := S1) 0 _ _ concatenates_S1_S1_S2_d0
    (ix1 (0 : Fin 2)) rfl (ix1 (0 : Fin 1)) ?_).trans ?_
  · intro c
    match c with
    | ⟨0, _⟩ => rfl
  exact broadcastInDim_scalar_apply _ _ _
private theorem idxV_1 (a b : BitVec 32) : idxV a b (ix1 (1 : Fin 2)) = b := by
  unfold idxV
  refine (concatenate_pair_apply_right (t := S2) (s₁ := S1) (s₂ := S1) 0 _ _ concatenates_S1_S1_S2_d0
    (ix1 (1 : Fin 2)) rfl rfl (ix1 (0 : Fin 1)) ?_ ?_).trans ?_
  · intro c hc
    match c with
    | ⟨0, _⟩ => exact absurd rfl hc
  · rfl
  exact broadcastInDim_scalar_apply _ _ _

/-- A [64,128,1,1] weight flattened to [64,128] reads the same entry. -/
private theorem wflat_apply (w : S64x128x1x1.Idx → EReal) (a : Fin 64) (b : Fin 128) :
    shapeCast S64x128 w shapeCasts_S64x128x1x1_S64x128 (ix2 a b) = Spec.mat11 w a b := by
  refine shapeCast_apply w _ (ix2 a b) (ix4 a b (0 : Fin 1) (0 : Fin 1)) ?_
  rw [Shape.rowMajor_val_four, Shape.rowMajor_val_two]
  show ((a.val * 128 + b.val) * 1 + 0) * 1 + 0 = a.val * 128 + b.val
  omega

private theorem zeroV_apply (j : S128x256.Idx) :
    broadcastInDim S128x256 ![] bcast_S_S128x256 (constant (F := Ideal) S_ .f32 0x00000000#32) j = 0 := by
  rw [broadcastInDim_scalar_apply]
  exact Ideal.ofBits_zero_f32

private theorem wbdV_apply (w1 w2 : S64x128x1x1.Idx → EReal) (p : Fin 128) (q : Fin 256) :
    wbdV w1 w2 (ix2 p q) = Spec.wbd (Spec.mat11 w1) (Spec.mat11 w2) p q := by
  have hp : (p : Nat) < 128 := p.isLt
  have hq : (q : Nat) < 256 := q.isLt
  have i0 : ((idxV 64#32 128#32) (ix1 (0 : Fin 2))).toInt = ((64 : Nat) : Int) := by rw [idxV_0]; decide
  have i1 : ((idxV 64#32 128#32) (ix1 (1 : Fin 2))).toInt = ((128 : Nat) : Int) := by rw [idxV_1]; decide
  have j0 : ((idxV 0#32 0#32) (ix1 (0 : Fin 2))).toInt = ((0 : Nat) : Int) := by rw [idxV_0]; decide
  have j1 : ((idxV 0#32 0#32) (ix1 (1 : Fin 2))).toInt = ((0 : Nat) : Int) := by rw [idxV_1]; decide
  unfold wbdV
  rw [scatter_set_apply _ _ _ 64 128 i0 i1 (by omega) (by omega),
    scatter_set_apply _ _ _ 0 0 j0 j1 (by omega) (by omega)]
  unfold Spec.wbd
  by_cases h1 : p.val < 64 <;> by_cases h2 : q.val < 128
  · have hA : ¬((64 ≤ p.val ∧ p.val < 64 + 64) ∧ (128 ≤ q.val ∧ q.val < 128 + 128)) := by omega
    have hB : (0 ≤ p.val ∧ p.val < 0 + 64) ∧ (0 ≤ q.val ∧ q.val < 0 + 128) := by omega
    rw [dif_neg hA, dif_pos hB, dif_pos h1, dif_pos h2]
    exact wflat_apply w1 _ _
  · have hA : ¬((64 ≤ p.val ∧ p.val < 64 + 64) ∧ (128 ≤ q.val ∧ q.val < 128 + 128)) := by omega
    have hB : ¬((0 ≤ p.val ∧ p.val < 0 + 64) ∧ (0 ≤ q.val ∧ q.val < 0 + 128)) := by omega
    rw [dif_neg hA, dif_neg hB, dif_pos h1, dif_neg h2]
    exact zeroV_apply _
  · have hA : ¬((64 ≤ p.val ∧ p.val < 64 + 64) ∧ (128 ≤ q.val ∧ q.val < 128 + 128)) := by omega
    have hB : ¬((0 ≤ p.val ∧ p.val < 0 + 64) ∧ (0 ≤ q.val ∧ q.val < 0 + 128)) := by omega
    rw [dif_neg hA, dif_neg hB, dif_neg h1, dif_pos h2]
    exact zeroV_apply _
  · have hA : (64 ≤ p.val ∧ p.val < 64 + 64) ∧ (128 ≤ q.val ∧ q.val < 128 + 128) := by omega
    rw [dif_pos hA, dif_neg h1, dif_neg h2]
    exact wflat_apply w2 _ _

attribute [local irreducible] Host.scatter in
/-- The weight buffer is the composed term: operation by operation, each leaf read off its own buffer. -/
private theorem host0_wbd_e : (StableHlo.after hostOps0 W (Proc.devRef .tc main_call0_v18) : S128x256.Idx → EReal)
    = wbdV (W (Proc.devRef .tc main_arg1)) (W (Proc.devRef .tc main_arg2)) := by
  simp only [hostOps0]; after_results
  unfold wbdV
  refine congr (congr (congrArg _ ?_) ?_) ?_
  · refine congr (congr (congrArg _ ?_) ?_) ?_
    · rfl
    · rfl
    · rfl
  · rfl
  · rfl

theorem host0_wbd : (StableHlo.after hostOps0 W (Proc.devRef .tc main_call0_v18) : S128x256.Idx → EReal)
    = fun i => Spec.wbd (Spec.mat11 (W (Proc.devRef .tc main_arg1))) (Spec.mat11 (W (Proc.devRef .tc main_arg2))) (i 0) (i 1) := by
  rw [host0_wbd_e]
  funext i
  exact (congrArg _ (eq_ix2 i)).trans (wbdV_apply _ _ (i 0) (i 1))

/-! ## The final reshape -/

/-- Splitting the pixel axis 256 = 16 · 16 keeps the row-major position. -/
private theorem reshape_pix (x : S64x128x256.Idx → EReal) (i : S64x128x16x16.Idx) :
    shapeCast S64x128x16x16 x shapeCasts_S64x128x256_S64x128x16x16 i = x (ix3 (i 0) (i 1) (Spec.pix (i 2) (i 3))) := by
  refine shapeCast_apply x _ i _ ?_
  rw [Shape.rowMajor_val_three, Shape.rowMajor_val_four]
  show ((i 0).val * 128 + (i 1).val) * 256 + (16 * (i 2).val + (i 3).val) = (((i 0).val * 128 + (i 1).val) * 16 + (i 2).val) * 16 + (i 3).val
  omega

/-- The result is the second region's array, pixel (h, w) at position 16·h + w. -/
theorem host2_res : (StableHlo.after hostOps2 W (Proc.devRef .tc main_v0) : S64x128x16x16.Idx → EReal)
    = fun i => a3 (W (Proc.devRef .tc main_call0_v44)) (i 0) (i 1) (Spec.pix (i 2) (i 3)) := by
  have e : (StableHlo.after hostOps2 W (Proc.devRef .tc main_v0) : S64x128x16x16.Idx → EReal)
      = shapeCast S64x128x16x16 (W (Proc.devRef .tc main_call0_v44) : S64x128x256.Idx → EReal) shapeCasts_S64x128x256_S64x128x16x16 := by
    simp only [hostOps2]; after_results; rfl
  rw [e]; funext i
  exact reshape_pix _ i

end Cert.ReferenceIdeal.Val
end
-- ==== Proof.RHost1.lean ====
import proofs.«175401_g2000004280588758_pallasbulk_1102_2_alg».proof.Proof.Gen.ReferenceIdeal.Frame
import proofs.«175401_g2000004280588758_pallasbulk_1102_2_alg».proof.Proof.Spec
import Idealize.ShloMosaic.Lib.Pipeline.Value
import Idealize.ShloMosaic.Lib.ValueIdx
import Idealize.ShloMosaic.Lib.StableHlo.Run
import Idealize.ShloMosaic.Lib.ValueLayout
import Idealize.ShloMosaic.PureOps.Ideal.Laws
import Idealize.ShloMosaic.Lib.IdealHost

noncomputable section

open Idealize.ShloMosaic Idealize.ShloMosaic.TcCoe Idealize.SL.Sem
open Idealize.ShloMosaic.Pipeline (Dat)
open Idealize.ShloMosaic.ValueIdx
open Cert.Spec (a1 a2 a3 a4 col)

/-! The host operations between the two regions, read at an index: the partial sums added over the grid, mean,
    variance, scale and bias per channel, and the weight with the scale folded into its rows. -/
namespace Cert.ReferenceIdeal.Val
open Cert.ReferenceIdeal Cert.ReferenceIdeal.Gen

variable (W : Valuation τ sig (Elt Ideal))

/-- The per-channel scale the host computes from the partial sums and γ. -/
abbrev hscale : Spec.T1 128 :=
  Spec.scaleOf (a1 (W (Proc.devRef .tc main_arg3))) (Spec.rvar (a3 (W (Proc.devRef .tc main_call0_v19))))

/-! ## Layout operations of the host stretch read at coordinates -/

/-- The partial sums cut along their last axis from `o`: at (g, ch, u) the source at (g, ch, k) with k = o + u. -/
private theorem slice_last (o : Nat) (X : S32x128x2.Idx → EReal) (h : S32x128x2.Slices ![0, 0, o] S32x128x1)
    (g : Fin 32) (ch : Fin 128) (u : Fin 1) (k : Fin 2) (hk : k.val = o + u.val) :
    extractStridedSlice S32x128x1 ![0, 0, o] X h (ix3 g ch u) = X (ix3 g ch k) :=
  extractStridedSlice_apply _ _ _ _ _ (fun ax => by
    match ax with
    | ⟨0, _⟩ => exact (Nat.zero_add _).symm
    | ⟨1, _⟩ => exact (Nat.zero_add _).symm
    | ⟨2, _⟩ => exact hk)

/-- The trailing unit axis dropped: (g, ch) reads (g, ch, 0). -/
private theorem cast_dropLast (x : S32x128x1.Idx → EReal) (h : S32x128x1.ShapeCasts S32x128) (g : Fin 32) (ch : Fin 128) :
    shapeCast S32x128 x h (ix2 g ch) = x (ix3 g ch (0 : Fin 1)) :=
  shapeCast_apply x h _ _ (by
    rw [Shape.rowMajor_val_three, Shape.rowMajor_val_two]
    show (g.val * 128 + ch.val) * 1 + 0 = g.val * 128 + ch.val
    omega)

/-- The sum over the grid axis of column j of the partial sums, from a zero initial value. -/
private theorem colsum_apply (o : Nat) (j : Fin 2) (hj : j.val = o) (st : FVec Ideal S32x128x2 .f32)
    (h : S32x128x2.Slices ![0, 0, o] S32x128x1) (ch : Fin 128) :
    Host.reduceAdd (shapeCast S32x128 (extractStridedSlice S32x128x1 ![0, 0, o] st h) shapeCasts_S32x128x1_S32x128)
        (constant (F := Ideal) S_ .f32 0x00000000#32) reducesTo_S32x128_S128_d0 h_S_ (ix1 ch)
      = Spec.tot (a3 st) ch j := by
  have hr : S32x128.Reduces [0] S128 := by decide
  rw [hostReduceAdd_apply, Ideal.hostReduceAdd_single _ hr, constant_apply, Ideal.ofBits_zero_f32, zero_add]
  unfold Spec.tot
  refine Finset.sum_congr rfl fun (g : Fin 32) _ => ?_
  have hl : hr.lift (ix1 ch) g = ix2 g ch := by
    funext a; match a with | ⟨0, _⟩ => rfl | ⟨1, _⟩ => rfl
  rw [hl, cast_dropLast, slice_last o st h g ch 0 j (by rw [hj]; rfl)]

/-! ## The stretch's values as functions of the three arrays it reads -/

section Stages
variable (st : FVec Ideal S32x128x2 .f32) (gm bt : FVec Ideal S128 .f32) (w : FVec Ideal S128x256 .f32)

/-- Column 0 and column 1 of the partial sums, each added over the grid. -/
private def vsum0 : FVec Ideal S128 .f32 :=
  Host.reduceAdd (shapeCast S32x128 (extractStridedSlice S32x128x1 ![0, 0, 0] st slices_S32x128x2_S32x128x1_0_0_0) shapeCasts_S32x128x1_S32x128)
    (constant (F := Ideal) S_ .f32 0x00000000#32) reducesTo_S32x128_S128_d0 h_S_
private def vsum1 : FVec Ideal S128 .f32 :=
  Host.reduceAdd (shapeCast S32x128 (extractStridedSlice S32x128x1 ![0, 0, 1] st slices_S32x128x2_S32x128x1_0_0_1) shapeCasts_S32x128x1_S32x128)
    (constant (F := Ideal) S_ .f32 0x00000000#32) reducesTo_S32x128_S128_d0 h_S_
/-- A scalar word broadcast over the 128 channels. -/
private def vsplat (b : BitVec 32) : FVec Ideal S128 .f32 :=
  broadcastInDim S128 ![] bcast_S_S128 (constant (F := Ideal) S_ .f32 b)
/-- The mean S₀ / 16384. -/
private def vmean : FVec Ideal S128 .f32 := Host.divf (vsum0 st) (vsplat 0x46800000#32)
/-- The variance max(S₁ / 16384 − mean², 0). -/
private def vvar : FVec Ideal S128 .f32 :=
  maximumf (subf (Host.divf (vsum1 st) (vsplat 0x46800000#32)) (mulf (vmean st) (vmean st))) (vsplat 0x00000000#32)
/-- The scale γ · rsqrt(var + ε). -/
private def vscale : FVec Ideal S128 .f32 := mulf gm (Host.rsqrt (addf (vvar st) (vsplat 0x3727C5AC#32)))
/-- The bias β − mean · scale as a column. -/
private def vbias : FVec Ideal S128x1 .f32 :=
  shapeCast S128x1 (subf bt (mulf (vmean st) (vscale st gm))) shapeCasts_S128_S128x1
/-- The weight with the scale multiplied into each row. -/
private def vws : FVec Ideal S128x256 .f32 :=
  mulf w (broadcastInDim S128x256 ![0, 1] bcast_S128x1_S128x256_0_1 (broadcastInDim S128x1 ![0] bcast_S128_S128x1_0 (vscale st gm)))

private theorem vsum0_apply (ch : Fin 128) : vsum0 st (ix1 ch) = Spec.tot (a3 st) ch 0 :=
  colsum_apply 0 0 rfl st _ ch
private theorem vsum1_apply (ch : Fin 128) : vsum1 st (ix1 ch) = Spec.tot (a3 st) ch 1 :=
  colsum_apply 1 1 rfl st _ ch
private theorem vsplat_apply (b : BitVec 32) (ch : Fin 128) : vsplat b (ix1 ch) = Ideal.ofBits .f32 b := by
  unfold vsplat
  rw [broadcastInDim_scalar_apply, constant_apply]
private theorem vmean_apply (ch : Fin 128) : vmean st (ix1 ch) = Spec.rmean (a3 st) ch := by
  unfold vmean Spec.rmean
  rw [hostDivf_apply, vsum0_apply, vsplat_apply]
private theorem vvar_apply (ch : Fin 128) : vvar st (ix1 ch) = Spec.rvar (a3 st) ch := by
  unfold vvar Spec.rvar
  rw [maximumf_apply, subf_apply, mulf_apply, hostDivf_apply, vsum1_apply, vmean_apply, vsplat_apply, vsplat_apply,
    Ideal.ofBits_zero_f32]
private theorem vscale_apply (ch : Fin 128) : vscale st gm (ix1 ch) = Spec.scaleOf (a1 gm) (Spec.rvar (a3 st)) ch := by
  unfold vscale Spec.scaleOf
  rw [mulf_apply]
  show gm (ix1 ch) * Ideal.rsqrt (addf (vvar st) (vsplat 0x3727C5AC#32) (ix1 ch)) = _
  rw [addf_apply, vvar_apply, vsplat_apply]
end Stages

/-! ## The column and the row-scaled weight read at coordinates -/

/-- A trailing unit axis added: (ch, u) reads ch. -/
private theorem cast_addLast (x : S128.Idx → EReal) (h : S128.ShapeCasts S128x1) (ch : Fin 128) (u : Fin 1) :
    shapeCast S128x1 x h (ix2 ch u) = x (ix1 ch) :=
  shapeCast_apply x h _ _ (by
    have hu : u.val = 0 := by omega
    rw [Shape.rowMajor_val_two, Shape.rowMajor_val_one]
    show ch.val = ch.val * 1 + u.val
    omega)

/-- A vector broadcast to a column reads its entry on axis 0. -/
private theorem bcast_col (x : S128.Idx → EReal) (h : S128.BroadcastsInDim S128x1 ![0]) (ch : Fin 128) (u : Fin 1) :
    broadcastInDim S128x1 ![0] h x (ix2 ch u) = x (ix1 ch) :=
  broadcastInDim_apply _ _ _ _ (ix1 ch) (fun a => match a with | ⟨0, _⟩ => rfl)

/-- A column broadcast along the rows of a matrix reads the row's entry. -/
private theorem bcast_rows (x : S128x1.Idx → EReal) (h : S128x1.BroadcastsInDim S128x256 ![0, 1]) (ch : Fin 128) (k : Fin 256) :
    broadcastInDim S128x256 ![0, 1] h x (ix2 ch k) = x (ix2 ch (0 : Fin 1)) :=
  broadcastInDim_apply _ _ _ _ (ix2 ch (0 : Fin 1)) (fun a => match a with | ⟨0, _⟩ => rfl | ⟨1, _⟩ => rfl)

section Stages2
variable (st : FVec Ideal S32x128x2 .f32) (gm bt : FVec Ideal S128 .f32) (w : FVec Ideal S128x256 .f32)

private theorem vbias_apply (ch : Fin 128) (u : Fin 1) :
    vbias st gm bt (ix2 ch u) = Spec.biasOf (a1 bt) (Spec.rmean (a3 st)) (Spec.scaleOf (a1 gm) (Spec.rvar (a3 st))) ch := by
  unfold vbias Spec.biasOf
  rw [cast_addLast, subf_apply, mulf_apply, vmean_apply, vscale_apply]

private theorem vws_apply (ch : Fin 128) (k : Fin 256) :
    vws st gm w (ix2 ch k) = Spec.wscaled (a2 w) (Spec.scaleOf (a1 gm) (Spec.rvar (a3 st))) ch k := by
  unfold vws Spec.wscaled
  rw [mulf_apply, bcast_rows, bcast_col, vscale_apply]
end Stages2

theorem host1_ws : (StableHlo.after hostOps1 W (Proc.devRef .tc main_call0_v43) : S128x256.Idx → EReal)
    = fun i => Spec.wscaled (a2 (W (Proc.devRef .tc main_call0_v18))) (hscale W) (i 0) (i 1) := by
  have e : (StableHlo.after hostOps1 W (Proc.devRef .tc main_call0_v43) : S128x256.Idx → EReal)
      = vws (W (Proc.devRef .tc main_call0_v19)) (W (Proc.devRef .tc main_arg3)) (W (Proc.devRef .tc main_call0_v18)) := by
    dsimp only [hostOps1]; after_results_simp; rfl
  rw [e]
  funext i
  obtain ⟨a, b, rfl⟩ : ∃ a b, i = ix2 a b := ⟨i 0, i 1, eq_ix2 i⟩
  exact vws_apply _ _ _ a b

theorem host1_bias : (StableHlo.after hostOps1 W (Proc.devRef .tc main_call0_v40) : S128x1.Idx → EReal)
    = fun i => Spec.biasOf (a1 (W (Proc.devRef .tc main_arg4))) (Spec.rmean (a3 (W (Proc.devRef .tc main_call0_v19)))) (hscale W) (i 0) := by
  have e : (StableHlo.after hostOps1 W (Proc.devRef .tc main_call0_v40) : S128x1.Idx → EReal)
      = vbias (W (Proc.devRef .tc main_call0_v19)) (W (Proc.devRef .tc main_arg3)) (W (Proc.devRef .tc main_arg4)) := by
    dsimp only [hostOps1]; after_results_simp; rfl
  rw [e]
  funext i
  obtain ⟨a, b, rfl⟩ : ∃ a b, i = ix2 a b := ⟨i 0, i 1, eq_ix2 i⟩
  exact vbias_apply _ _ _ a b

/-- The concatenated input is not written between the regions. -/
theorem host1_xcat : StableHlo.after hostOps1 W (Proc.devRef .tc main_call0_v7) = W (Proc.devRef .tc main_call0_v7) :=
  StableHlo.after_of_forall_not_mem (b := Proc.devRef .tc main_call0_v7) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

end Cert.ReferenceIdeal.Val
end
-- ==== Proof.RFinal.lean ====
import proofs.«175401_g2000004280588758_pallasbulk_1102_2_alg».proof.Proof.Gen.ReferenceIdeal.Frame
import proofs.«175401_g2000004280588758_pallasbulk_1102_2_alg».proof.Proof.Spec
import Idealize.ShloMosaic.Lib.Pipeline.Value
import Idealize.ShloMosaic.Lib.ValueIdx
import proofs.«175401_g2000004280588758_pallasbulk_1102_2_alg».proof.Proof.RStats
import proofs.«175401_g2000004280588758_pallasbulk_1102_2_alg».proof.Proof.ROut
import proofs.«175401_g2000004280588758_pallasbulk_1102_2_alg».proof.Proof.RHost0
import proofs.«175401_g2000004280588758_pallasbulk_1102_2_alg».proof.Proof.RHost1
import Idealize.ShloMosaic.Lib.StableHlo.Run

noncomputable section

open Idealize.ShloMosaic Idealize.ShloMosaic.TcCoe Idealize.SL.Sem
open Idealize.ShloMosaic.Pipeline (Dat)
open Idealize.ShloMosaic.ValueIdx
open Cert.Spec (a1 a2 a3 a4 col)

/-! The second program's result as ONE function of the five inputs: the last boundary's contents at the result
    buffer, walked back through the final reshape, the second region, the host stretch between the regions, the
    first region, and the host stretch before it, down to the launch memory. -/
namespace Cert.ReferenceIdeal.Val
open Cert.ReferenceIdeal Cert.ReferenceIdeal.Gen

variable (m : (ℓ : Loc nD τ sig) → Buf (Elt Ideal) ℓ) (ρ : Dev nD → PrngReg)

/-- The first host stretch writes neither γ nor β. -/
theorem host0_keep_g (W : Valuation τ sig (Elt Ideal)) : StableHlo.after hostOps0 W (Proc.devRef .tc main_arg3) = W (Proc.devRef .tc main_arg3) := by
  simp only [hostOps0]; after_results
theorem host0_keep_b (W : Valuation τ sig (Elt Ideal)) : StableHlo.after hostOps0 W (Proc.devRef .tc main_arg4) = W (Proc.devRef .tc main_arg4) := by
  simp only [hostOps0]; after_results

/-- An input window's array is as the first region found it. -/
theorem V2_in (c : Dev nD) (w : Fin cfg0.W) (hin : (cfg0.win w).isOut = false) :
    V2 m ρ c (Pipeline.arrRef spec0 w) = V1 m ρ c (Pipeline.arrRef spec0 w) := by
  show W2 m ρ c (Proc.devRef .tc (Pipeline.arrRef spec0 w)) = _
  rw [W2_arr, (dat0 (V1 m ρ) c).arrAt_in w hin, A_eq0]

theorem V2_xc (c : Dev nD) : V2 m ρ c main_call0_v7 = V1 m ρ c main_call0_v7 := V2_in m ρ c 0 rfl
theorem V2_wbd (c : Dev nD) : V2 m ρ c main_call0_v18 = V1 m ρ c main_call0_v18 := V2_in m ρ c 1 rfl
theorem V2_st (c : Dev nD) : V2 m ρ c main_call0_v19 = (dat0 (V1 m ρ) c).arrAt 2 cfg0.N := W2_arr m ρ c 2
theorem V2_g (c : Dev nD) : V2 m ρ c main_arg3 = m ((c : Thread nD τ).loc main_arg3) :=
  (W2_of_ne m ρ c main_arg3 (by decide)).trans (host0_keep_g (W0 m ρ c))
theorem V2_b (c : Dev nD) : V2 m ρ c main_arg4 = m ((c : Thread nD τ).loc main_arg4) :=
  (W2_of_ne m ρ c main_arg4 (by decide)).trans (host0_keep_b (W0 m ρ c))

/-- The result buffer at the end of the run is `Spec.rfinal` of the launch memory's five arguments. -/
theorem final (c : Dev nD) :
    (W5 m ρ c (Proc.devRef .tc main_v0) : S64x128x16x16.Idx → EReal)
      = fun i => Spec.rfinal (a4 (m ((c : Thread nD τ).loc main_arg0))) (Spec.mat11 (m ((c : Thread nD τ).loc main_arg1)))
          (Spec.mat11 (m ((c : Thread nD τ).loc main_arg2))) (a1 (m ((c : Thread nD τ).loc main_arg3))) (a1 (m ((c : Thread nD τ).loc main_arg4)))
          (i 0) (i 1) (Spec.pix (i 2) (i 3)) := by
  have hxc1 : a3 (V1 m ρ c main_call0_v7) = Spec.xcat (a4 (m ((c : Thread nD τ).loc main_arg0))) := by
    funext n k s; exact congrFun (host0_xcat (W0 m ρ c)) (ix3 n k s)
  have hwb1 : a2 (V1 m ρ c main_call0_v18) = Spec.wbd (Spec.mat11 (m ((c : Thread nD τ).loc main_arg1))) (Spec.mat11 (m ((c : Thread nD τ).loc main_arg2))) := by
    funext a b; exact congrFun (host0_wbd (W0 m ρ c)) (ix2 a b)
  have hxc2 : a3 (W2 m ρ c (Proc.devRef .tc main_call0_v7)) = Spec.xcat (a4 (m ((c : Thread nD τ).loc main_arg0))) := by
    rw [show W2 m ρ c (Proc.devRef .tc main_call0_v7) = V1 m ρ c main_call0_v7 from V2_xc m ρ c]; exact hxc1
  have hwb2 : a2 (W2 m ρ c (Proc.devRef .tc main_call0_v18)) = Spec.wbd (Spec.mat11 (m ((c : Thread nD τ).loc main_arg1))) (Spec.mat11 (m ((c : Thread nD τ).loc main_arg2))) := by
    rw [show W2 m ρ c (Proc.devRef .tc main_call0_v18) = V1 m ρ c main_call0_v18 from V2_wbd m ρ c]; exact hwb1
  have hst : a3 (W2 m ρ c (Proc.devRef .tc main_call0_v19)) = Spec.rstats (Spec.wbd (Spec.mat11 (m ((c : Thread nD τ).loc main_arg1))) (Spec.mat11 (m ((c : Thread nD τ).loc main_arg2)))) (Spec.xcat (a4 (m ((c : Thread nD τ).loc main_arg0)))) := by
    rw [show W2 m ρ c (Proc.devRef .tc main_call0_v19) = _ from V2_st m ρ c]; funext g ch j
    refine (congrFun (stats_arr (V1 m ρ) c) (ix3 g ch j)).trans ?_
    rw [hxc1, hwb1]
    rfl
  have hg : a1 (W2 m ρ c (Proc.devRef .tc main_arg3)) = a1 (m ((c : Thread nD τ).loc main_arg3)) := by
    rw [show W2 m ρ c (Proc.devRef .tc main_arg3) = _ from V2_g m ρ c]
  have hb : a1 (W2 m ρ c (Proc.devRef .tc main_arg4)) = a1 (m ((c : Thread nD τ).loc main_arg4)) := by
    rw [show W2 m ρ c (Proc.devRef .tc main_arg4) = _ from V2_b m ρ c]
  have hsc : hscale (W2 m ρ c) = Spec.scaleOf (a1 (m ((c : Thread nD τ).loc main_arg3)))
      (Spec.rvar (Spec.rstats (Spec.wbd (Spec.mat11 (m ((c : Thread nD τ).loc main_arg1))) (Spec.mat11 (m ((c : Thread nD τ).loc main_arg2)))) (Spec.xcat (a4 (m ((c : Thread nD τ).loc main_arg0)))))) := by
    unfold hscale; rw [hg, hst]
  have hws : a2 (V3 m ρ c main_call0_v43) = Spec.wscaled (Spec.wbd (Spec.mat11 (m ((c : Thread nD τ).loc main_arg1))) (Spec.mat11 (m ((c : Thread nD τ).loc main_arg2))))
      (Spec.scaleOf (a1 (m ((c : Thread nD τ).loc main_arg3)))
        (Spec.rvar (Spec.rstats (Spec.wbd (Spec.mat11 (m ((c : Thread nD τ).loc main_arg1))) (Spec.mat11 (m ((c : Thread nD τ).loc main_arg2)))) (Spec.xcat (a4 (m ((c : Thread nD τ).loc main_arg0))))))) := by
    funext a b
    refine (congrFun (host1_ws (W2 m ρ c)) (ix2 a b)).trans ?_
    rw [hsc, hwb2]
    rfl
  have hbi : col (V3 m ρ c main_call0_v40) = Spec.biasOf (a1 (m ((c : Thread nD τ).loc main_arg4)))
      (Spec.rmean (Spec.rstats (Spec.wbd (Spec.mat11 (m ((c : Thread nD τ).loc main_arg1))) (Spec.mat11 (m ((c : Thread nD τ).loc main_arg2)))) (Spec.xcat (a4 (m ((c : Thread nD τ).loc main_arg0))))))
      (Spec.scaleOf (a1 (m ((c : Thread nD τ).loc main_arg3)))
        (Spec.rvar (Spec.rstats (Spec.wbd (Spec.mat11 (m ((c : Thread nD τ).loc main_arg1))) (Spec.mat11 (m ((c : Thread nD τ).loc main_arg2)))) (Spec.xcat (a4 (m ((c : Thread nD τ).loc main_arg0))))))) := by
    funext a
    refine (congrFun (host1_bias (W2 m ρ c)) (ix2 a (0 : Fin 1))).trans ?_
    rw [hsc, hb, hst]
    rfl
  have hxc3 : a3 (V3 m ρ c main_call0_v7) = Spec.xcat (a4 (m ((c : Thread nD τ).loc main_arg0))) := by
    rw [show V3 m ρ c main_call0_v7 = W2 m ρ c (Proc.devRef .tc main_call0_v7) from host1_xcat (W2 m ρ c)]; exact hxc2
  refine (host2_res (W4 m ρ c)).trans ?_
  funext i
  refine (congrFun ((W4_arr m ρ c 3).trans (out_arr (V3 m ρ) c)) (ix3 (i 0) (i 1) (Spec.pix (i 2) (i 3)))).trans ?_
  rw [hws, hbi, hxc3]
  rfl

end Cert.ReferenceIdeal.Val
end
-- ==== Proof.Math.lean ====
/-
  The two programs compute one function.  With y the stacked convolution of the activated, strided input:
  the block-diagonal 128×256 product over the concatenated input IS y (the off-diagonal blocks are zero words,
  and 0 · x = 0 on the extended reals); the partial sums added over 8 points of 8 images and over 32 points of
  2 images are both the sum over all 64 images (addition on the extended reals is commutative and associative);
  S · 2⁻¹⁴ = S / 16384 on every extended real; so mean, variance, scale and bias agree.  Last,
  Σ_k (w[ch,k] · scale) · a_k = (Σ_k w[ch,k] · a_k) · scale needs every factor FINITE (on the extended reals
  a sum of infinities of both signs does not distribute): the weights and the activated inputs are finite because
  the inputs are, and the scale is finite because γ is and rsqrt of a positive extended real (var + ε ≥ ε > 0) is a real.
-/
import proofs.«175401_g2000004280588758_pallasbulk_1102_2_alg».proof.Proof.Spec
import Mathlib.Data.EReal.Basic
import Mathlib.Data.EReal.Operations
import Mathlib.Algebra.BigOperators.Fin
import Mathlib.Data.Fintype.BigOperators

noncomputable section

open scoped BigOperators

namespace Cert.Spec

open Idealize.ShloMosaic

/-! ## The four constant words -/

/-- The reciprocal-count word denotes 2⁻¹⁴. -/
private theorem invCnt_eq : invCnt = ((1 / 16384 : ℝ) : EReal) := by
  simp [invCnt, Ideal.ofBits, Ideal.ieee, -EReal.coe_mul]; norm_num

/-- The count word denotes 16384. -/
private theorem cnt_eq : cnt = ((16384 : ℝ) : EReal) := by
  simp [cnt, Ideal.ofBits, Ideal.ieee, -EReal.coe_mul]; norm_num

/-- ε denotes a positive real. -/
private theorem eps_eq : ∃ r : ℝ, 0 < r ∧ eps = (r : EReal) := by
  refine ⟨_, ?_, by simp [eps, Ideal.ofBits, Ideal.ieee, -EReal.coe_mul]; rfl⟩
  positivity

/-- The slope denotes a real. -/
private theorem slope_eq : ∃ r : ℝ, slope = (r : EReal) :=
  ⟨_, by simp [slope, Ideal.ofBits, Ideal.ieee, -EReal.coe_mul]; rfl⟩

/-- Multiplying by 2⁻¹⁴ is dividing by 16384, at the infinities too. -/
private theorem mul_invCnt (x : EReal) : x * invCnt = Ideal.div x cnt := by
  rw [invCnt_eq, cnt_eq, Ideal.div_coe (by norm_num)]

/-! ## Regrouping finite sums (only commutativity and associativity of addition) -/

/-- A sum over 256 indices is the sum over the lower 128 plus the sum over the upper 128. -/
private theorem sum_split {M : Type*} [AddCommMonoid M] (f : Fin 256 → M) :
    ∑ k, f k = ∑ k : Fin 128, f ⟨k.val, by omega⟩ + ∑ k : Fin 128, f ⟨128 + k.val, by omega⟩ :=
  Fin.sum_univ_add (a := 128) (b := 128) f

/-- Summing a·b terms in a groups of b consecutive ones is summing them all. -/
private theorem sum_regroup {M : Type*} [AddCommMonoid M] (a b : Nat) (f : Fin (a * b) → M)
    (h : ∀ (g : Fin a) (i : Fin b), b * g.val + i.val < a * b) :
    ∑ g : Fin a, ∑ i : Fin b, f ⟨b * g.val + i.val, h g i⟩ = ∑ n, f n := by
  rw [← Equiv.sum_comp finProdFinEquiv f, Fintype.sum_prod_type]
  refine Finset.sum_congr rfl fun g _ => Finset.sum_congr rfl fun i _ => ?_
  congr 1
  apply Fin.ext
  simp only [finProdFinEquiv, Equiv.coe_fn_mk]
  omega

private theorem sum_8_8 {M : Type*} [AddCommMonoid M] (f : Fin 64 → M) :
    ∑ g : Fin 8, ∑ i : Fin 8, f ⟨8 * g.val + i.val, by omega⟩ = ∑ n, f n :=
  sum_regroup 8 8 f _

private theorem sum_32_2 {M : Type*} [AddCommMonoid M] (f : Fin 64 → M) :
    ∑ g : Fin 32, ∑ i : Fin 2, f ⟨2 * g.val + i.val, by omega⟩ = ∑ n, f n :=
  sum_regroup 32 2 f _

/-- The first program's partial sums added over its 8 grid points: the sums over all 64 images. -/
private theorem tot_kstats (w1 w2 : T2 64 128) (x1 x2 : T3 64 128 256) (ch : Fin 128) (j : Fin 2) :
    tot (kstats w1 w2 x1 x2) ch j =
      if j.val = 0 then ∑ n : Fin 64, ∑ s : Fin 256, conv2 w1 w2 x1 x2 n ch s
      else ∑ n : Fin 64, ∑ s : Fin 256, conv2 w1 w2 x1 x2 n ch s * conv2 w1 w2 x1 x2 n ch s := by
  unfold tot kstats
  by_cases hj : j.val = 0
  · simp only [if_pos hj]
    exact sum_8_8 (fun n => ∑ s : Fin 256, conv2 w1 w2 x1 x2 n ch s)
  · simp only [if_neg hj]
    exact sum_8_8 (fun n => ∑ s : Fin 256, conv2 w1 w2 x1 x2 n ch s * conv2 w1 w2 x1 x2 n ch s)

/-- The second program's partial sums added over its 32 grid points: the sums over all 64 images. -/
private theorem tot_rstats (w : T2 128 256) (xc : T3 64 256 256) (ch : Fin 128) (j : Fin 2) :
    tot (rstats w xc) ch j =
      if j.val = 0 then ∑ n : Fin 64, ∑ s : Fin 256, rconv w xc n ch s
      else ∑ n : Fin 64, ∑ s : Fin 256, rconv w xc n ch s * rconv w xc n ch s := by
  unfold tot rstats
  by_cases hj : j.val = 0
  · simp only [if_pos hj]
    exact sum_32_2 (fun n => ∑ s : Fin 256, rconv w xc n ch s)
  · simp only [if_neg hj]
    exact sum_32_2 (fun n => ∑ s : Fin 256, rconv w xc n ch s * rconv w xc n ch s)

/-! ## The block-diagonal product is the stacked convolution -/

private theorem wbd_lo_lo (w1 w2 : T2 64 128) (ch : Fin 128) (h : ch.val < 64) (k : Fin 128) :
    wbd w1 w2 ch ⟨k.val, by omega⟩ = w1 ⟨ch.val, h⟩ k := by
  unfold wbd
  rw [dif_pos h, dif_pos k.isLt]

private theorem wbd_lo_hi (w1 w2 : T2 64 128) (ch : Fin 128) (h : ch.val < 64) (k : Fin 128) :
    wbd w1 w2 ch ⟨128 + k.val, by omega⟩ = 0 := by
  unfold wbd
  rw [dif_pos h, dif_neg (by simp)]

private theorem wbd_hi_lo (w1 w2 : T2 64 128) (ch : Fin 128) (h : ¬ ch.val < 64) (k : Fin 128) :
    wbd w1 w2 ch ⟨k.val, by omega⟩ = 0 := by
  unfold wbd
  rw [dif_neg h, dif_pos k.isLt]

private theorem wbd_hi_hi (w1 w2 : T2 64 128) (ch : Fin 128) (h : ¬ ch.val < 64) (k : Fin 128) :
    wbd w1 w2 ch ⟨128 + k.val, by omega⟩ = w2 ⟨ch.val - 64, by omega⟩ k := by
  unfold wbd
  rw [dif_neg h, dif_neg (by simp)]
  congr 1
  apply Fin.ext
  simp

private theorem xcat_lo (X : T4 64 128 32 32) (n : Fin 64) (k : Fin 128) (s : Fin 256) :
    xcat X n ⟨k.val, by omega⟩ s = pick X 0 n k s := by
  unfold xcat
  rw [dif_pos k.isLt]

private theorem xcat_hi (X : T4 64 128 32 32) (n : Fin 64) (k : Fin 128) (s : Fin 256) :
    xcat X n ⟨128 + k.val, by omega⟩ s = pick X 1 n k s := by
  unfold xcat
  rw [dif_neg (by simp)]
  congr 1
  apply Fin.ext
  simp

/-- Σ over 256 columns of the block-diagonal weight: one diagonal block survives, the other block is zero. -/
private theorem rconv_wbd_xcat (X : T4 64 128 32 32) (w1 w2 : T2 64 128) (n : Fin 64) (ch : Fin 128) (s : Fin 256) :
    rconv (wbd w1 w2) (xcat X) n ch s =
      conv2 w1 w2 (fun n k s => act (pick X 0 n k s)) (fun n k s => act (pick X 1 n k s)) n ch s := by
  unfold rconv conv2 conv
  rw [sum_split]
  by_cases h : ch.val < 64
  · rw [dif_pos h]
    simp only [wbd_lo_lo w1 w2 ch h, wbd_lo_hi w1 w2 ch h, xcat_lo, zero_mul, Finset.sum_const_zero, add_zero]
  · rw [dif_neg h]
    simp only [wbd_hi_lo w1 w2 ch h, wbd_hi_hi w1 w2 ch h, xcat_hi, zero_mul, Finset.sum_const_zero, zero_add]

/-- The stacked convolution read through the block-diagonal product, as functions. -/
private theorem rconv_eq (X : T4 64 128 32 32) (w1 w2 : T2 64 128) :
    rconv (wbd w1 w2) (xcat X) =
      conv2 w1 w2 (fun n k s => act (pick X 0 n k s)) (fun n k s => act (pick X 1 n k s)) := by
  funext n ch s
  exact rconv_wbd_xcat X w1 w2 n ch s

/-! ## Sums, mean and variance agree -/

private theorem tot_eq (X : T4 64 128 32 32) (w1 w2 : T2 64 128) :
    tot (rstats (wbd w1 w2) (xcat X)) =
      tot (kstats w1 w2 (fun n k s => act (pick X 0 n k s)) (fun n k s => act (pick X 1 n k s))) := by
  funext ch j
  rw [tot_kstats, tot_rstats, rconv_eq]

private theorem mean_eq (X : T4 64 128 32 32) (w1 w2 : T2 64 128) :
    rmean (rstats (wbd w1 w2) (xcat X)) =
      kmean (kstats w1 w2 (fun n k s => act (pick X 0 n k s)) (fun n k s => act (pick X 1 n k s))) := by
  funext ch
  unfold rmean kmean
  rw [tot_eq, mul_invCnt]

private theorem var_eq (X : T4 64 128 32 32) (w1 w2 : T2 64 128) :
    rvar (rstats (wbd w1 w2) (xcat X)) =
      kvar (kstats w1 w2 (fun n k s => act (pick X 0 n k s)) (fun n k s => act (pick X 1 n k s))) := by
  funext ch
  unfold rvar kvar
  rw [mean_eq, tot_eq, mul_invCnt]

/-! ## Finiteness, and the one distributive step that needs it -/

/-- The activation of a real is a real (x itself, or the slope times x). -/
private theorem act_real (x : EReal) (hx : ∃ r : ℝ, x = (r : EReal)) : ∃ r : ℝ, act x = (r : EReal) := by
  obtain ⟨r, rfl⟩ := hx
  obtain ⟨c, hc⟩ := slope_eq
  unfold act Scalar.select
  split_ifs
  · exact ⟨r, rfl⟩
  · exact ⟨c * r, by rw [hc, EReal.coe_mul]⟩

/-- rsqrt (v + ε) is a real for every v ≥ 0: at ⊤ it is 0, at a real v it is 1/√(v + ε) with v + ε > 0. -/
private theorem rsqrt_real (v : EReal) (hv : 0 ≤ v) : ∃ r : ℝ, Ideal.rsqrt (v + eps) = (r : EReal) := by
  obtain ⟨e, he, heq⟩ := eps_eq
  rw [heq]
  induction v using EReal.rec with
  | bot => exact absurd hv (not_le.mpr EReal.bot_lt_zero)
  | coe x =>
    have hx : 0 ≤ x := EReal.coe_nonneg.mp hv
    rw [← EReal.coe_add, Ideal.rsqrt_coe, if_neg (not_lt.mpr (by linarith)), if_neg (ne_of_gt (by linarith))]
    exact ⟨_, rfl⟩
  | top =>
    rw [EReal.top_add_coe, Ideal.rsqrt_top]
    exact ⟨0, rfl⟩

/-- The scale γ · rsqrt(var + ε) is a real when γ is and var ≥ 0. -/
private theorem scale_real (gm var : T1 128) (hg : ∀ ch, ∃ r : ℝ, gm ch = (r : EReal)) (hv : ∀ ch, 0 ≤ var ch)
    (ch : Fin 128) : ∃ r : ℝ, scaleOf gm var ch = (r : EReal) := by
  obtain ⟨g, hg⟩ := hg ch
  obtain ⟨q, hq⟩ := rsqrt_real (var ch) (hv ch)
  exact ⟨g * q, by unfold scaleOf; rw [hg, hq, EReal.coe_mul]⟩

/-- The inclusion of the reals commutes with finite sums. -/
private theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- Σ_k (a_k · c) · b_k = (Σ_k a_k · b_k) · c when every factor is a real. -/
private theorem sum_mul_real {K : Nat} (a b : Fin K → EReal) (c : EReal)
    (ha : ∀ k, ∃ r : ℝ, a k = (r : EReal)) (hb : ∀ k, ∃ r : ℝ, b k = (r : EReal))
    (hc : ∃ r : ℝ, c = (r : EReal)) :
    ∑ k, (a k * c) * b k = (∑ k, a k * b k) * c := by
  choose a' ha using ha
  choose b' hb using hb
  obtain ⟨c', rfl⟩ := hc
  simp only [ha, hb, ← EReal.coe_mul, ← coe_sum]
  congr 1
  rw [Finset.sum_mul]
  exact Finset.sum_congr rfl fun k _ => mul_right_comm _ _ _

/-- Every entry of the block-diagonal weight is a real. -/
private theorem wbd_real (w1 w2 : T2 64 128) (hw1 : ∀ c k, ∃ r : ℝ, w1 c k = (r : EReal))
    (hw2 : ∀ c k, ∃ r : ℝ, w2 c k = (r : EReal)) (ch : Fin 128) (k : Fin 256) :
    ∃ r : ℝ, wbd w1 w2 ch k = (r : EReal) := by
  unfold wbd
  split_ifs
  · exact hw1 _ _
  · exact ⟨0, rfl⟩
  · exact ⟨0, rfl⟩
  · exact hw2 _ _

/-- Every entry of the concatenated input is a real. -/
private theorem xcat_real (X : T4 64 128 32 32) (hX : ∀ n k h w, ∃ r : ℝ, X n k h w = (r : EReal))
    (n : Fin 64) (k : Fin 256) (s : Fin 256) : ∃ r : ℝ, xcat X n k s = (r : EReal) := by
  unfold xcat pick
  split_ifs
  · exact hX _ _ _ _
  · exact hX _ _ _ _

/-- Both results are one function of the five inputs, when x, w1, w2 and γ hold real numbers. -/
theorem kfinal_eq_rfinal (X : T4 64 128 32 32) (w1 w2 : T2 64 128) (gm bt : T1 128)
    (hX : ∀ n k h w, ∃ r : ℝ, X n k h w = (r : EReal)) (hw1 : ∀ c k, ∃ r : ℝ, w1 c k = (r : EReal))
    (hw2 : ∀ c k, ∃ r : ℝ, w2 c k = (r : EReal)) (hg : ∀ ch, ∃ r : ℝ, gm ch = (r : EReal)) :
    kfinal X w1 w2 gm bt = rfinal X w1 w2 gm bt := by
  funext n ch s
  unfold kfinal rfinal kout rout
  rw [var_eq, mean_eq, ← rconv_eq]
  congr 1
  unfold rconv wscaled
  exact (sum_mul_real (fun k => wbd w1 w2 ch k) (fun k => act (xcat X n k s)) _
    (wbd_real w1 w2 hw1 hw2 ch) (fun k => act_real _ (xcat_real X hX n k s))
    (scale_real gm _ hg (fun _ => le_max_right _ _) ch)).symm

end Cert.Spec

end
-- ==== Proof.PreFin.lean ====
/-
  The precondition read: "every float input is finite" (|x| < +∞ at every index of each of the five inputs, all
  five conjoined) gives each entry of each input as a real number.
-/
import proofs.«175401_g2000004280588758_pallasbulk_1102_2_alg».proof.Proof.Gen.Pre_finite_inputs
import Idealize.ShloMosaic.Lib.ReduceAll
import Idealize.ShloMosaic.Lib.ValueIdx
import Idealize.ShloMosaic.PureOps.Ideal

noncomputable section

namespace Cert.PreFin

open Idealize.ShloMosaic Cert.Pre_finite_inputs

/-- The f32 word 0x7F800000 (exponent all ones, fraction zero, sign clear) denotes +∞. -/
private theorem inf_word : Ideal.ofBits .f32 0x7F800000#32 = (⊤ : EReal) := by
  simp [Ideal.ofBits, Ideal.ieee]

/-- An extended real whose absolute value max x (-x) lies strictly below +∞ is neither ⊤ nor ⊥: it is a real. -/
private theorem real_of_abs_lt (x : EReal)
    (h : Ideal.cmp .olt (max x (-x)) (Ideal.ofBits .f32 0x7F800000#32) = 1#1) : ∃ r : ℝ, x = (r : EReal) := by
  rw [inf_word] at h
  have hlt : max x (-x) < ⊤ := by
    by_contra hn
    simp [Ideal.cmp, hn] at h
  induction x using EReal.rec with
  | bot => simp at hlt
  | top => simp at hlt
  | coe r => exact ⟨r, rfl⟩

/-- One input: where the conjunction over all its indices of |x i| < +∞ is 1, every entry is a real.  The
    conjunction lands in a rank-0 array, which has a single index, so every index of x is one of its terms. -/
private theorem all_real {s : Shape} {axes : List (Fin s.rank)} (x : FVec Ideal s .f32)
    (bc : S_.BroadcastsInDim s (![] : Fin 0 → Fin s.rank)) (rd : s.ReducesTo axes S_) (hu : 0 < S_.numel)
    (init : IVec S_ 1) (j : S_.Idx)
    (e : Host.reduce IntOp.andi
        (cmpf .olt (Host.absf x) (broadcastInDim s ![] bc (constant S_ .f32 0x7F800000#32))) init rd hu j = 1#1)
    (i : s.Idx) : ∃ r : ℝ, x i = (r : EReal) := by
  haveI : Subsingleton S_.Idx := ⟨fun a b => funext fun d => d.elim0⟩
  -- the term at i is the comparison max (x i) (-(x i)) < +∞, read through the entrywise operations
  have hi := Host.reduce_andi_all _ init rd hu j e i
  exact real_of_abs_lt (x i) hi

/-- Where the printed predicate is all ones, every entry of every input is a real. -/
theorem real_of_pre [Cert.Pre_finite_inputs.Facts] (x0 : FVec Ideal S64x128x32x32 .f32) (x1 x2 : FVec Ideal S64x128x1x1 .f32) (x3 x4 : FVec Ideal S128 .f32)
    (h : Cert.Pre_finite_inputs.fn (F := Ideal) x0 x1 x2 x3 x4 = (fun _ => 1#1)) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) := by
  -- the predicate at its one index: ((((p0 ∧ p1) ∧ p2) ∧ p3) ∧ p4), each p the conjunction over one input
  have h0 := congrFun h ValueIdx.ix0
  dsimp only [fn, fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨all_real x0 _ _ _ _ _ e0, all_real x1 _ _ _ _ _ e1, all_real x2 _ _ _ _ _ e2,
    all_real x3 _ _ _ _ _ e3, all_real x4 _ _ _ _ _ e4⟩

end Cert.PreFin

end
-- ==== Proof.lean ====
/-
  The certificate: a strided pair of 1×1 convolutions of the LeakyReLU of the input, stacked on the channel
  axis and batch-normalised with the batch's own statistics, computed two ways.

  Frames: each program's run terminates with its arguments unchanged (the generated frames).
  Preserves: the ideal pass rewrote nothing, so there is nothing to state.
  Algebraic: at the ideal instance each program's result buffer ends at one function of the five inputs
  (`Spec.kfinal`, `Spec.rfinal`: each run walked back from its last boundary through its two regions and the host
  operations around them), and the two functions agree where the inputs are finite (`Spec.kfinal_eq_rfinal`:
  the block-diagonal product is the pair of products, the partial sums regroup, S · 2⁻¹⁴ = S / 16384, and the
  scale moves across the contraction's sum because every factor is a real number).
-/
import proofs.«175401_g2000004280588758_pallasbulk_1102_2_alg».proof.Defs
import proofs.«175401_g2000004280588758_pallasbulk_1102_2_alg».proof.Proof.Gen.Kernel
import proofs.«175401_g2000004280588758_pallasbulk_1102_2_alg».proof.Proof.Gen.Kernel.Skeleton
import proofs.«175401_g2000004280588758_pallasbulk_1102_2_alg».proof.Proof.Gen.Kernel.Launch
import proofs.«175401_g2000004280588758_pallasbulk_1102_2_alg».proof.Proof.Gen.Kernel.Points
import proofs.«175401_g2000004280588758_pallasbulk_1102_2_alg».proof.Proof.Gen.Kernel.Frame
import proofs.«175401_g2000004280588758_pallasbulk_1102_2_alg».proof.Proof.Gen.KernelIdeal
import proofs.«175401_g2000004280588758_pallasbulk_1102_2_alg».proof.Proof.Gen.KernelIdeal.Skeleton
import proofs.«175401_g2000004280588758_pallasbulk_1102_2_alg».proof.Proof.Gen.KernelIdeal.Launch
import proofs.«175401_g2000004280588758_pallasbulk_1102_2_alg».proof.Proof.Gen.KernelIdeal.Points
import proofs.«175401_g2000004280588758_pallasbulk_1102_2_alg».proof.Proof.Gen.KernelIdeal.Frame
import proofs.«175401_g2000004280588758_pallasbulk_1102_2_alg».proof.Proof.Gen.ReferenceIdeal
import proofs.«175401_g2000004280588758_pallasbulk_1102_2_alg».proof.Proof.Gen.ReferenceIdeal.Skeleton
import proofs.«175401_g2000004280588758_pallasbulk_1102_2_alg».proof.Proof.Gen.ReferenceIdeal.Launch
import proofs.«175401_g2000004280588758_pallasbulk_1102_2_alg».proof.Proof.Gen.ReferenceIdeal.Points
import proofs.«175401_g2000004280588758_pallasbulk_1102_2_alg».proof.Proof.Gen.ReferenceIdeal.Frame
import proofs.«175401_g2000004280588758_pallasbulk_1102_2_alg».proof.Proof.Gen.Pre_finite_inputs
import proofs.«175401_g2000004280588758_pallasbulk_1102_2_alg».proof.Proof.KRun
import proofs.«175401_g2000004280588758_pallasbulk_1102_2_alg».proof.Proof.RRun
import proofs.«175401_g2000004280588758_pallasbulk_1102_2_alg».proof.Proof.KFinal
import proofs.«175401_g2000004280588758_pallasbulk_1102_2_alg».proof.Proof.RFinal
import proofs.«175401_g2000004280588758_pallasbulk_1102_2_alg».proof.Proof.Math
import proofs.«175401_g2000004280588758_pallasbulk_1102_2_alg».proof.Proof.PreFin
import Idealize.ShloMosaic.Adequacy
import Idealize.ShloMosaic.Init

noncomputable section

namespace Cert.Proof

open Idealize.ShloMosaic Idealize.SL.Sem Idealize.ShloMosaic.ValueIdx

/-- The two idealized programs end with equal results: each run's result buffer is its function of the inputs,
    the inputs agree, and the two functions agree on finite inputs. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Gen.W4 m ρ c (Proc.devRef .tc Cert.KernelIdeal.main_v0), Cert.KernelIdeal.Val.run (F := Ideal) m ρ, ?_⟩
  refine (θ_run Cert.ReferenceIdeal.defs _ _).mono (fun r h c => ⟨(h c).1.trans ?_, (h c).2⟩) (Cert.ReferenceIdeal.Val.run (F := Ideal) m' ρ')
  obtain ⟨h0, h1, h2, h3, h4⟩ := hagree c
  obtain ⟨f0, f1, f2, f3, -⟩ := Cert.PreFin.real_of_pre _ _ _ _ _ (hpre c)
  refine (Cert.ReferenceIdeal.Val.final m' ρ' c).trans (Eq.trans ?_ (Cert.KernelIdeal.Val.final m ρ c).symm)
  funext i
  rw [h0, h1, h2, h3, h4]
  exact (congrFun (congrFun (congrFun (Cert.Spec.kfinal_eq_rfinal _ _ _ _ _
    (fun n k h w => f0 (ix4 n k h w)) (fun a b => f1 (ix4 a b 0 0)) (fun a b => f2 (ix4 a b 0 0)) (fun a => f3 (ix1 a))) (i 0)) (i 1)) (Cert.Spec.pix (i 2) (i 3))).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
